-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S524288x128 : Shape := ⟨2, ![524288, 128]⟩
abbrev S524288 : Shape := ⟨1, ![524288]⟩
abbrev S256x128 : Shape := ⟨2, ![256, 128]⟩
abbrev S128 : Shape := ⟨1, ![128]⟩
abbrev S128x128 : Shape := ⟨2, ![128, 128]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S524288x128 : S_.BroadcastsInDim S524288x128 (![] : Fin 0 → Fin S524288x128.rank)
  reducesTo_S524288x128_S_d0_1 : S524288x128.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S524288 : S_.BroadcastsInDim S524288 (![] : Fin 0 → Fin S524288.rank)
  reducesTo_S524288_S_d0 : S524288.ReducesTo [0] S_

variable [Facts]

def fn_part3 {F : FTy → Type} [FloatOps F] (main_arg2 : IVec S524288 32) (main_v48 : IVec S_ 1) (main_v50 : IVec S524288 1) : IVec S_ 1 :=
  let main_c_19 : IVec S_ 32 := constantI S_ 32 4096#32
  let main_v51 : IVec S524288 32 := broadcastInDim S524288 ![] bcast_S_S524288 main_c_19
  let main_v52 : IVec S524288 1 := cmpi .slt main_arg2 main_v51
  let main_v53 : IVec S524288 1 := andi main_v50 main_v52
  let main_c_20 : IVec S_ 1 := constantI S_ 1 1#1
  let main_v54 : IVec S_ 1 := (fun x v => Host.reduce IntOp.andi x v reducesTo_S524288_S_d0 h_S_) main_v53 main_c_20
  let main_v55 : IVec S_ 1 := andi main_v48 main_v54
  main_v55

def fn_part2 {F : FTy → Type} [FloatOps F] (main_arg2 : IVec S524288 32) (main_arg8 : FVec F S128 .f32) (main_arg9 : FVec F S128x128 .f32) (main_arg10 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_c_18 : IVec S_ 32 := constantI S_ 32 0#32
  let main_v49 : IVec S524288 32 := broadcastInDim S524288 ![] bcast_S_S524288 main_c_18
  let main_v50 : IVec S524288 1 := cmpi .sge main_arg2 main_v49
  fn_part3 (F := F) main_arg2 main_v48 main_v50

def fn_part1 {F : FTy → Type} [FloatOps F] (main_arg2 : IVec S524288 32) (main_arg5 : FVec F S128x128 .f32) (main_arg6 : FVec F S128 .f32) (main_arg7 : FVec F S256x128 .f32) (main_arg8 : FVec F S128 .f32) (main_arg9 : FVec F S128x128 .f32) (main_arg10 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg7
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg2 main_arg8 main_arg9 main_arg10 main_v33

def fn {F : FTy → Type} [FloatOps F] (main_arg0 : FVec F S4096x128 .f32) (main_arg1 : FVec F S524288x128 .f32) (main_arg2 : IVec S524288 32) (main_arg3 : FVec F S256x128 .f32) (main_arg4 : FVec F S128 .f32) (main_arg5 : FVec F S128x128 .f32) (main_arg6 : FVec F S128 .f32) (main_arg7 : FVec F S256x128 .f32) (main_arg8 : FVec F S128 .f32) (main_arg9 : FVec F S128x128 .f32) (main_arg10 : FVec F S128 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S524288x128 .f32 := Host.absf main_arg1
  let main_cst_0 : FVec F S_ .f32 := constant S_ .f32 0x7F800000#32
  let main_v5 : FVec F S524288x128 .f32 := broadcastInDim S524288x128 ![] bcast_S_S524288x128 main_cst_0
  let main_v6 : IVec S524288x128 1 := cmpf .olt main_v4 main_v5
  let main_c_1 : IVec S_ 1 := constantI S_ 1 1#1
  let main_v7 : IVec S_ 1 := (fun x v => Host.reduce IntOp.andi x v reducesTo_S524288x128_S_d0_1 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg5 main_arg6 main_arg7 main_arg8 main_arg9 main_arg10 main_v13 main_v16
-- ==== Kernel.lean ====
abbrev S4096x128 : Shape := ⟨2, ![4096, 128]⟩
abbrev S524288x128 : Shape := ⟨2, ![524288, 128]⟩
abbrev S524288 : Shape := ⟨1, ![524288]⟩
abbrev S256x128 : Shape := ⟨2, ![256, 128]⟩
abbrev S128 : Shape := ⟨1, ![128]⟩
abbrev S128x128 : Shape := ⟨2, ![128, 128]⟩
abbrev S524288x1 : Shape := ⟨2, ![524288, 1]⟩
abbrev S1x128 : Shape := ⟨2, ![1, 128]⟩
abbrev S1024x128 : Shape := ⟨2, ![1024, 128]⟩
abbrev S1024x1 : Shape := ⟨2, ![1024, 1]⟩
abbrev S1024 : Shape := ⟨1, ![1024]⟩
abbrev S4096x1024 : Shape := ⟨2, ![4096, 1024]⟩
abbrev S1x1024 : Shape := ⟨2, ![1, 1024]⟩
abbrev S4096x256 : Shape := ⟨2, ![4096, 256]⟩
abbrev S1024x4096 : Shape := ⟨2, ![1024, 4096]⟩
abbrev S1024x256 : Shape := ⟨2, ![1024, 256]⟩

abbrev nBuf : Space → Nat
  | .hbm => 18
  | .vmem => 22
  | .smem => 0
  | _ => 0

abbrev bufTy : (tb : Table) → Fin (tcTables nBuf tb) → BufTy
  | .hbm, ⟨0, _⟩ => ⟨S4096x128, .f32⟩
  | .hbm, ⟨1, _⟩ => ⟨S524288x128, .f32⟩
  | .hbm, ⟨2, _⟩ => ⟨S524288, .i32⟩
  | .hbm, ⟨3, _⟩ => ⟨S256x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S256x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S524288x1, .i32⟩
  | .hbm, ⟨12, _⟩ => ⟨S1x128, .f32⟩
  | .hbm, ⟨13, _⟩ => ⟨S1x128, .f32⟩
  | .hbm, ⟨14, _⟩ => ⟨S1x128, .f32⟩
  | .hbm, ⟨15, _⟩ => ⟨S1x128, .f32⟩
  | .hbm, ⟨16, _⟩ => ⟨S4096x128, .f32⟩
  | .hbm, ⟨17, _⟩ => ⟨S524288x128, .f32⟩
  | .local _ .vmem, ⟨0, _⟩ => ⟨S1024x128, .f32⟩
  | .local _ .vmem, ⟨1, _⟩ => ⟨S1024x128, .f32⟩
  | .local _ .vmem, ⟨2, _⟩ => ⟨S1024x1, .i32⟩
  | .local _ .vmem, ⟨3, _⟩ => ⟨S1024x1, .i32⟩
  | .local _ .vmem, ⟨4, _⟩ => ⟨S4096x128, .f32⟩
  | .local _ .vmem, ⟨5, _⟩ => ⟨S256x128, .f32⟩
  | .local _ .vmem, ⟨6, _⟩ => ⟨S1x128, .f32⟩
  | .local _ .vmem, ⟨7, _⟩ => ⟨S128x128, .f32⟩
  | .local _ .vmem, ⟨8, _⟩ => ⟨S1x128, .f32⟩
  | .local _ .vmem, ⟨9, _⟩ => ⟨S4096x128, .f32⟩
  | .local _ .vmem, ⟨10, _⟩ => ⟨S4096x128, .f32⟩
  | .local _ .vmem, ⟨11, _⟩ => ⟨S1024x128, .f32⟩
  | .local _ .vmem, ⟨12, _⟩ => ⟨S1024x128, .f32⟩
  | .local _ .vmem, ⟨13, _⟩ => ⟨S1024x1, .i32⟩
  | .local _ .vmem, ⟨14, _⟩ => ⟨S1024x1, .i32⟩
  | .local _ .vmem, ⟨15, _⟩ => ⟨S4096x128, .f32⟩
  | .local _ .vmem, ⟨16, _⟩ => ⟨S256x128, .f32⟩
  | .local _ .vmem, ⟨17, _⟩ => ⟨S1x128, .f32⟩
  | .local _ .vmem, ⟨18, _⟩ => ⟨S128x128, .f32⟩
  | .local _ .vmem, ⟨19, _⟩ => ⟨S1x128, .f32⟩
  | .local _ .vmem, ⟨20, _⟩ => ⟨S1024x128, .f32⟩
  | .local _ .vmem, ⟨21, _⟩ => ⟨S1024x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem7_1 : DmaSem sig := 20

abbrev nD : Nat := 1
abbrev τ : Topo := Topo.v7x

variable {F : FTy → Type} [FloatOps F]

abbrev grid0 : Pipeline.Grid := ⟨1, ![512], ![false]⟩

def k0_cond2 (i : grid0.Coords) : BitVec 1 :=
  let arg0 : BitVec 32 := BitVec.ofNat 32 (i 0).val
  let c511_i32 : BitVec 32 := 511#32
  let v21 : BitVec 1 := Scalar.cmpi .eq arg0 c511_i32
  let v22 : BitVec 32 := Scalar.extui v21
  let c0_i32_8 : BitVec 32 := 0#32
  let v23 : BitVec 1 := Scalar.cmpi .ne v22 c0_i32_8
  v23

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![512], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S4096x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S1024x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  shapeCasts_S524288_S524288x1 : S524288.ShapeCasts S524288x1
  shapeCasts_S128_S1x128 : S128.ShapeCasts S1x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  shapeCasts_S1024x1_S1024 : S1024x1.ShapeCasts S1024
  iota_S4096x1024_d0_w32 : S4096x1024.Iotas .tc 32 [0]
  shapeCasts_S1024_S1x1024 : S1024.ShapeCasts S1x1024
  broadcasts_S1x1024_S4096x1024 : S1x1024.Broadcasts S4096x1024
  natLt_1_32 : 1 < 32
  bitsLt_bf16_f32 : FTy.bits .bf16 < FTy.bits .f32
  inb_S1024x128_S1024x128_0_0 : ∀ a, (![0, 0] : Fin 2 → Nat) a + S1024x128.size a ≤ S1024x128.size a
  h_S1024x128 : 0 < S1024x128.numel
  concatenates_S4096x128_S4096x128_S4096x256_d1 : Shape.Concatenates [S4096x128, S4096x128] S4096x256 1
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  inb_S128x128_S128x128_0_0 : ∀ a, (![0, 0] : Fin 2 → Nat) a + S128x128.size a ≤ S128x128.size a
  h_S128x128 : 0 < S128x128.numel
  iota_S1024x4096_d1_w32 : S1024x4096.Iotas .tc 32 [1]
  shapeCasts_S1024_S1024x1 : S1024.ShapeCasts S1024x1
  broadcasts_S1024x1_S1024x4096 : S1024x1.Broadcasts S1024x4096
  concatenates_S1024x128_S1024x128_S1024x256_d1 : Shape.Concatenates [S1024x128, S1024x128] S1024x256 1
  broadcasts_S1x128_S1024x128 : S1x128.Broadcasts S1024x128
  dot_S4096x1024_S1024x128_S4096x128_1_0_0_1_n_n_wf : DotDims.WF S4096x1024 S1024x128 S4096x128 [1] [0] [0] [1] [] []
  dot_S4096x256_S256x128_S4096x128_1_0_0_1_n_n_wf : DotDims.WF S4096x256 S256x128 S4096x128 [1] [0] [0] [1] [] []
  dot_S4096x128_S128x128_S4096x128_1_0_0_1_n_n_wf : DotDims.WF S4096x128 S128x128 S4096x128 [1] [0] [0] [1] [] []
  dot_S1024x4096_S4096x128_S1024x128_1_0_0_1_n_n_wf : DotDims.WF S1024x4096 S4096x128 S1024x128 [1] [0] [0] [1] [] []
  dot_S1024x256_S256x128_S1024x128_1_0_0_1_n_n_wf : DotDims.WF S1024x256 S256x128 S1024x128 [1] [0] [0] [1] [] []
  dot_S1024x128_S128x128_S1024x128_1_0_0_1_n_n_wf : DotDims.WF S1024x128 S128x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S524288x128.size a
  hwx0_0 : ∀ i : grid0.Coords, EltTy.bits .f32 = 32 ∨ (Rect.block (s := S524288x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S524288x1.size a
  hwx0_1 : ∀ i : grid0.Coords, EltTy.bits .i32 = 32 ∨ (Rect.block (s := S524288x1) S1024x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S4096x128.size a
  hwx0_2 : ∀ i : grid0.Coords, EltTy.bits .f32 = 32 ∨ (Rect.block (s := S4096x128) S4096x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S4096x128.size a ≤ S4096x128.size a
  hwx0_7 : ∀ i : grid0.Coords, EltTy.bits .f32 = 32 ∨ (Rect.block (s := S4096x128) S4096x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S524288x128.size a
  hwx1_0 : ∀ i : grid1.Coords, EltTy.bits .f32 = 32 ∨ (Rect.block (s := S524288x128) S1024x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1.size a ≤ S524288x1.size a
  hwx1_1 : ∀ i : grid1.Coords, EltTy.bits .i32 = 32 ∨ (Rect.block (s := S524288x1) S1024x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4096x128.size a ≤ S4096x128.size a
  hwx1_2 : ∀ i : grid1.Coords, EltTy.bits .f32 = 32 ∨ (Rect.block (s := S4096x128) S4096x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .f32 = 32 ∨ (Rect.block (s := S256x128) S256x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1024x128.size a ≤ S524288x128.size a
  hwx1_7 : ∀ i : grid1.Coords, EltTy.bits .f32 = 32 ∨ (Rect.block (s := S524288x128) S1024x128.size (cc1_transform_7 i) (hinb1_7 i)).WholeWords (EltTy.packing .f32)

variable [Facts₀]

def dot_S4096x1024_S1024x128_S4096x128_1_0_0_1_n_n : DotDims S4096x1024 S1024x128 S4096x128 where
  lhsContracting := [1]
  rhsContracting := [0]
  lhsNonContracting := [0]
  rhsNonContracting := [1]
  lhsBatch := []
  rhsBatch := []
  wf := dot_S4096x1024_S1024x128_S4096x128_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S1024x4096_S4096x128_S1024x128_1_0_0_1_n_n : DotDims S1024x4096 S4096x128 S1024x128 where
  lhsContracting := [1]
  rhsContracting := [0]
  lhsNonContracting := [0]
  rhsNonContracting := [1]
  lhsBatch := []
  rhsBatch := []
  wf := dot_S1024x4096_S4096x128_S1024x128_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

abbrev win0_0 : Pipeline.Window sig grid0 :=
  Pipeline.Window.ofSpec (Memref.whole main_arg1) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S4096x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S4096x128.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

abbrev win1_0 : Pipeline.Window sig grid1 :=
  Pipeline.Window.ofSpec (Memref.whole main_arg1) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S4096x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v4) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v6) S1024x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S4096x128 : Shape := ⟨2, ![4096, 128]⟩
abbrev S524288x128 : Shape := ⟨2, ![524288, 128]⟩
abbrev S524288 : Shape := ⟨1, ![524288]⟩
abbrev S256x128 : Shape := ⟨2, ![256, 128]⟩
abbrev S128 : Shape := ⟨1, ![128]⟩
abbrev S128x128 : Shape := ⟨2, ![128, 128]⟩
abbrev S_ : Shape := ⟨0, ![]⟩
abbrev S524288x1 : Shape := ⟨2, ![524288, 1]⟩
abbrev S4096x256 : Shape := ⟨2, ![4096, 256]⟩
abbrev S1x128 : Shape := ⟨2, ![1, 128]⟩
abbrev S524288x256 : Shape := ⟨2, ![524288, 256]⟩

abbrev nBuf : Space → Nat
  | .hbm => 54
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S524288x128, .f32⟩
  | .hbm, ⟨2, _⟩ => ⟨S524288, .i32⟩
  | .hbm, ⟨3, _⟩ => ⟨S256x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S256x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S_, .f32⟩
  | .hbm, ⟨12, _⟩ => ⟨S4096x128, .f32⟩
  | .hbm, ⟨13, _⟩ => ⟨S524288x1, .i32⟩
  | .hbm, ⟨14, _⟩ => ⟨S4096x128, .f32⟩
  | .hbm, ⟨15, _⟩ => ⟨S4096x256, .f32⟩
  | .hbm, ⟨16, _⟩ => ⟨S4096x128, .f32⟩
  | .hbm, ⟨17, _⟩ => ⟨S1x128, .f32⟩
  | .hbm, ⟨18, _⟩ => ⟨S4096x128, .f32⟩
  | .hbm, ⟨19, _⟩ => ⟨S4096x128, .f32⟩
  | .hbm, ⟨20, _⟩ => ⟨S_, .f32⟩
  | .hbm, ⟨21, _⟩ => ⟨S4096x128, .f32⟩
  | .hbm, ⟨22, _⟩ => ⟨S4096x128, .f32⟩
  | .hbm, ⟨23, _⟩ => ⟨S4096x128, .f32⟩
  | .hbm, ⟨24, _⟩ => ⟨S1x128, .f32⟩
  | .hbm, ⟨25, _⟩ => ⟨S4096x128, .f32⟩
  | .hbm, ⟨26, _⟩ => ⟨S4096x128, .f32⟩
  | .hbm, ⟨27, _⟩ => ⟨S_, .f32⟩
  | .hbm, ⟨28, _⟩ => ⟨S4096x128, .f32⟩
  | .hbm, ⟨29, _⟩ => ⟨S4096x128, .f32⟩
  | .hbm, ⟨30, _⟩ => ⟨S_, .i32⟩
  | .hbm, ⟨31, _⟩ => ⟨S524288, .i32⟩
  | .hbm, ⟨32, _⟩ => ⟨S524288, .i1⟩
  | .hbm, ⟨33, _⟩ => ⟨S_, .i32⟩
  | .hbm, ⟨34, _⟩ => ⟨S524288, .i32⟩
  | .hbm, ⟨35, _⟩ => ⟨S524288, .i32⟩
  | .hbm, ⟨36, _⟩ => ⟨S524288, .i32⟩
  | .hbm, ⟨37, _⟩ => ⟨S524288x1, .i32⟩
  | .hbm, ⟨38, _⟩ => ⟨S524288x128, .f32⟩
  | .hbm, ⟨39, _⟩ => ⟨S524288x256, .f32⟩
  | .hbm, ⟨40, _⟩ => ⟨S524288x128, .f32⟩
  | .hbm, ⟨41, _⟩ => ⟨S1x128, .f32⟩
  | .hbm, ⟨42, _⟩ => ⟨S524288x128, .f32⟩
  | .hbm, ⟨43, _⟩ => ⟨S524288x128, .f32⟩
  | .hbm, ⟨44, _⟩ => ⟨S_, .f32⟩
  | .hbm, ⟨45, _⟩ => ⟨S524288x128, .f32⟩
  | .hbm, ⟨46, _⟩ => ⟨S524288x128, .f32⟩
  | .hbm, ⟨47, _⟩ => ⟨S524288x128, .f32⟩
  | .hbm, ⟨48, _⟩ => ⟨S1x128, .f32⟩
  | .hbm, ⟨49, _⟩ => ⟨S524288x128, .f32⟩
  | .hbm, ⟨50, _⟩ => ⟨S524288x128, .f32⟩
  | .hbm, ⟨51, _⟩ => ⟨S_, .f32⟩
  | .hbm, ⟨52, _⟩ => ⟨S524288x128, .f32⟩
  | .hbm, ⟨53, _⟩ => ⟨S524288x128, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_call0_cst : Ref sig .tc := ⟨.hbm, 20, rfl⟩
abbrev main_call0_v0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_call1_cst : Ref sig .tc := ⟨.hbm, 27, rfl⟩
abbrev main_call1_v0 : Ref sig .tc := ⟨.hbm, 28, rfl⟩
abbrev main_v13 : Ref sig .tc := ⟨.hbm, 29, rfl⟩
abbrev main_c : Ref sig .tc := ⟨.hbm, 30, rfl⟩
abbrev main_v14 : Ref sig .tc := ⟨.hbm, 31, rfl⟩
abbrev main_v15 : Ref sig .tc := ⟨.hbm, 32, rfl⟩
abbrev main_c_0 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_call2_cst : Ref sig .tc := ⟨.hbm, 44, rfl⟩
abbrev main_call2_v0 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_call3_cst : Ref sig .tc := ⟨.hbm, 51, rfl⟩
abbrev main_call3_v0 : Ref sig .tc := ⟨.hbm, 52, rfl⟩
abbrev main_v31 : Ref sig .tc := ⟨.hbm, 53, rfl⟩

abbrev nD : Nat := 1
abbrev τ : Topo := Topo.v7x

variable {F : FTy → Type} [FloatOps F]

class Facts₀ : Prop where
  bcast_S_S4096x128 : S_.BroadcastsInDim S4096x128 (![] : Fin 0 → Fin S4096x128.rank)
  bcast_S524288_S524288x1_0 : S524288.BroadcastsInDim S524288x1 (![0] : Fin 1 → Fin S524288x1.rank)
  concatenates_S4096x128_S4096x128_S4096x256_d1 : Shape.Concatenates [S4096x128, S4096x128] S4096x256 1
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  bcast_S_S524288 : S_.BroadcastsInDim S524288 (![] : Fin 0 → Fin S524288.rank)
  concatenates_S524288x128_S524288x128_S524288x256_d1 : Shape.Concatenates [S524288x128, S524288x128] S524288x256 1
  bcast_S1x128_S524288x128_0_1 : S1x128.BroadcastsInDim S524288x128 (![0, 1] : Fin 2 → Fin S524288x128.rank)
  bcast_S_S524288x128 : S_.BroadcastsInDim S524288x128 (![] : Fin 0 → Fin S524288x128.rank)
  scatter_S4096x128_S524288x1_S524288x128_1_0_0_1_wf : ScatterDims.WF S4096x128 S524288x1 S524288x128 [1] [0] [0] 1
  dot_S4096x256_S256x128_S4096x128_1_0_0_1_n_n_wf : DotDims.WF S4096x256 S256x128 S4096x128 [1] [0] [0] [1] [] []
  dot_S4096x128_S128x128_S4096x128_1_0_0_1_n_n_wf : DotDims.WF S4096x128 S128x128 S4096x128 [1] [0] [0] [1] [] []
  gather_S4096x128_S524288x1_S524288x128_1_0_n_n_0_1_1128_wf : GatherDims.WF S4096x128 S524288x1 S524288x128 [1] [0] [] [0] [] 1 ![1, 128]
  dot_S524288x256_S256x128_S524288x128_1_0_0_1_n_n_wf : DotDims.WF S524288x256 S256x128 S524288x128 [1] [0] [0] [1] [] []
  dot_S524288x128_S128x128_S524288x128_1_0_0_1_n_n_wf : DotDims.WF S524288x128 S128x128 S524288x128 [1] [0] [0] [1] [] []

variable [Facts₀]

def scatter_S4096x128_S524288x1_S524288x128_1_0_0_1 : ScatterDims S4096x128 S524288x1 S524288x128 where
  updateWindowDims := [1]
  insertedWindowDims := [0]
  scatterDimsToOperandDims := [0]
  indexVectorDim := 1
  wf := scatter_S4096x128_S524288x1_S524288x128_1_0_0_1_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def gather_S4096x128_S524288x1_S524288x128_1_0_n_n_0_1_1128 : GatherDims S4096x128 S524288x1 S524288x128 where
  offsetDims := [1]
  collapsedSliceDims := [0]
  operandBatchingDims := []
  startIndicesBatchingDims := []
  startIndexMap := [0]
  indexVectorDim := 1
  sliceSizes := ![1, 128]
  wf := gather_S4096x128_S524288x1_S524288x128_1_0_n_n_0_1_1128_wf
def dot_S524288x256_S256x128_S524288x128_1_0_0_1_n_n : DotDims S524288x256 S256x128 S524288x128 where
  lhsContracting := [1]
  rhsContracting := [0]
  lhsNonContracting := [0]
  rhsNonContracting := [1]
  lhsBatch := []
  rhsBatch := []
  wf := dot_S524288x256_S256x128_S524288x128_1_0_0_1_n_n_wf
def dot_S524288x128_S128x128_S524288x128_1_0_0_1_n_n : DotDims S524288x128 S128x128 S524288x128 where
  lhsContracting := [1]
  rhsContracting := [0]
  lhsNonContracting := [0]
  rhsNonContracting := [1]
  lhsBatch := []
  rhsBatch := []
  wf := dot_S524288x128_S128x128_S524288x128_1_0_0_1_n_n_wf

class Facts : Prop extends Facts₀ where

variable [Facts]
-- ==== Proof.WordNodeStage.lean ====
/- The node stage (the second pallas_call): at grid point t the body reads rows [1024 t, 1024 (t+1)) of the node
   features and of the segment ids, the whole set table s and the node MLP's weights, and stores the block's result
   rows. Here: what the body leaves in its output block as a function of the blocks it reads, the body's triple,
   and the pipeline's proof data at arbitrary entry contents V. Generic in the float instance. -/
import proofs.«417193_j3779571220745_1_alg».proof.Proof.Gen.Kernel.Launch
import proofs.«417193_j3779571220745_1_alg».proof.Proof.Gen.Kernel.Skeleton
import proofs.«417193_j3779571220745_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.NodeStage

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the stage finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

abbrev rNode : Rect S1024x128 := Rect.unit (s := S1024x128) ![0, 0] S1024x128.size inb_S1024x128_S1024x128_0_0
abbrev rSeg : Rect S1024x1 := Rect.unit (s := S1024x1) ![0, 0] S1024x1.size inb_S1024x1_S1024x1_0_0
abbrev rSet : Rect S4096x128 := Rect.unit (s := S4096x128) ![0, 0] S4096x128.size inb_S4096x128_S4096x128_0_0
abbrev rW1 : Rect S256x128 := Rect.unit (s := S256x128) ![0, 0] S256x128.size inb_S256x128_S256x128_0_0
abbrev rB : Rect S1x128 := Rect.unit (s := S1x128) ![0, 0] S1x128.size inb_S1x128_S1x128_0_0
abbrev rW2 : Rect S128x128 := Rect.unit (s := S128x128) ![0, 0] S128x128.size inb_S128x128_S128x128_0_0

/-- The output block after the body, from the blocks it reads: its one store, over the whole block. -/
def out1_7 (x0 : Vec F S1024x128 .f32) (x1 : Vec F S1024x1 .i32) (x2 : Vec F S4096x128 .f32) (x3 : Vec F S256x128 .f32)
    (x4 : Vec F S1x128 .f32) (x5 : Vec F S128x128 .f32) (x6 : Vec F S1x128 .f32) : Vec F S1024x128 .f32 :=
  View.canon [⟨rNode, k1_pay1 (View.ld x1 rSeg) (View.ld x2 rSet) (View.ld x0 rNode) (View.ld x3 rW1) (View.ld x4 rB) (View.ld x5 rW2) (View.ld x6 rB)⟩]

theorem cover1_7 (p0 : Vec F S1024x128 .f32) (y : S1024x128.Idx) :
    ∃ pc ∈ ([⟨rNode, p0⟩] : List (View.Piece (Elt F) S1024x128 .f32)), y ∈ pc.1.set :=
  View.cover_of_tiled [⟨rNode, p0⟩] S1024x128.size (by rfl) y

/-- The proof data of the node stage on core c: arrays as found; each input block stays; the output block at out1_7. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

set_option maxHeartbeats 1000000 in
/-- The body on whole staging memrefs holding the blocks x0..x6, the output's at anything: it ends with the inputs as
    they were and the output at out1_7 of them. -/
theorem sound_kernel1 (c : Dev nD) (E : Set ℕ) (i : grid1.Coords)
    (arg1 : Memref sig .tc .vmem S1024x128 .f32) (harg1 : arg1.IsWhole) (arg2 : Memref sig .tc .vmem S1024x1 .i32) (harg2 : arg2.IsWhole)
    (arg3 : Memref sig .tc .vmem S4096x128 .f32) (harg3 : arg3.IsWhole) (arg4 : Memref sig .tc .vmem S256x128 .f32) (harg4 : arg4.IsWhole)
    (arg5 : Memref sig .tc .vmem S1x128 .f32) (harg5 : arg5.IsWhole) (arg6 : Memref sig .tc .vmem S128x128 .f32) (harg6 : arg6.IsWhole)
    (arg7 : Memref sig .tc .vmem S1x128 .f32) (harg7 : arg7.IsWhole) (arg8 : Memref sig .tc .vmem S1024x128 .f32) (harg8 : arg8.IsWhole)
    (x0 : Vec F S1024x128 .f32) (x1 : Vec F S1024x1 .i32) (x2 : Vec F S4096x128 .f32) (x3 : Vec F S256x128 .f32)
    (x4 : Vec F S1x128 .f32) (x5 : Vec F S128x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out1_7 x0 x1 x2 x3 x4 x5 x6)) -∗ K ⟨⟩))
      ⊢ wp frame (wpE (defs₀ (F := F)) Variants.none c none) E (cc1_kernel i arg1 harg1 arg2 harg2 arg3 harg3 arg4 harg4 arg5 harg5 arg6 harg6 arg7 harg7 arg8 harg8) K := by
  simp only [cc1_kernel_eq_skeleton]; unfold cc1_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-- What the body is called with at point t: the invariant, the core's debts, and each window's current staging
    memref at its contents before the body. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns: the same with each memref at its contents after the body. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' memrefs hold their blocks, so the body's triple applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ (grid1.coords t) _ _ _ _ _ _ _ _ _ _ _ _ _ _ _ _
    (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.NodeStage

end
-- ==== Proof.WordSetStage.lean ====
/- The set stage (the first pallas_call): over the 512 grid points a scratch accumulator, zeroed at the first
   point, gains at point t the one-hot product of the segment ids of rows [1024 t, 1024 (t+1)) with those rows of the
   node features; at the last point the set MLP of the accumulated sums beside the set features is stored into the
   output block, which is idle (untouched, not written back) at every other point. Here: the accumulator after each
   point as a recursion over the points, the output block at the last point, the invariant that carries the scratch
   between points, the pipeline's proof data at arbitrary entry contents V, and the body obligation.
   Generic in the float instance. -/
import proofs.«417193_j3779571220745_1_alg».proof.Proof.Gen.Kernel.Launch
import proofs.«417193_j3779571220745_1_alg».proof.Proof.Gen.Kernel.Skeleton
import proofs.«417193_j3779571220745_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.SetStage

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the stage finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

abbrev rNode : Rect S1024x128 := Rect.unit (s := S1024x128) ![0, 0] S1024x128.size inb_S1024x128_S1024x128_0_0
abbrev rSeg : Rect S1024x1 := Rect.unit (s := S1024x1) ![0, 0] S1024x1.size inb_S1024x1_S1024x1_0_0
abbrev rSet : Rect S4096x128 := Rect.unit (s := S4096x128) ![0, 0] S4096x128.size inb_S4096x128_S4096x128_0_0
abbrev rW1 : Rect S256x128 := Rect.unit (s := S256x128) ![0, 0] S256x128.size inb_S256x128_S256x128_0_0
abbrev rB : Rect S1x128 := Rect.unit (s := S1x128) ![0, 0] S1x128.size inb_S1x128_S1x128_0_0
abbrev rW2 : Rect S128x128 := Rect.unit (s := S128x128) ![0, 0] S128x128.size inb_S128x128_S128x128_0_0

/-- The scratch memref the kernel is called with. -/
abbrev scM : Memref sig .tc .vmem S4096x128 .f32 := Memref.whole cc0_scratch0

/-- The accumulator right after the first point's reset: the zero block stored over the whole scratch. -/
def accReset : Vec F S4096x128 .f32 := View.canon [⟨rSet, k0_pay1 (F := F)⟩]

/-- One point's update: the accumulator a plus the one-hot product of the segment-id block x1 with the node block x0,
    stored over the whole scratch. -/
def accStep (x0 : Vec F S1024x128 .f32) (x1 : Vec F S1024x1 .i32) (a : Vec F S4096x128 .f32) : Vec F S4096x128 .f32 :=
  View.canon [⟨rSet, k0_pay2 (View.ld x1 rSeg) (View.ld x0 rNode) (View.ld a rSet)⟩]

/-- The scratch after point n: the reset and one update at the first point, one update over the point before otherwise. -/
def accAt (c : Dev nD) : (n : ℕ) → n < cfg0.N → Vec F S4096x128 .f32
  | 0, h => accStep (iblk0 V c 0 ⟨0, h⟩) (iblk0 V c 1 ⟨0, h⟩) accReset
  | n + 1, h => accStep (iblk0 V c 0 ⟨n + 1, h⟩) (iblk0 V c 1 ⟨n + 1, h⟩) (accAt c n (Nat.lt_of_succ_lt h))

theorem accAt_zero (c : Dev nD) (h : 0 < cfg0.N) :
    accAt V c 0 h = accStep (iblk0 V c 0 ⟨0, h⟩) (iblk0 V c 1 ⟨0, h⟩) accReset := rfl
theorem accAt_succ (c : Dev nD) (n : ℕ) (h : n + 1 < cfg0.N) :
    accAt V c (n + 1) h = accStep (iblk0 V c 0 ⟨n + 1, h⟩) (iblk0 V c 1 ⟨n + 1, h⟩) (accAt V c n (Nat.lt_of_succ_lt h)) := rfl

/-- The output block as the last point's body leaves it: the set MLP of the accumulator a beside the set features x2,
    with weights x3, x5 and biases x4, x6, stored over the whole block. -/
def out0_7 (a : Vec F S4096x128 .f32) (x2 : Vec F S4096x128 .f32) (x3 : Vec F S256x128 .f32) (x4 : Vec F S1x128 .f32)
    (x5 : Vec F S128x128 .f32) (x6 : Vec F S1x128 .f32) : Vec F S4096x128 .f32 :=
  View.canon [⟨rSet, k0_pay3 (View.ld a rSet) (View.ld x2 rSet) (View.ld x3 rW1) (View.ld x4 rB) (View.ld x5 rW2) (View.ld x6 rB)⟩]

theorem cover0 (p0 : Vec F S4096x128 .f32) (y : S4096x128.Idx) :
    ∃ pc ∈ ([⟨rSet, p0⟩] : List (View.Piece (Elt F) S4096x128 .f32)), y ∈ pc.1.set :=
  View.cover_of_tiled [⟨rSet, p0⟩] S4096x128.size (by rfl) y

/-- The scoped buffers of the core other than this stage's staging buffers and its scratch: each whole at some contents. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f))

/-- The invariant before position n: before the first point, every scoped buffer that is no staging buffer of this
    stage at anything and the generator register at some state; afterwards the same with the scratch at the accumulator
    the point before left. -/
def PhiAcc (c : Dev nD) : (n : ℕ) → n ≤ cfg0.N → sProp 𝕄
  | 0, _ => Pipeline.ΦA spec0 c
  | n + 1, hn => iprop(owns (c : Thread nD τ) scM fullShare (accAt V c n hn) ∗ otherScoped (F := F) c ∗ (∃ r, prngReg c r))

theorem PhiAcc_zero (c : Dev nD) (n : ℕ) (h : n ≤ cfg0.N) (hz : n = 0) : PhiAcc V c n h = Pipeline.ΦA spec0 c := by
  subst hz; rfl
theorem PhiAcc_succ (c : Dev nD) (n : ℕ) (hn : n < cfg0.N) :
    PhiAcc V c (n + 1) hn = iprop(owns (c : Thread nD τ) scM fullShare (accAt V c n hn) ∗ otherScoped (F := F) c ∗ (∃ r, prngReg c r)) := rfl
theorem PhiAcc_pos (c : Dev nD) (n : ℕ) (h : n ≤ cfg0.N) (hz : n ≠ 0) :
    PhiAcc V c n h = iprop(owns (c : Thread nD τ) scM fullShare (accAt V c (n - 1) (by omega)) ∗ otherScoped (F := F) c ∗ (∃ r, prngReg c r)) := by
  cases n with
  | zero => exact absurd rfl hz
  | succ n => rfl

/-- The proof data of the set stage on core c: arrays as found; each input block stays; the output block at the set MLP of
    the running accumulator (consulted only at the last point: elsewhere the window is idle and not written back). -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (accAt V c t.val t.isLt) (iblk0 V c 2 t) (iblk0 V c 3 t) (iblk0 V c 4 t) (iblk0 V c 5 t) (iblk0 V c 6 t)
  Φ t := PhiAcc V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (accAt V c t.val t.isLt) (iblk0 V c 2 t) (iblk0 V c 3 t) (iblk0 V c 4 t) (iblk0 V c 5 t) (iblk0 V c 6 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-- The invariant at the stage's entry is the class's. -/
theorem Phi_first (c : Dev nD) : (dat0 V c).Φ 0 = Pipeline.ΦA spec0 c := rfl

/-- The first branch's condition (the point is the grid's first), from the grid coordinate. -/
abbrev cond0_0 (i : grid0.Coords) : Prop := (Scalar.cmpi .ne (Scalar.extui (Scalar.cmpi .eq (BitVec.ofNat 32 (i 0).val) 0#32)) 0#32) = 1#1
/-- It holds at the first point only: decided over the grid. -/
theorem hcond0_0 : ∀ t : Fin cfg0.N, cond0_0 (grid0.coords t) ↔ t.val % 512 = 0 :=
  (by decide +kernel : ∀ t : Fin grid0.N, cond0_0 (grid0.coords t) ↔ t.val % 512 = 0)
/-- The second branch's condition (the point is the grid's last). -/
abbrev cond0_1 (i : grid0.Coords) : Prop := k0_cond2 i = 1#1
/-- It holds at the last point only: decided over the grid. -/
theorem hcond0_1 : ∀ t : Fin cfg0.N, cond0_1 (grid0.coords t) ↔ t.val % 512 = 511 :=
  (by decide +kernel : ∀ t : Fin grid0.N, cond0_1 (grid0.coords t) ↔ t.val % 512 = 511)

set_option maxHeartbeats 1000000 in
/-- A middle point's body: the scratch, found at a, is left at one update of a by the point's node and segment-id
    blocks; nothing else is touched. -/
theorem run_mid (c : Dev nD) (i : grid0.Coords) (arg1 : Memref sig .tc .vmem S1024x128 .f32) (harg1 : arg1.IsWhole) (arg2 : Memref sig .tc .vmem S1024x1 .i32) (harg2 : arg2.IsWhole) (arg3 : Memref sig .tc .vmem S4096x128 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S4096x128 .f32) (harg8 : arg8.IsWhole) (arg9 : Memref sig .tc .vmem S4096x128 .f32) (harg9 : arg9.IsWhole) (hc0 : ¬cond0_0 i) (hc1 : ¬cond0_1 i)
    (x0 : Vec F S1024x128 .f32) (x1 : Vec F S1024x1 .i32) (a : Vec F S4096x128 .f32) (E : Set ℕ) (K : PUnit → sProp 𝕄) :
    iprop(owns (c : Thread nD τ) arg1 fullShare x0 ∗ owns (c : Thread nD τ) arg2 fullShare x1 ∗ owns (c : Thread nD τ) arg9 fullShare a
      ∗ (iprop(owns (c : Thread nD τ) arg1 fullShare x0 ∗ owns (c : Thread nD τ) arg2 fullShare x1 ∗ owns (c : Thread nD τ) arg9 fullShare (accStep x0 x1 a)) -∗ K ⟨⟩))
    ⊢ wp frame (wpE (defs₀ (F := F)) Variants.none c none) E (cc0_kernel i arg1 harg1 arg2 harg2 arg3 harg3 arg4 harg4 arg5 harg5 arg6 harg6 arg7 harg7 arg8 harg8 arg9 harg9) K := by
  simp only [cc0_kernel_eq_skeleton]; unfold cc0_kernel_skel
  unfold owns
  iintro ⟨⟨%f0, %hf0, H0⟩, ⟨%f1, %hf1, H1⟩, ⟨%fa, %hfa, HA⟩, Hk⟩
  subst hf0; subst hf1; subst hfa
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HA
  ipureintro
  exact View.read_writes_eq_canon _ _ _ (cover0 _)

/-- Every index of the scratch's shape lies in the one rectangle the body stores through. -/
theorem mem_rSet (p0 : Vec F S4096x128 .f32) (y : S4096x128.Idx) : y ∈ (rSet).set := by
  obtain ⟨pc, hm, hy⟩ := cover0 p0 y
  rw [List.mem_singleton] at hm; subst hm; exact hy

/-- Of two stores through that rectangle the later is what remains. -/
theorem canon_two (w p0 : Vec F S4096x128 .f32) :
    View.canon ([⟨rSet, w⟩, ⟨rSet, p0⟩] : List (View.Piece (Elt F) S4096x128 .f32)) = View.canon [⟨rSet, w⟩] := by
  funext y
  obtain ⟨x, rfl⟩ := (rSet).exists_idx_of_mem (mem_rSet p0 y)
  rw [show (rSet).idx x = (rSet).emb x from rfl, View.canon_cons_emb, View.canon_cons_emb]

/-- Two stores through that rectangle cover the shape. -/
theorem cover2 (w p0 : Vec F S4096x128 .f32) (y : S4096x128.Idx) :
    ∃ pc ∈ ([⟨rSet, w⟩, ⟨rSet, p0⟩] : List (View.Piece (Elt F) S4096x128 .f32)), y ∈ pc.1.set :=
  ⟨⟨rSet, w⟩, List.mem_cons.mpr (Or.inl rfl), mem_rSet p0 y⟩

set_option maxHeartbeats 1000000 in
/-- The first point's body: the scratch, found at anything, is zeroed and then updated once by the point's blocks. -/
theorem run_first (c : Dev nD) (i : grid0.Coords) (arg1 : Memref sig .tc .vmem S1024x128 .f32) (harg1 : arg1.IsWhole) (arg2 : Memref sig .tc .vmem S1024x1 .i32) (harg2 : arg2.IsWhole) (arg3 : Memref sig .tc .vmem S4096x128 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S4096x128 .f32) (harg8 : arg8.IsWhole) (arg9 : Memref sig .tc .vmem S4096x128 .f32) (harg9 : arg9.IsWhole) (hc0 : cond0_0 i) (hc1 : ¬cond0_1 i)
    (x0 : Vec F S1024x128 .f32) (x1 : Vec F S1024x1 .i32) (E : Set ℕ) (K : PUnit → sProp 𝕄) :
    iprop(owns (c : Thread nD τ) arg1 fullShare x0 ∗ owns (c : Thread nD τ) arg2 fullShare x1 ∗ (∃ d, owns (c : Thread nD τ) arg9 fullShare d)
      ∗ (iprop(owns (c : Thread nD τ) arg1 fullShare x0 ∗ owns (c : Thread nD τ) arg2 fullShare x1 ∗ owns (c : Thread nD τ) arg9 fullShare (accStep x0 x1 accReset)) -∗ K ⟨⟩))
    ⊢ wp frame (wpE (defs₀ (F := F)) Variants.none c none) E (cc0_kernel i arg1 harg1 arg2 harg2 arg3 harg3 arg4 harg4 arg5 harg5 arg6 harg6 arg7 harg7 arg8 harg8 arg9 harg9) K := by
  simp only [cc0_kernel_eq_skeleton]; unfold cc0_kernel_skel
  unfold owns
  iintro ⟨⟨%f0, %hf0, H0⟩, ⟨%f1, %hf1, H1⟩, ⟨%da, %fa, -, HA⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HA
  ipureintro
  sl_unfold_run_names
  rw [View.read_writes_eq_canon _ _ _ (cover2 _ _)]
  rw [View.readCov_eq_canon_ld _ _ _ (cover0 _)]
  exact canon_two _ _

set_option maxHeartbeats 1000000 in
/-- The last point's body (not the first): one update of the scratch, then the set MLP of the updated scratch beside the
    set features stored over the whole output block. -/
theorem run_last (c : Dev nD) (i : grid0.Coords) (arg1 : Memref sig .tc .vmem S1024x128 .f32) (harg1 : arg1.IsWhole) (arg2 : Memref sig .tc .vmem S1024x1 .i32) (harg2 : arg2.IsWhole) (arg3 : Memref sig .tc .vmem S4096x128 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S4096x128 .f32) (harg8 : arg8.IsWhole) (arg9 : Memref sig .tc .vmem S4096x128 .f32) (harg9 : arg9.IsWhole) (hc0 : ¬cond0_0 i) (hc1 : cond0_1 i)
    (x0 : Vec F S1024x128 .f32) (x1 : Vec F S1024x1 .i32) (x2 : Vec F S4096x128 .f32) (x3 : Vec F S256x128 .f32) (x4 : Vec F S1x128 .f32)
    (x5 : Vec F S128x128 .f32) (x6 : Vec F S1x128 .f32) (a : Vec F S4096x128 .f32) (E : Set ℕ) (K : PUnit → sProp 𝕄) :
    iprop(owns (c : Thread nD τ) arg1 fullShare x0 ∗ owns (c : Thread nD τ) arg2 fullShare x1 ∗ owns (c : Thread nD τ) arg3 fullShare x2
      ∗ owns (c : Thread nD τ) arg4 fullShare x3 ∗ owns (c : Thread nD τ) arg5 fullShare x4 ∗ owns (c : Thread nD τ) arg6 fullShare x5
      ∗ owns (c : Thread nD τ) arg7 fullShare x6 ∗ (∃ d, owns (c : Thread nD τ) arg8 fullShare d) ∗ owns (c : Thread nD τ) arg9 fullShare a
      ∗ (iprop(owns (c : Thread nD τ) arg1 fullShare x0 ∗ owns (c : Thread nD τ) arg2 fullShare x1 ∗ owns (c : Thread nD τ) arg3 fullShare x2
          ∗ owns (c : Thread nD τ) arg4 fullShare x3 ∗ owns (c : Thread nD τ) arg5 fullShare x4 ∗ owns (c : Thread nD τ) arg6 fullShare x5
          ∗ owns (c : Thread nD τ) arg7 fullShare x6 ∗ owns (c : Thread nD τ) arg8 fullShare (out0_7 (accStep x0 x1 a) x2 x3 x4 x5 x6)
          ∗ owns (c : Thread nD τ) arg9 fullShare (accStep x0 x1 a)) -∗ K ⟨⟩))
    ⊢ wp frame (wpE (defs₀ (F := F)) Variants.none c none) E (cc0_kernel i arg1 harg1 arg2 harg2 arg3 harg3 arg4 harg4 arg5 harg5 arg6 harg6 arg7 harg7 arg8 harg8 arg9 harg9) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fa, %hfa, HA⟩, Hk⟩
  subst hf0; subst hf1; subst hf2; subst hf3; subst hf4; subst hf5; subst hf6; subst hfa
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    sl_unfold_run_names
    rw [View.read_writes_eq_canon _ _ _ (cover0 _), View.readCov_eq_canon_ld _ _ _ (cover0 _)]
    rfl
  iexists _; isplitr
  swap; · iexact HA
  ipureintro
  exact View.read_writes_eq_canon _ _ _ (cover0 _)

/-- The accumulator after the first point. -/
theorem accAt_first (c : Dev nD) (t : Fin cfg0.N) (hz : t.val = 0) :
    accAt V c t.val t.isLt = accStep (iblk0 V c 0 t) (iblk0 V c 1 t) accReset := by
  obtain ⟨n, hn⟩ := t
  cases n with
  | zero => rfl
  | succ n => exact absurd hz (Nat.succ_ne_zero n)

/-- The accumulator after a later point: one update of what the point before left. -/
theorem accAt_pos (c : Dev nD) (t : Fin cfg0.N) (hz : t.val ≠ 0) :
    accAt V c t.val t.isLt = accStep (iblk0 V c 0 t) (iblk0 V c 1 t) (accAt V c (t.val - 1) (Nat.lt_of_le_of_lt (Nat.sub_le _ _) t.isLt)) := by
  obtain ⟨n, hn⟩ := t
  cases n with
  | zero => exact absurd rfl hz
  | succ n => rfl

/-- The class invariant with the scratch as a memref owned at some contents. -/
theorem PhiA0_eq (c : Dev nD) :
    (Pipeline.ΦA spec0 c : sProp 𝕄)
      = iprop(((∃ d, owns (c : Thread nD τ) scM fullShare d) ∗ otherScoped (F := F) c) ∗ (∃ r, prngReg c r)) := by
  unfold Pipeline.ΦA otherScoped; rw [scopedRest0_eq]; simp only [scM, owns_whole]; try rfl

/-- The invariant at a point's start, restated at the point's number. -/
theorem PhiAcc_castSucc (c : Dev nD) (t : Fin cfg0.N) :
    (dat0 V c).Φ t.castSucc = PhiAcc V c t.val (Nat.le_of_lt t.isLt) := by
  dsimp only [dat0]; simp only [Fin.coe_castSucc]

/-- The input windows are never idle. -/
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl

/-- The output window is idle wherever the second branch is not taken, -/
theorem idleAt0_7 (t : Fin cfg0.N) (h : ¬cond0_1 (grid0.coords t)) : cfg0.idle 7 (grid0.coords t) = true := by
  show (!(k0_cond2 (grid0.coords t) == 1#1)) = true
  simp only [Bool.not_eq_true', beq_eq_false_iff_ne, ne_eq]; exact h
/-- is not written back there, -/
theorem noFlush0_7 (t : Fin cfg0.N) (h : ¬cond0_1 (grid0.coords t)) : (cfg0.win 7).flush t = false :=
  Bool.eq_false_iff.mpr fun hf => h ((hcond0_1 t).mpr ((flush0_7 t).mp hf))
/-- and live where it is taken. -/
theorem liveAt0_7 (t : Fin cfg0.N) (h : cond0_1 (grid0.coords t)) : cfg0.idle 7 (grid0.coords t) = false := by
  show (!(k0_cond2 (grid0.coords t) == 1#1)) = false
  simp only [Bool.not_eq_false', beq_iff_eq]; exact h

/-- Each window's current staging memref at a point, as the pipeline passes it, and its wholeness. -/
abbrev ms0_0 (t : Fin cfg0.N) : Memref sig .tc .vmem S1024x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S4096x128 .f32 := win0_7.stage (cfg0.slots t 7)
abbrev hs0_7 (t : Fin cfg0.N) : (ms0_7 t).IsWhole := hstage0_7 ((cfg0.slots t 7).cast nbuf0_7)

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 4800000 in
/-- The body at any point: the inputs' memrefs hold their blocks; the point is the first, the last or neither, and that
    case's run applies; the invariant hands the run the scratch (at anything at the first point, at the accumulator the
    point before left afterwards) and takes it back at this point's accumulator; the output block is handed back as found
    except at the last point, where it holds the set MLP. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl]
  rw [show (dat0 V c).Φ t.succ = PhiAcc V c (t.val + 1) t.isLt from rfl, PhiAcc_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  rw [show (dat0 V c).leavesExact 6 t = owns (c : Thread nD τ) (ms0_6 t) fullShare ((dat0 V c).after 6 t) from by
    unfold Dat.leavesExact; rw [liveAt0_6 t], after0_6]
  have hN : t.val < 512 := lt_of_lt_of_eq t.isLt (show cfg0.N = 512 from N_0)
  by_cases h1 : t.val % 512 = 511
  · have hc0 : ¬cond0_0 (grid0.coords t) := fun h => by have := (hcond0_0 t).mp h; omega
    have hc1 : cond0_1 (grid0.coords t) := (hcond0_1 t).mpr h1
    have hz : t.val ≠ 0 := by omega
    rw [show (dat0 V c).leavesExact 7 t = owns (c : Thread nD τ) (ms0_7 t) fullShare ((dat0 V c).after 7 t) from by
      unfold Dat.leavesExact; rw [liveAt0_7 t hc1], after0_7]
    rw [accAt_pos V c t hz, PhiAcc_castSucc V c t, PhiAcc_pos V c _ _ hz]
    iintro ⟨⟨HS, Hs, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM (Memref.isWhole_whole _) hc0 hc1
      (iblk0 V c 0 t) (iblk0 V c 1 t) (iblk0 V c 2 t) (iblk0 V c 3 t) (iblk0 V c 4 t) (iblk0 V c 5 t) (iblk0 V c 6 t)
      (accAt V c (t.val - 1) (Nat.lt_of_le_of_lt (Nat.sub_le _ _) t.isLt)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexact HS
    iintro ⟨H0, H1, H2, H3, H4, H5, H6, H7, HS⟩
    isplitl [HS Hs Hg]
    · isplitl [HS]; · iexact HS
      isplitl [Hs]; · iexact Hs
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have hc1 : ¬cond0_1 (grid0.coords t) := fun h => h1 ((hcond0_1 t).mp h)
    rw [Dat.leavesExact_idle (dat0 V c) 7 t (idleAt0_7 t hc1) (noFlush0_7 t hc1)]
    by_cases hz : t.val = 0
    · have hc0 : cond0_0 (grid0.coords t) := (hcond0_0 t).mpr (by omega)
      rw [accAt_first V c t hz, PhiAcc_castSucc V c t, PhiAcc_zero V c _ _ hz, PhiA0_eq]
      iintro ⟨⟨⟨HS, Hs⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM (Memref.isWhole_whole _) hc0 hc1
        (iblk0 V c 0 t) (iblk0 V c 1 t) Set.univ _)
      isplitl [H0]; · iexact H0
      isplitl [H1]; · iexact H1
      isplitl [HS]; · iexact HS
      iintro ⟨H0, H1, HS⟩
      isplitl [HS Hs Hg]
      · isplitl [HS]; · iexact HS
        isplitl [Hs]; · iexact Hs
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    · have hc0 : ¬cond0_0 (grid0.coords t) := fun h => by have := (hcond0_0 t).mp h; omega
      rw [accAt_pos V c t hz, PhiAcc_castSucc V c t, PhiAcc_pos V c _ _ hz]
      iintro ⟨⟨HS, Hs, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_mid c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM (Memref.isWhole_whole _) hc0 hc1
        (iblk0 V c 0 t) (iblk0 V c 1 t) (accAt V c (t.val - 1) (Nat.lt_of_le_of_lt (Nat.sub_le _ _) t.isLt)) Set.univ _)
      isplitl [H0]; · iexact H0
      isplitl [H1]; · iexact H1
      isplitl [HS]; · iexact HS
      iintro ⟨H0, H1, HS⟩
      isplitl [HS Hs Hg]
      · isplitl [HS]; · iexact HS
        isplitl [Hs]; · iexact Hs
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The invariant at the stage's exit gives back the class's: the scratch's contents are forgotten. -/
theorem Phi_last (c : Dev nD) : (dat0 V c).Φ (Fin.last _) ⊢ (Pipeline.ΦA spec0 c : sProp 𝕄) := by
  have hN : cfg0.N = 512 := N_0
  rw [show (dat0 V c).Φ (Fin.last _) = PhiAcc V c (Fin.last cfg0.N).val (Nat.le_of_lt_succ (Fin.last cfg0.N).isLt) from rfl,
    PhiAcc_pos V c _ _ (by rw [Fin.val_last]; omega), PhiA0_eq]
  iintro ⟨HS, Hs, Hg⟩
  isplitl [HS Hs]
  · isplitl [HS]
    · iexists _; iexact HS
    iexact Hs
  iexact Hg

/-- Nothing is owed at any position. -/
theorem owed_zero (c : Dev nD) (t : Fin (cfg0.N + 1)) : (dat0 V c).owed t = 0 := rfl

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.SetStage

end
-- ==== Proof.WordTwoStageRun.lean ====
/- The whole run of the two-stage program: the host reshapes, the set stage, the node stage. The contents of every
   unscoped buffer at each boundary are a fold from the launch memory: after the reshapes; then the set stage's arrays
   at what its write-backs leave; then the node stage's. Each stage is entered from the boundary before it and left at
   the boundary after it; at the end every unscoped buffer is read against the last boundary's contents, from which
   the arguments come back as launched and the two results as the stages' final arrays. Generic in the float instance. -/
import proofs.«417193_j3779571220745_1_alg».proof.Proof.Gen.Kernel.Launch
import proofs.«417193_j3779571220745_1_alg».proof.Proof.Gen.Kernel.Skeleton
import proofs.«417193_j3779571220745_1_alg».proof.Proof.Gen.Kernel.Points
import proofs.«417193_j3779571220745_1_alg».proof.Proof.WordNodeStage
import proofs.«417193_j3779571220745_1_alg».proof.Proof.WordSetStage
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.TwoStageRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Cert.Kernel.SetStage (dat0 body_obligation0 A_eq0 Phi_first Phi_last)
open Cert.Kernel.NodeStage (dat1 body_obligation1 A_eq1)

variable (m : (ℓ : Loc nD τ sig) → Buf (Elt F) ℓ) (ρ : Dev nD → PrngReg)

/-- Core c's buffers at launch. -/
abbrev W0 : Dev nD → Valuation τ sig (Elt F) := fun c b => (s₀ m ρ).mem ((c : Dev nD), b)
/-- After the host reshapes (the set stage's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the set stage's exit: its arrays at what the pipeline leaves, every other buffer as entered. -/
def W2 (c : Dev nD) : Valuation τ sig (Elt F) :=
  Pipeline.withArrays spec0 c (W1 m ρ c) fun w => (dat0 (V1 m ρ) c).arrAt w cfg0.N
abbrev V2 : (c : Dev nD) → (b : Ref sig .tc) → Buf (Elt F) ((c : Thread nD τ).loc b) := fun c b => W2 m ρ c b
/-- At the node stage's exit. -/
def W3 (c : Dev nD) : Valuation τ sig (Elt F) :=
  Pipeline.withArrays spec1 c (W2 m ρ c) fun w => (dat1 (V2 m ρ) c).arrAt w cfg1.N
abbrev V3 : (c : Dev nD) → (b : Ref sig .tc) → Buf (Elt F) ((c : Thread nD τ).loc b) := fun c b => W3 m ρ c b

theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb

/-! The arguments end as launched; the results are the stages' final arrays. -/
/-- An input window's array leaves a stage as it entered it. -/
theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin _).trans (A_eq0 (V1 m ρ) c w))
theorem W3_in (c : Dev nD) (w : Fin cfg1.W) (hin : (cfg1.win w).isOut = false) :
    W3 m ρ c (Proc.devRef .tc (Pipeline.arrRef spec1 w)) = W2 m ρ c (Proc.devRef .tc (Pipeline.arrRef spec1 w)) :=
  (W3_arr m ρ c w).trans (((dat1 (V2 m ρ) c).arrAt_in w hin _).trans (A_eq1 (V2 m ρ) c w))
/-- The references the reshapes write: their results. -/
abbrev reshaped : List (Ref sig .tc) := [main_v0, main_v1, main_v2, main_v3, main_v4]
theorem hostOps0_writes : (hostOps0 : List (HloOp τ sig (Elt F))).Forall fun op =>
    op.writes ⊆ (reshaped.map (Proc.devRef (τ := τ) .tc)).toFinset := by
  simp only [List.Forall, StableHlo.reshape_writes, Finset.singleton_subset_iff, List.mem_toFinset]
  refine ⟨?_, ?_, ?_, ?_, ?_⟩ <;> exact List.mem_map_of_mem (by decide)
/-- No reshape allocates a buffer. -/
theorem hostOps0_fresh : (hostOps0 : List (HloOp τ sig (Elt F))).Forall fun op => op.fresh = ∅ := by
  simp only [List.Forall]; repeat' constructor
/-- The reshapes write their results only. -/
theorem W1_of (c : Dev nD) (r : Ref sig .tc) (h : r ∉ reshaped) :
    W1 m ρ c (Proc.devRef .tc r) = W0 m ρ c (Proc.devRef .tc r) :=
  StableHlo.after_of_writes_sub hostOps0 _ hostOps0_writes h

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := W2_in m ρ c 2 rfl
    _ = W0 m ρ c (Proc.devRef .tc main_arg0) := W1_of m ρ c main_arg0 (by decide)
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_in m ρ c 0 rfl
    _ = W1 m ρ c (Proc.devRef .tc main_arg1) := W2_in m ρ c 0 rfl
    _ = W0 m ρ c (Proc.devRef .tc main_arg1) := W1_of m ρ c main_arg1 (by decide)
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_in m ρ c 3 rfl
    _ = W0 m ρ c (Proc.devRef .tc main_arg3) := W1_of m ρ c main_arg3 (by decide)
    _ = m ((c : Thread nD τ).loc main_arg3) := rfl
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := W1_of m ρ c main_arg4 (by decide)
    _ = m ((c : Thread nD τ).loc main_arg4) := rfl
theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := W2_in m ρ c 5 rfl
    _ = W0 m ρ c (Proc.devRef .tc main_arg5) := W1_of m ρ c main_arg5 (by decide)
    _ = m ((c : Thread nD τ).loc main_arg5) := rfl
theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := W1_of m ρ c main_arg6 (by decide)
    _ = m ((c : Thread nD τ).loc main_arg6) := rfl
theorem W3_main_arg7 (c : Dev nD) : W3 m ρ c (Proc.devRef .tc main_arg7) = m ((c : Thread nD τ).loc main_arg7) :=
  calc W3 m ρ c (Proc.devRef .tc main_arg7)
    _ = W2 m ρ c (Proc.devRef .tc main_arg7) := W3_in m ρ c 3 rfl
    _ = W1 m ρ c (Proc.devRef .tc main_arg7) := W2_of_ne m ρ c main_arg7 (by decide)
    _ = W0 m ρ c (Proc.devRef .tc main_arg7) := W1_of m ρ c main_arg7 (by decide)
    _ = m ((c : Thread nD τ).loc main_arg7) := rfl
theorem W3_main_arg8 (c : Dev nD) : W3 m ρ c (Proc.devRef .tc main_arg8) = m ((c : Thread nD τ).loc main_arg8) :=
  calc W3 m ρ c (Proc.devRef .tc main_arg8)
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := W1_of m ρ c main_arg8 (by decide)
    _ = m ((c : Thread nD τ).loc main_arg8) := rfl
theorem W3_main_arg9 (c : Dev nD) : W3 m ρ c (Proc.devRef .tc main_arg9) = m ((c : Thread nD τ).loc main_arg9) :=
  calc W3 m ρ c (Proc.devRef .tc main_arg9)
    _ = W2 m ρ c (Proc.devRef .tc main_arg9) := W3_in m ρ c 5 rfl
    _ = W1 m ρ c (Proc.devRef .tc main_arg9) := W2_of_ne m ρ c main_arg9 (by decide)
    _ = W0 m ρ c (Proc.devRef .tc main_arg9) := W1_of m ρ c main_arg9 (by decide)
    _ = m ((c : Thread nD τ).loc main_arg9) := rfl
theorem W3_main_arg10 (c : Dev nD) : W3 m ρ c (Proc.devRef .tc main_arg10) = m ((c : Thread nD τ).loc main_arg10) :=
  calc W3 m ρ c (Proc.devRef .tc main_arg10)
    _ = W2 m ρ c (Proc.devRef .tc main_arg10) := W3_of_ne m ρ c main_arg10 (by decide)
    _ = W1 m ρ c (Proc.devRef .tc main_arg10) := W2_of_ne m ρ c main_arg10 (by decide)
    _ = W0 m ρ c (Proc.devRef .tc main_arg10) := W1_of m ρ c main_arg10 (by decide)
    _ = m ((c : Thread nD τ).loc main_arg10) := rfl
/-- The set table at the end is what the set stage's write-backs left: the node stage only reads it. -/
theorem W3_main_v5 (c : Dev nD) : W3 m ρ c (Proc.devRef .tc main_v5) = (dat0 (V1 m ρ) c).arrAt 7 cfg0.N :=
  (W3_in m ρ c 2 rfl).trans (W2_arr m ρ c 7)
theorem W3_main_v6 (c : Dev nD) : W3 m ρ c (Proc.devRef .tc main_v6) = (dat1 (V2 m ρ) c).arrAt 7 cfg1.N :=
  W3_arr m ρ c 7

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! The proof data family and the thread state -/

/-- The prefetched tables' admissible contents: no stage has a table. -/
abbrev adm : (p : Fin 2) → (pcfgs (F := F) p).Adm := fun p => (cfgs p).toPCfg_adm
/-- Every stage's proof data, each at its entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at
    nothing. -/
abbrev R (c : Dev nD) : sProp 𝕄 := iprop((∃ r, prngReg c r) ∗ ∃ W, owes (c : Thread nD τ) (0 : CellTallies nD τ sig Unit) W)
/-- A host stretch as a segment over the unscoped references from the contents W, R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without the dues: every unscoped buffer at the last boundary's contents, the generator
    register at some state. -/
abbrev Tₙ (c : Dev nD) : sProp 𝕄 := iprop(StableHlo.held (c : Thread nD τ) (Pipeline.ucRefs τ sig) (W3 m ρ c) ∗ ∃ r, prngReg c r)

/-- At a stage's exit each of its arrays holds what the pipeline leaves and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! The stages as segments -/

set_option backward.isDefEq.respectTransparency.types false in
/-- The set stage over the thread state: entered from every unscoped buffer at W1, left at W2. Its arrays split out
    of the unscoped buffers and put back at the exit contents; the generator register into the invariant and out;
    nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from Phi_first (V1 m ρ) c]; unfold Pipeline.ΦA
    iintro ⟨Hp, -, Hr⟩
    isplitl [Hr]; · iexact Hr
    iexact Hp
  hout c := by
    rw [Pipeline.ownSems0_none]
    refine (show (pdats m ρ 0 c).Φ (Fin.last _) ⊢ (Pipeline.ΦA spec0 c : sProp 𝕄) from Phi_last (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The node stage over the thread state: entered from every unscoped buffer at W2, left at W3 (what the launch
    reads at the end). -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! The program as segments, and the launch -/

/-- The program's three segments in order: the host reshapes from the launch contents, then the two stages. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
/-- The program is the run of the segments. -/
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and in every final state each unscoped buffer of each core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c),
     (h c _ (mem_uc main_arg6 (by decide))).trans (W3_main_arg6 m ρ c),
     (h c _ (mem_uc main_arg7 (by decide))).trans (W3_main_arg7 m ρ c),
     (h c _ (mem_uc main_arg8 (by decide))).trans (W3_main_arg8 m ρ c),
     (h c _ (mem_uc main_arg9 (by decide))).trans (W3_main_arg9 m ρ c),
     (h c _ (mem_uc main_arg10 (by decide))).trans (W3_main_arg10 m ρ c)⟩) (run_all m ρ)

end Cert.Kernel.TwoStageRun

end
-- ==== Proof.NodeStage.lean ====
/- The node stage (the second pallas_call): at grid point t the body reads rows [1024 t, 1024 (t+1)) of the node
   features and of the segment ids, the whole set table s and the node MLP's weights, and stores the block's result
   rows. Here: what the body leaves in its output block as a function of the blocks it reads, the body's triple,
   and the pipeline's proof data at arbitrary entry contents V. Generic in the float instance. -/
import proofs.«417193_j3779571220745_1_alg».proof.Proof.Gen.KernelIdeal.Launch
import proofs.«417193_j3779571220745_1_alg».proof.Proof.Gen.KernelIdeal.Skeleton
import proofs.«417193_j3779571220745_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.NodeStage

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the stage finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

abbrev rNode : Rect S1024x128 := Rect.unit (s := S1024x128) ![0, 0] S1024x128.size inb_S1024x128_S1024x128_0_0
abbrev rSeg : Rect S1024x1 := Rect.unit (s := S1024x1) ![0, 0] S1024x1.size inb_S1024x1_S1024x1_0_0
abbrev rSet : Rect S4096x128 := Rect.unit (s := S4096x128) ![0, 0] S4096x128.size inb_S4096x128_S4096x128_0_0
abbrev rW1 : Rect S256x128 := Rect.unit (s := S256x128) ![0, 0] S256x128.size inb_S256x128_S256x128_0_0
abbrev rB : Rect S1x128 := Rect.unit (s := S1x128) ![0, 0] S1x128.size inb_S1x128_S1x128_0_0
abbrev rW2 : Rect S128x128 := Rect.unit (s := S128x128) ![0, 0] S128x128.size inb_S128x128_S128x128_0_0

/-- The output block after the body, from the blocks it reads: its one store, over the whole block. -/
def out1_7 (x0 : Vec F S1024x128 .f32) (x1 : Vec F S1024x1 .i32) (x2 : Vec F S4096x128 .f32) (x3 : Vec F S256x128 .f32)
    (x4 : Vec F S1x128 .f32) (x5 : Vec F S128x128 .f32) (x6 : Vec F S1x128 .f32) : Vec F S1024x128 .f32 :=
  View.canon [⟨rNode, k1_pay1 (View.ld x1 rSeg) (View.ld x2 rSet) (View.ld x0 rNode) (View.ld x3 rW1) (View.ld x4 rB) (View.ld x5 rW2) (View.ld x6 rB)⟩]

theorem cover1_7 (p0 : Vec F S1024x128 .f32) (y : S1024x128.Idx) :
    ∃ pc ∈ ([⟨rNode, p0⟩] : List (View.Piece (Elt F) S1024x128 .f32)), y ∈ pc.1.set :=
  View.cover_of_tiled [⟨rNode, p0⟩] S1024x128.size (by rfl) y

/-- The proof data of the node stage on core c: arrays as found; each input block stays; the output block at out1_7. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

set_option maxHeartbeats 1000000 in
/-- The body on whole staging memrefs holding the blocks x0..x6, the output's at anything: it ends with the inputs as
    they were and the output at out1_7 of them. -/
theorem sound_kernel1 (c : Dev nD) (E : Set ℕ) (i : grid1.Coords)
    (arg1 : Memref sig .tc .vmem S1024x128 .f32) (harg1 : arg1.IsWhole) (arg2 : Memref sig .tc .vmem S1024x1 .i32) (harg2 : arg2.IsWhole)
    (arg3 : Memref sig .tc .vmem S4096x128 .f32) (harg3 : arg3.IsWhole) (arg4 : Memref sig .tc .vmem S256x128 .f32) (harg4 : arg4.IsWhole)
    (arg5 : Memref sig .tc .vmem S1x128 .f32) (harg5 : arg5.IsWhole) (arg6 : Memref sig .tc .vmem S128x128 .f32) (harg6 : arg6.IsWhole)
    (arg7 : Memref sig .tc .vmem S1x128 .f32) (harg7 : arg7.IsWhole) (arg8 : Memref sig .tc .vmem S1024x128 .f32) (harg8 : arg8.IsWhole)
    (x0 : Vec F S1024x128 .f32) (x1 : Vec F S1024x1 .i32) (x2 : Vec F S4096x128 .f32) (x3 : Vec F S256x128 .f32)
    (x4 : Vec F S1x128 .f32) (x5 : Vec F S128x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out1_7 x0 x1 x2 x3 x4 x5 x6)) -∗ K ⟨⟩))
      ⊢ wp frame (wpE (defs₀ (F := F)) Variants.none c none) E (cc1_kernel i arg1 harg1 arg2 harg2 arg3 harg3 arg4 harg4 arg5 harg5 arg6 harg6 arg7 harg7 arg8 harg8) K := by
  simp only [cc1_kernel_eq_skeleton]; unfold cc1_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-- What the body is called with at point t: the invariant, the core's debts, and each window's current staging
    memref at its contents before the body. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns: the same with each memref at its contents after the body. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' memrefs hold their blocks, so the body's triple applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ (grid1.coords t) _ _ _ _ _ _ _ _ _ _ _ _ _ _ _ _
    (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.NodeStage

end
-- ==== Proof.SetStage.lean ====
/- The set stage (the first pallas_call): over the 512 grid points a scratch accumulator, zeroed at the first
   point, gains at point t the one-hot product of the segment ids of rows [1024 t, 1024 (t+1)) with those rows of the
   node features; at the last point the set MLP of the accumulated sums beside the set features is stored into the
   output block, which is idle (untouched, not written back) at every other point. Here: the accumulator after each
   point as a recursion over the points, the output block at the last point, the invariant that carries the scratch
   between points, the pipeline's proof data at arbitrary entry contents V, and the body obligation.
   Generic in the float instance. -/
import proofs.«417193_j3779571220745_1_alg».proof.Proof.Gen.KernelIdeal.Launch
import proofs.«417193_j3779571220745_1_alg».proof.Proof.Gen.KernelIdeal.Skeleton
import proofs.«417193_j3779571220745_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.SetStage

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the stage finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

abbrev rNode : Rect S1024x128 := Rect.unit (s := S1024x128) ![0, 0] S1024x128.size inb_S1024x128_S1024x128_0_0
abbrev rSeg : Rect S1024x1 := Rect.unit (s := S1024x1) ![0, 0] S1024x1.size inb_S1024x1_S1024x1_0_0
abbrev rSet : Rect S4096x128 := Rect.unit (s := S4096x128) ![0, 0] S4096x128.size inb_S4096x128_S4096x128_0_0
abbrev rW1 : Rect S256x128 := Rect.unit (s := S256x128) ![0, 0] S256x128.size inb_S256x128_S256x128_0_0
abbrev rB : Rect S1x128 := Rect.unit (s := S1x128) ![0, 0] S1x128.size inb_S1x128_S1x128_0_0
abbrev rW2 : Rect S128x128 := Rect.unit (s := S128x128) ![0, 0] S128x128.size inb_S128x128_S128x128_0_0

/-- The scratch memref the kernel is called with. -/
abbrev scM : Memref sig .tc .vmem S4096x128 .f32 := Memref.whole cc0_scratch0

/-- The accumulator right after the first point's reset: the zero block stored over the whole scratch. -/
def accReset : Vec F S4096x128 .f32 := View.canon [⟨rSet, k0_pay1 (F := F)⟩]

/-- One point's update: the accumulator a plus the one-hot product of the segment-id block x1 with the node block x0,
    stored over the whole scratch. -/
def accStep (x0 : Vec F S1024x128 .f32) (x1 : Vec F S1024x1 .i32) (a : Vec F S4096x128 .f32) : Vec F S4096x128 .f32 :=
  View.canon [⟨rSet, k0_pay2 (View.ld x1 rSeg) (View.ld x0 rNode) (View.ld a rSet)⟩]

/-- The scratch after point n: the reset and one update at the first point, one update over the point before otherwise. -/
def accAt (c : Dev nD) : (n : ℕ) → n < cfg0.N → Vec F S4096x128 .f32
  | 0, h => accStep (iblk0 V c 0 ⟨0, h⟩) (iblk0 V c 1 ⟨0, h⟩) accReset
  | n + 1, h => accStep (iblk0 V c 0 ⟨n + 1, h⟩) (iblk0 V c 1 ⟨n + 1, h⟩) (accAt c n (Nat.lt_of_succ_lt h))

theorem accAt_zero (c : Dev nD) (h : 0 < cfg0.N) :
    accAt V c 0 h = accStep (iblk0 V c 0 ⟨0, h⟩) (iblk0 V c 1 ⟨0, h⟩) accReset := rfl
theorem accAt_succ (c : Dev nD) (n : ℕ) (h : n + 1 < cfg0.N) :
    accAt V c (n + 1) h = accStep (iblk0 V c 0 ⟨n + 1, h⟩) (iblk0 V c 1 ⟨n + 1, h⟩) (accAt V c n (Nat.lt_of_succ_lt h)) := rfl

/-- The output block as the last point's body leaves it: the set MLP of the accumulator a beside the set features x2,
    with weights x3, x5 and biases x4, x6, stored over the whole block. -/
def out0_7 (a : Vec F S4096x128 .f32) (x2 : Vec F S4096x128 .f32) (x3 : Vec F S256x128 .f32) (x4 : Vec F S1x128 .f32)
    (x5 : Vec F S128x128 .f32) (x6 : Vec F S1x128 .f32) : Vec F S4096x128 .f32 :=
  View.canon [⟨rSet, k0_pay3 (View.ld a rSet) (View.ld x2 rSet) (View.ld x3 rW1) (View.ld x4 rB) (View.ld x5 rW2) (View.ld x6 rB)⟩]

theorem cover0 (p0 : Vec F S4096x128 .f32) (y : S4096x128.Idx) :
    ∃ pc ∈ ([⟨rSet, p0⟩] : List (View.Piece (Elt F) S4096x128 .f32)), y ∈ pc.1.set :=
  View.cover_of_tiled [⟨rSet, p0⟩] S4096x128.size (by rfl) y

/-- The scoped buffers of the core other than this stage's staging buffers and its scratch: each whole at some contents. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f))

/-- The invariant before position n: before the first point, every scoped buffer that is no staging buffer of this
    stage at anything and the generator register at some state; afterwards the same with the scratch at the accumulator
    the point before left. -/
def PhiAcc (c : Dev nD) : (n : ℕ) → n ≤ cfg0.N → sProp 𝕄
  | 0, _ => Pipeline.ΦA spec0 c
  | n + 1, hn => iprop(owns (c : Thread nD τ) scM fullShare (accAt V c n hn) ∗ otherScoped (F := F) c ∗ (∃ r, prngReg c r))

theorem PhiAcc_zero (c : Dev nD) (n : ℕ) (h : n ≤ cfg0.N) (hz : n = 0) : PhiAcc V c n h = Pipeline.ΦA spec0 c := by
  subst hz; rfl
theorem PhiAcc_succ (c : Dev nD) (n : ℕ) (hn : n < cfg0.N) :
    PhiAcc V c (n + 1) hn = iprop(owns (c : Thread nD τ) scM fullShare (accAt V c n hn) ∗ otherScoped (F := F) c ∗ (∃ r, prngReg c r)) := rfl
theorem PhiAcc_pos (c : Dev nD) (n : ℕ) (h : n ≤ cfg0.N) (hz : n ≠ 0) :
    PhiAcc V c n h = iprop(owns (c : Thread nD τ) scM fullShare (accAt V c (n - 1) (by omega)) ∗ otherScoped (F := F) c ∗ (∃ r, prngReg c r)) := by
  cases n with
  | zero => exact absurd rfl hz
  | succ n => rfl

/-- The proof data of the set stage on core c: arrays as found; each input block stays; the output block at the set MLP of
    the running accumulator (consulted only at the last point: elsewhere the window is idle and not written back). -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (accAt V c t.val t.isLt) (iblk0 V c 2 t) (iblk0 V c 3 t) (iblk0 V c 4 t) (iblk0 V c 5 t) (iblk0 V c 6 t)
  Φ t := PhiAcc V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (accAt V c t.val t.isLt) (iblk0 V c 2 t) (iblk0 V c 3 t) (iblk0 V c 4 t) (iblk0 V c 5 t) (iblk0 V c 6 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-- The invariant at the stage's entry is the class's. -/
theorem Phi_first (c : Dev nD) : (dat0 V c).Φ 0 = Pipeline.ΦA spec0 c := rfl

/-- The first branch's condition (the point is the grid's first), from the grid coordinate. -/
abbrev cond0_0 (i : grid0.Coords) : Prop := (Scalar.cmpi .ne (Scalar.extui (Scalar.cmpi .eq (BitVec.ofNat 32 (i 0).val) 0#32)) 0#32) = 1#1
/-- It holds at the first point only: decided over the grid. -/
theorem hcond0_0 : ∀ t : Fin cfg0.N, cond0_0 (grid0.coords t) ↔ t.val % 512 = 0 :=
  (by decide +kernel : ∀ t : Fin grid0.N, cond0_0 (grid0.coords t) ↔ t.val % 512 = 0)
/-- The second branch's condition (the point is the grid's last). -/
abbrev cond0_1 (i : grid0.Coords) : Prop := k0_cond2 i = 1#1
/-- It holds at the last point only: decided over the grid. -/
theorem hcond0_1 : ∀ t : Fin cfg0.N, cond0_1 (grid0.coords t) ↔ t.val % 512 = 511 :=
  (by decide +kernel : ∀ t : Fin grid0.N, cond0_1 (grid0.coords t) ↔ t.val % 512 = 511)

set_option maxHeartbeats 1000000 in
/-- A middle point's body: the scratch, found at a, is left at one update of a by the point's node and segment-id
    blocks; nothing else is touched. -/
theorem run_mid (c : Dev nD) (i : grid0.Coords) (arg1 : Memref sig .tc .vmem S1024x128 .f32) (harg1 : arg1.IsWhole) (arg2 : Memref sig .tc .vmem S1024x1 .i32) (harg2 : arg2.IsWhole) (arg3 : Memref sig .tc .vmem S4096x128 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S4096x128 .f32) (harg8 : arg8.IsWhole) (arg9 : Memref sig .tc .vmem S4096x128 .f32) (harg9 : arg9.IsWhole) (hc0 : ¬cond0_0 i) (hc1 : ¬cond0_1 i)
    (x0 : Vec F S1024x128 .f32) (x1 : Vec F S1024x1 .i32) (a : Vec F S4096x128 .f32) (E : Set ℕ) (K : PUnit → sProp 𝕄) :
    iprop(owns (c : Thread nD τ) arg1 fullShare x0 ∗ owns (c : Thread nD τ) arg2 fullShare x1 ∗ owns (c : Thread nD τ) arg9 fullShare a
      ∗ (iprop(owns (c : Thread nD τ) arg1 fullShare x0 ∗ owns (c : Thread nD τ) arg2 fullShare x1 ∗ owns (c : Thread nD τ) arg9 fullShare (accStep x0 x1 a)) -∗ K ⟨⟩))
    ⊢ wp frame (wpE (defs₀ (F := F)) Variants.none c none) E (cc0_kernel i arg1 harg1 arg2 harg2 arg3 harg3 arg4 harg4 arg5 harg5 arg6 harg6 arg7 harg7 arg8 harg8 arg9 harg9) K := by
  simp only [cc0_kernel_eq_skeleton]; unfold cc0_kernel_skel
  unfold owns
  iintro ⟨⟨%f0, %hf0, H0⟩, ⟨%f1, %hf1, H1⟩, ⟨%fa, %hfa, HA⟩, Hk⟩
  subst hf0; subst hf1; subst hfa
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HA
  ipureintro
  exact View.read_writes_eq_canon _ _ _ (cover0 _)

/-- Every index of the scratch's shape lies in the one rectangle the body stores through. -/
theorem mem_rSet (p0 : Vec F S4096x128 .f32) (y : S4096x128.Idx) : y ∈ (rSet).set := by
  obtain ⟨pc, hm, hy⟩ := cover0 p0 y
  rw [List.mem_singleton] at hm; subst hm; exact hy

/-- Of two stores through that rectangle the later is what remains. -/
theorem canon_two (w p0 : Vec F S4096x128 .f32) :
    View.canon ([⟨rSet, w⟩, ⟨rSet, p0⟩] : List (View.Piece (Elt F) S4096x128 .f32)) = View.canon [⟨rSet, w⟩] := by
  funext y
  obtain ⟨x, rfl⟩ := (rSet).exists_idx_of_mem (mem_rSet p0 y)
  rw [show (rSet).idx x = (rSet).emb x from rfl, View.canon_cons_emb, View.canon_cons_emb]

/-- Two stores through that rectangle cover the shape. -/
theorem cover2 (w p0 : Vec F S4096x128 .f32) (y : S4096x128.Idx) :
    ∃ pc ∈ ([⟨rSet, w⟩, ⟨rSet, p0⟩] : List (View.Piece (Elt F) S4096x128 .f32)), y ∈ pc.1.set :=
  ⟨⟨rSet, w⟩, List.mem_cons.mpr (Or.inl rfl), mem_rSet p0 y⟩

set_option maxHeartbeats 1000000 in
/-- The first point's body: the scratch, found at anything, is zeroed and then updated once by the point's blocks. -/
theorem run_first (c : Dev nD) (i : grid0.Coords) (arg1 : Memref sig .tc .vmem S1024x128 .f32) (harg1 : arg1.IsWhole) (arg2 : Memref sig .tc .vmem S1024x1 .i32) (harg2 : arg2.IsWhole) (arg3 : Memref sig .tc .vmem S4096x128 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S4096x128 .f32) (harg8 : arg8.IsWhole) (arg9 : Memref sig .tc .vmem S4096x128 .f32) (harg9 : arg9.IsWhole) (hc0 : cond0_0 i) (hc1 : ¬cond0_1 i)
    (x0 : Vec F S1024x128 .f32) (x1 : Vec F S1024x1 .i32) (E : Set ℕ) (K : PUnit → sProp 𝕄) :
    iprop(owns (c : Thread nD τ) arg1 fullShare x0 ∗ owns (c : Thread nD τ) arg2 fullShare x1 ∗ (∃ d, owns (c : Thread nD τ) arg9 fullShare d)
      ∗ (iprop(owns (c : Thread nD τ) arg1 fullShare x0 ∗ owns (c : Thread nD τ) arg2 fullShare x1 ∗ owns (c : Thread nD τ) arg9 fullShare (accStep x0 x1 accReset)) -∗ K ⟨⟩))
    ⊢ wp frame (wpE (defs₀ (F := F)) Variants.none c none) E (cc0_kernel i arg1 harg1 arg2 harg2 arg3 harg3 arg4 harg4 arg5 harg5 arg6 harg6 arg7 harg7 arg8 harg8 arg9 harg9) K := by
  simp only [cc0_kernel_eq_skeleton]; unfold cc0_kernel_skel
  unfold owns
  iintro ⟨⟨%f0, %hf0, H0⟩, ⟨%f1, %hf1, H1⟩, ⟨%da, %fa, -, HA⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HA
  ipureintro
  sl_unfold_run_names
  rw [View.read_writes_eq_canon _ _ _ (cover2 _ _)]
  rw [View.readCov_eq_canon_ld _ _ _ (cover0 _)]
  exact canon_two _ _

set_option maxHeartbeats 1000000 in
/-- The last point's body (not the first): one update of the scratch, then the set MLP of the updated scratch beside the
    set features stored over the whole output block. -/
theorem run_last (c : Dev nD) (i : grid0.Coords) (arg1 : Memref sig .tc .vmem S1024x128 .f32) (harg1 : arg1.IsWhole) (arg2 : Memref sig .tc .vmem S1024x1 .i32) (harg2 : arg2.IsWhole) (arg3 : Memref sig .tc .vmem S4096x128 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S4096x128 .f32) (harg8 : arg8.IsWhole) (arg9 : Memref sig .tc .vmem S4096x128 .f32) (harg9 : arg9.IsWhole) (hc0 : ¬cond0_0 i) (hc1 : cond0_1 i)
    (x0 : Vec F S1024x128 .f32) (x1 : Vec F S1024x1 .i32) (x2 : Vec F S4096x128 .f32) (x3 : Vec F S256x128 .f32) (x4 : Vec F S1x128 .f32)
    (x5 : Vec F S128x128 .f32) (x6 : Vec F S1x128 .f32) (a : Vec F S4096x128 .f32) (E : Set ℕ) (K : PUnit → sProp 𝕄) :
    iprop(owns (c : Thread nD τ) arg1 fullShare x0 ∗ owns (c : Thread nD τ) arg2 fullShare x1 ∗ owns (c : Thread nD τ) arg3 fullShare x2
      ∗ owns (c : Thread nD τ) arg4 fullShare x3 ∗ owns (c : Thread nD τ) arg5 fullShare x4 ∗ owns (c : Thread nD τ) arg6 fullShare x5
      ∗ owns (c : Thread nD τ) arg7 fullShare x6 ∗ (∃ d, owns (c : Thread nD τ) arg8 fullShare d) ∗ owns (c : Thread nD τ) arg9 fullShare a
      ∗ (iprop(owns (c : Thread nD τ) arg1 fullShare x0 ∗ owns (c : Thread nD τ) arg2 fullShare x1 ∗ owns (c : Thread nD τ) arg3 fullShare x2
          ∗ owns (c : Thread nD τ) arg4 fullShare x3 ∗ owns (c : Thread nD τ) arg5 fullShare x4 ∗ owns (c : Thread nD τ) arg6 fullShare x5
          ∗ owns (c : Thread nD τ) arg7 fullShare x6 ∗ owns (c : Thread nD τ) arg8 fullShare (out0_7 (accStep x0 x1 a) x2 x3 x4 x5 x6)
          ∗ owns (c : Thread nD τ) arg9 fullShare (accStep x0 x1 a)) -∗ K ⟨⟩))
    ⊢ wp frame (wpE (defs₀ (F := F)) Variants.none c none) E (cc0_kernel i arg1 harg1 arg2 harg2 arg3 harg3 arg4 harg4 arg5 harg5 arg6 harg6 arg7 harg7 arg8 harg8 arg9 harg9) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fa, %hfa, HA⟩, Hk⟩
  subst hf0; subst hf1; subst hf2; subst hf3; subst hf4; subst hf5; subst hf6; subst hfa
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    sl_unfold_run_names
    rw [View.read_writes_eq_canon _ _ _ (cover0 _), View.readCov_eq_canon_ld _ _ _ (cover0 _)]
    rfl
  iexists _; isplitr
  swap; · iexact HA
  ipureintro
  exact View.read_writes_eq_canon _ _ _ (cover0 _)

/-- The accumulator after the first point. -/
theorem accAt_first (c : Dev nD) (t : Fin cfg0.N) (hz : t.val = 0) :
    accAt V c t.val t.isLt = accStep (iblk0 V c 0 t) (iblk0 V c 1 t) accReset := by
  obtain ⟨n, hn⟩ := t
  cases n with
  | zero => rfl
  | succ n => exact absurd hz (Nat.succ_ne_zero n)

/-- The accumulator after a later point: one update of what the point before left. -/
theorem accAt_pos (c : Dev nD) (t : Fin cfg0.N) (hz : t.val ≠ 0) :
    accAt V c t.val t.isLt = accStep (iblk0 V c 0 t) (iblk0 V c 1 t) (accAt V c (t.val - 1) (Nat.lt_of_le_of_lt (Nat.sub_le _ _) t.isLt)) := by
  obtain ⟨n, hn⟩ := t
  cases n with
  | zero => exact absurd rfl hz
  | succ n => rfl

/-- The class invariant with the scratch as a memref owned at some contents. -/
theorem PhiA0_eq (c : Dev nD) :
    (Pipeline.ΦA spec0 c : sProp 𝕄)
      = iprop(((∃ d, owns (c : Thread nD τ) scM fullShare d) ∗ otherScoped (F := F) c) ∗ (∃ r, prngReg c r)) := by
  unfold Pipeline.ΦA otherScoped; rw [scopedRest0_eq]; simp only [scM, owns_whole]; try rfl

/-- The invariant at a point's start, restated at the point's number. -/
theorem PhiAcc_castSucc (c : Dev nD) (t : Fin cfg0.N) :
    (dat0 V c).Φ t.castSucc = PhiAcc V c t.val (Nat.le_of_lt t.isLt) := by
  dsimp only [dat0]; simp only [Fin.coe_castSucc]

/-- The input windows are never idle. -/
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl

/-- The output window is idle wherever the second branch is not taken, -/
theorem idleAt0_7 (t : Fin cfg0.N) (h : ¬cond0_1 (grid0.coords t)) : cfg0.idle 7 (grid0.coords t) = true := by
  show (!(k0_cond2 (grid0.coords t) == 1#1)) = true
  simp only [Bool.not_eq_true', beq_eq_false_iff_ne, ne_eq]; exact h
/-- is not written back there, -/
theorem noFlush0_7 (t : Fin cfg0.N) (h : ¬cond0_1 (grid0.coords t)) : (cfg0.win 7).flush t = false :=
  Bool.eq_false_iff.mpr fun hf => h ((hcond0_1 t).mpr ((flush0_7 t).mp hf))
/-- and live where it is taken. -/
theorem liveAt0_7 (t : Fin cfg0.N) (h : cond0_1 (grid0.coords t)) : cfg0.idle 7 (grid0.coords t) = false := by
  show (!(k0_cond2 (grid0.coords t) == 1#1)) = false
  simp only [Bool.not_eq_false', beq_iff_eq]; exact h

/-- Each window's current staging memref at a point, as the pipeline passes it, and its wholeness. -/
abbrev ms0_0 (t : Fin cfg0.N) : Memref sig .tc .vmem S1024x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S4096x128 .f32 := win0_7.stage (cfg0.slots t 7)
abbrev hs0_7 (t : Fin cfg0.N) : (ms0_7 t).IsWhole := hstage0_7 ((cfg0.slots t 7).cast nbuf0_7)

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 4800000 in
/-- The body at any point: the inputs' memrefs hold their blocks; the point is the first, the last or neither, and that
    case's run applies; the invariant hands the run the scratch (at anything at the first point, at the accumulator the
    point before left afterwards) and takes it back at this point's accumulator; the output block is handed back as found
    except at the last point, where it holds the set MLP. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl]
  rw [show (dat0 V c).Φ t.succ = PhiAcc V c (t.val + 1) t.isLt from rfl, PhiAcc_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  rw [show (dat0 V c).leavesExact 6 t = owns (c : Thread nD τ) (ms0_6 t) fullShare ((dat0 V c).after 6 t) from by
    unfold Dat.leavesExact; rw [liveAt0_6 t], after0_6]
  have hN : t.val < 512 := lt_of_lt_of_eq t.isLt (show cfg0.N = 512 from N_0)
  by_cases h1 : t.val % 512 = 511
  · have hc0 : ¬cond0_0 (grid0.coords t) := fun h => by have := (hcond0_0 t).mp h; omega
    have hc1 : cond0_1 (grid0.coords t) := (hcond0_1 t).mpr h1
    have hz : t.val ≠ 0 := by omega
    rw [show (dat0 V c).leavesExact 7 t = owns (c : Thread nD τ) (ms0_7 t) fullShare ((dat0 V c).after 7 t) from by
      unfold Dat.leavesExact; rw [liveAt0_7 t hc1], after0_7]
    rw [accAt_pos V c t hz, PhiAcc_castSucc V c t, PhiAcc_pos V c _ _ hz]
    iintro ⟨⟨HS, Hs, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM (Memref.isWhole_whole _) hc0 hc1
      (iblk0 V c 0 t) (iblk0 V c 1 t) (iblk0 V c 2 t) (iblk0 V c 3 t) (iblk0 V c 4 t) (iblk0 V c 5 t) (iblk0 V c 6 t)
      (accAt V c (t.val - 1) (Nat.lt_of_le_of_lt (Nat.sub_le _ _) t.isLt)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexact HS
    iintro ⟨H0, H1, H2, H3, H4, H5, H6, H7, HS⟩
    isplitl [HS Hs Hg]
    · isplitl [HS]; · iexact HS
      isplitl [Hs]; · iexact Hs
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have hc1 : ¬cond0_1 (grid0.coords t) := fun h => h1 ((hcond0_1 t).mp h)
    rw [Dat.leavesExact_idle (dat0 V c) 7 t (idleAt0_7 t hc1) (noFlush0_7 t hc1)]
    by_cases hz : t.val = 0
    · have hc0 : cond0_0 (grid0.coords t) := (hcond0_0 t).mpr (by omega)
      rw [accAt_first V c t hz, PhiAcc_castSucc V c t, PhiAcc_zero V c _ _ hz, PhiA0_eq]
      iintro ⟨⟨⟨HS, Hs⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM (Memref.isWhole_whole _) hc0 hc1
        (iblk0 V c 0 t) (iblk0 V c 1 t) Set.univ _)
      isplitl [H0]; · iexact H0
      isplitl [H1]; · iexact H1
      isplitl [HS]; · iexact HS
      iintro ⟨H0, H1, HS⟩
      isplitl [HS Hs Hg]
      · isplitl [HS]; · iexact HS
        isplitl [Hs]; · iexact Hs
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    · have hc0 : ¬cond0_0 (grid0.coords t) := fun h => by have := (hcond0_0 t).mp h; omega
      rw [accAt_pos V c t hz, PhiAcc_castSucc V c t, PhiAcc_pos V c _ _ hz]
      iintro ⟨⟨HS, Hs, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_mid c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM (Memref.isWhole_whole _) hc0 hc1
        (iblk0 V c 0 t) (iblk0 V c 1 t) (accAt V c (t.val - 1) (Nat.lt_of_le_of_lt (Nat.sub_le _ _) t.isLt)) Set.univ _)
      isplitl [H0]; · iexact H0
      isplitl [H1]; · iexact H1
      isplitl [HS]; · iexact HS
      iintro ⟨H0, H1, HS⟩
      isplitl [HS Hs Hg]
      · isplitl [HS]; · iexact HS
        isplitl [Hs]; · iexact Hs
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The invariant at the stage's exit gives back the class's: the scratch's contents are forgotten. -/
theorem Phi_last (c : Dev nD) : (dat0 V c).Φ (Fin.last _) ⊢ (Pipeline.ΦA spec0 c : sProp 𝕄) := by
  have hN : cfg0.N = 512 := N_0
  rw [show (dat0 V c).Φ (Fin.last _) = PhiAcc V c (Fin.last cfg0.N).val (Nat.le_of_lt_succ (Fin.last cfg0.N).isLt) from rfl,
    PhiAcc_pos V c _ _ (by rw [Fin.val_last]; omega), PhiA0_eq]
  iintro ⟨HS, Hs, Hg⟩
  isplitl [HS Hs]
  · isplitl [HS]
    · iexists _; iexact HS
    iexact Hs
  iexact Hg

/-- Nothing is owed at any position. -/
theorem owed_zero (c : Dev nD) (t : Fin (cfg0.N + 1)) : (dat0 V c).owed t = 0 := rfl

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.SetStage

end
-- ==== Proof.TwoStageRun.lean ====
/- The whole run of the two-stage program: the host reshapes, the set stage, the node stage. The contents of every
   unscoped buffer at each boundary are a fold from the launch memory: after the reshapes; then the set stage's arrays
   at what its write-backs leave; then the node stage's. Each stage is entered from the boundary before it and left at
   the boundary after it; at the end every unscoped buffer is read against the last boundary's contents, from which
   the arguments come back as launched and the two results as the stages' final arrays. Generic in the float instance. -/
import proofs.«417193_j3779571220745_1_alg».proof.Proof.Gen.KernelIdeal.Launch
import proofs.«417193_j3779571220745_1_alg».proof.Proof.Gen.KernelIdeal.Skeleton
import proofs.«417193_j3779571220745_1_alg».proof.Proof.Gen.KernelIdeal.Points
import proofs.«417193_j3779571220745_1_alg».proof.Proof.NodeStage
import proofs.«417193_j3779571220745_1_alg».proof.Proof.SetStage
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.TwoStageRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Cert.KernelIdeal.SetStage (dat0 body_obligation0 A_eq0 Phi_first Phi_last)
open Cert.KernelIdeal.NodeStage (dat1 body_obligation1 A_eq1)

variable (m : (ℓ : Loc nD τ sig) → Buf (Elt F) ℓ) (ρ : Dev nD → PrngReg)

/-- Core c's buffers at launch. -/
abbrev W0 : Dev nD → Valuation τ sig (Elt F) := fun c b => (s₀ m ρ).mem ((c : Dev nD), b)
/-- After the host reshapes (the set stage's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the set stage's exit: its arrays at what the pipeline leaves, every other buffer as entered. -/
def W2 (c : Dev nD) : Valuation τ sig (Elt F) :=
  Pipeline.withArrays spec0 c (W1 m ρ c) fun w => (dat0 (V1 m ρ) c).arrAt w cfg0.N
abbrev V2 : (c : Dev nD) → (b : Ref sig .tc) → Buf (Elt F) ((c : Thread nD τ).loc b) := fun c b => W2 m ρ c b
/-- At the node stage's exit. -/
def W3 (c : Dev nD) : Valuation τ sig (Elt F) :=
  Pipeline.withArrays spec1 c (W2 m ρ c) fun w => (dat1 (V2 m ρ) c).arrAt w cfg1.N
abbrev V3 : (c : Dev nD) → (b : Ref sig .tc) → Buf (Elt F) ((c : Thread nD τ).loc b) := fun c b => W3 m ρ c b

theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb

/-! The arguments end as launched; the results are the stages' final arrays. -/
/-- An input window's array leaves a stage as it entered it. -/
theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin _).trans (A_eq0 (V1 m ρ) c w))
theorem W3_in (c : Dev nD) (w : Fin cfg1.W) (hin : (cfg1.win w).isOut = false) :
    W3 m ρ c (Proc.devRef .tc (Pipeline.arrRef spec1 w)) = W2 m ρ c (Proc.devRef .tc (Pipeline.arrRef spec1 w)) :=
  (W3_arr m ρ c w).trans (((dat1 (V2 m ρ) c).arrAt_in w hin _).trans (A_eq1 (V2 m ρ) c w))
/-- The references the reshapes write: their results. -/
abbrev reshaped : List (Ref sig .tc) := [main_v0, main_v1, main_v2, main_v3, main_v4]
theorem hostOps0_writes : (hostOps0 : List (HloOp τ sig (Elt F))).Forall fun op =>
    op.writes ⊆ (reshaped.map (Proc.devRef (τ := τ) .tc)).toFinset := by
  simp only [List.Forall, StableHlo.reshape_writes, Finset.singleton_subset_iff, List.mem_toFinset]
  refine ⟨?_, ?_, ?_, ?_, ?_⟩ <;> exact List.mem_map_of_mem (by decide)
/-- No reshape allocates a buffer. -/
theorem hostOps0_fresh : (hostOps0 : List (HloOp τ sig (Elt F))).Forall fun op => op.fresh = ∅ := by
  simp only [List.Forall]; repeat' constructor
/-- The reshapes write their results only. -/
theorem W1_of (c : Dev nD) (r : Ref sig .tc) (h : r ∉ reshaped) :
    W1 m ρ c (Proc.devRef .tc r) = W0 m ρ c (Proc.devRef .tc r) :=
  StableHlo.after_of_writes_sub hostOps0 _ hostOps0_writes h

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := W2_in m ρ c 2 rfl
    _ = W0 m ρ c (Proc.devRef .tc main_arg0) := W1_of m ρ c main_arg0 (by decide)
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_in m ρ c 0 rfl
    _ = W1 m ρ c (Proc.devRef .tc main_arg1) := W2_in m ρ c 0 rfl
    _ = W0 m ρ c (Proc.devRef .tc main_arg1) := W1_of m ρ c main_arg1 (by decide)
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_in m ρ c 3 rfl
    _ = W0 m ρ c (Proc.devRef .tc main_arg3) := W1_of m ρ c main_arg3 (by decide)
    _ = m ((c : Thread nD τ).loc main_arg3) := rfl
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := W1_of m ρ c main_arg4 (by decide)
    _ = m ((c : Thread nD τ).loc main_arg4) := rfl
theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := W2_in m ρ c 5 rfl
    _ = W0 m ρ c (Proc.devRef .tc main_arg5) := W1_of m ρ c main_arg5 (by decide)
    _ = m ((c : Thread nD τ).loc main_arg5) := rfl
theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := W1_of m ρ c main_arg6 (by decide)
    _ = m ((c : Thread nD τ).loc main_arg6) := rfl
theorem W3_main_arg7 (c : Dev nD) : W3 m ρ c (Proc.devRef .tc main_arg7) = m ((c : Thread nD τ).loc main_arg7) :=
  calc W3 m ρ c (Proc.devRef .tc main_arg7)
    _ = W2 m ρ c (Proc.devRef .tc main_arg7) := W3_in m ρ c 3 rfl
    _ = W1 m ρ c (Proc.devRef .tc main_arg7) := W2_of_ne m ρ c main_arg7 (by decide)
    _ = W0 m ρ c (Proc.devRef .tc main_arg7) := W1_of m ρ c main_arg7 (by decide)
    _ = m ((c : Thread nD τ).loc main_arg7) := rfl
theorem W3_main_arg8 (c : Dev nD) : W3 m ρ c (Proc.devRef .tc main_arg8) = m ((c : Thread nD τ).loc main_arg8) :=
  calc W3 m ρ c (Proc.devRef .tc main_arg8)
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := W1_of m ρ c main_arg8 (by decide)
    _ = m ((c : Thread nD τ).loc main_arg8) := rfl
theorem W3_main_arg9 (c : Dev nD) : W3 m ρ c (Proc.devRef .tc main_arg9) = m ((c : Thread nD τ).loc main_arg9) :=
  calc W3 m ρ c (Proc.devRef .tc main_arg9)
    _ = W2 m ρ c (Proc.devRef .tc main_arg9) := W3_in m ρ c 5 rfl
    _ = W1 m ρ c (Proc.devRef .tc main_arg9) := W2_of_ne m ρ c main_arg9 (by decide)
    _ = W0 m ρ c (Proc.devRef .tc main_arg9) := W1_of m ρ c main_arg9 (by decide)
    _ = m ((c : Thread nD τ).loc main_arg9) := rfl
theorem W3_main_arg10 (c : Dev nD) : W3 m ρ c (Proc.devRef .tc main_arg10) = m ((c : Thread nD τ).loc main_arg10) :=
  calc W3 m ρ c (Proc.devRef .tc main_arg10)
    _ = W2 m ρ c (Proc.devRef .tc main_arg10) := W3_of_ne m ρ c main_arg10 (by decide)
    _ = W1 m ρ c (Proc.devRef .tc main_arg10) := W2_of_ne m ρ c main_arg10 (by decide)
    _ = W0 m ρ c (Proc.devRef .tc main_arg10) := W1_of m ρ c main_arg10 (by decide)
    _ = m ((c : Thread nD τ).loc main_arg10) := rfl
/-- The set table at the end is what the set stage's write-backs left: the node stage only reads it. -/
theorem W3_main_v5 (c : Dev nD) : W3 m ρ c (Proc.devRef .tc main_v5) = (dat0 (V1 m ρ) c).arrAt 7 cfg0.N :=
  (W3_in m ρ c 2 rfl).trans (W2_arr m ρ c 7)
theorem W3_main_v6 (c : Dev nD) : W3 m ρ c (Proc.devRef .tc main_v6) = (dat1 (V2 m ρ) c).arrAt 7 cfg1.N :=
  W3_arr m ρ c 7

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! The proof data family and the thread state -/

/-- The prefetched tables' admissible contents: no stage has a table. -/
abbrev adm : (p : Fin 2) → (pcfgs (F := F) p).Adm := fun p => (cfgs p).toPCfg_adm
/-- Every stage's proof data, each at its entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at
    nothing. -/
abbrev R (c : Dev nD) : sProp 𝕄 := iprop((∃ r, prngReg c r) ∗ ∃ W, owes (c : Thread nD τ) (0 : CellTallies nD τ sig Unit) W)
/-- A host stretch as a segment over the unscoped references from the contents W, R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without the dues: every unscoped buffer at the last boundary's contents, the generator
    register at some state. -/
abbrev Tₙ (c : Dev nD) : sProp 𝕄 := iprop(StableHlo.held (c : Thread nD τ) (Pipeline.ucRefs τ sig) (W3 m ρ c) ∗ ∃ r, prngReg c r)

/-- At a stage's exit each of its arrays holds what the pipeline leaves and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! The stages as segments -/

set_option backward.isDefEq.respectTransparency.types false in
/-- The set stage over the thread state: entered from every unscoped buffer at W1, left at W2. Its arrays split out
    of the unscoped buffers and put back at the exit contents; the generator register into the invariant and out;
    nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from Phi_first (V1 m ρ) c]; unfold Pipeline.ΦA
    iintro ⟨Hp, -, Hr⟩
    isplitl [Hr]; · iexact Hr
    iexact Hp
  hout c := by
    rw [Pipeline.ownSems0_none]
    refine (show (pdats m ρ 0 c).Φ (Fin.last _) ⊢ (Pipeline.ΦA spec0 c : sProp 𝕄) from Phi_last (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The node stage over the thread state: entered from every unscoped buffer at W2, left at W3 (what the launch
    reads at the end). -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! The program as segments, and the launch -/

/-- The program's three segments in order: the host reshapes from the launch contents, then the two stages. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
/-- The program is the run of the segments. -/
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and in every final state each unscoped buffer of each core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c),
     (h c _ (mem_uc main_arg6 (by decide))).trans (W3_main_arg6 m ρ c),
     (h c _ (mem_uc main_arg7 (by decide))).trans (W3_main_arg7 m ρ c),
     (h c _ (mem_uc main_arg8 (by decide))).trans (W3_main_arg8 m ρ c),
     (h c _ (mem_uc main_arg9 (by decide))).trans (W3_main_arg9 m ρ c),
     (h c _ (mem_uc main_arg10 (by decide))).trans (W3_main_arg10 m ρ c)⟩) (run_all m ρ)

end Cert.KernelIdeal.TwoStageRun

end
-- ==== Proof.Spec.lean ====
/- What both programs compute, index by index, on the extended reals. With hot n g = 1 where node n carries segment
   id g and 0 elsewhere:
     agg g h      = ∑ n, hot n g · node n h                       (the segment sums)
     setHid g j   = max (∑ k, [agg g | uset g] k · Ws1 k j + bs1 j) 0
     setOut g j   = max (∑ k, setHid g k · Ws2 k j + bs2 j) 0      (the first result, s)
   and, over any set table s,
     gathOf s n j    = ∑ g, hot n g · s g j                          (row seg n of s)
     nodeHidOf s n j = max (∑ k, [node n | gathOf s n] k · Wn1 k j + bn1 j) 0
     nodeOutOf s n j = max (∑ k, nodeHidOf s n k · Wn2 k j + bn2 j) 0
   the second result being nodeOutOf over s = setOut;
   where [a | b] k is a at k < 128 and b at k − 128 otherwise. -/
import Idealize.ShloMosaic.PureOps.Ideal
import Idealize.ShloMosaic.Lib.ValueIdx

noncomputable section

open scoped BigOperators

namespace Cert.Spec

open Idealize.ShloMosaic Idealize.ShloMosaic.ValueIdx

abbrev TG : Shape := ⟨2, ![4096, 128]⟩
abbrev TN : Shape := ⟨2, ![524288, 128]⟩
abbrev TSeg : Shape := ⟨1, ![524288]⟩
abbrev TW1 : Shape := ⟨2, ![256, 128]⟩
abbrev TB : Shape := ⟨1, ![128]⟩
abbrev TW2 : Shape := ⟨2, ![128, 128]⟩

/-- Two rows of 128 side by side: a at k < 128, b at k − 128 otherwise. -/
def side (a b : Fin 128 → EReal) (k : Fin 256) : EReal :=
  if h : k.val < 128 then a ⟨k.val, h⟩ else b ⟨k.val - 128, by have := k.isLt; omega⟩

section
variable (uset : TG.Idx → EReal) (node : TN.Idx → EReal) (seg : TSeg.Idx → BitVec 32)
  (Ws1 : TW1.Idx → EReal) (bs1 : TB.Idx → EReal) (Ws2 : TW2.Idx → EReal) (bs2 : TB.Idx → EReal)

/-- 1 where node n carries segment id g, 0 elsewhere. -/
def hot (n : Fin 524288) (g : Fin 4096) : EReal := if (seg (ix1 n)).toNat = g.val then 1 else 0

/-- The segment sums. -/
def agg (g : Fin 4096) (h : Fin 128) : EReal := ∑ n : Fin 524288, hot seg n g * node (ix2 n h)

def setHid (g : Fin 4096) (j : Fin 128) : EReal :=
  max ((∑ k : Fin 256, side (agg node seg g) (fun h => uset (ix2 g h)) k * Ws1 (ix2 k j)) + bs1 (ix1 j)) 0

def setOut (g : Fin 4096) (j : Fin 128) : EReal :=
  max ((∑ k : Fin 128, setHid uset node seg Ws1 bs1 g k * Ws2 (ix2 k j)) + bs2 (ix1 j)) 0

/-- The first result as an array. -/
def setArr : TG.Idx → EReal := fun i => setOut uset node seg Ws1 bs1 Ws2 bs2 (i 0) (i 1)

end

section
variable (s : TG.Idx → EReal) (node : TN.Idx → EReal) (seg : TSeg.Idx → BitVec 32)
  (Wn1 : TW1.Idx → EReal) (bn1 : TB.Idx → EReal) (Wn2 : TW2.Idx → EReal) (bn2 : TB.Idx → EReal)

/-- Row seg n of a set table s, as a one-hot sum. -/
def gathOf (n : Fin 524288) (j : Fin 128) : EReal := ∑ g : Fin 4096, hot seg n g * s (ix2 g j)

def nodeHidOf (n : Fin 524288) (j : Fin 128) : EReal :=
  max ((∑ k : Fin 256, side (fun h => node (ix2 n h)) (gathOf s seg n) k * Wn1 (ix2 k j)) + bn1 (ix1 j)) 0

def nodeOutOf (n : Fin 524288) (j : Fin 128) : EReal :=
  max ((∑ k : Fin 128, nodeHidOf s node seg Wn1 bn1 n k * Wn2 (ix2 k j)) + bn2 (ix1 j)) 0

/-- The second result as an array, over a given set table s. -/
def nodeArrOf : TN.Idx → EReal := fun i => nodeOutOf s node seg Wn1 bn1 Wn2 bn2 (i 0) (i 1)

end

/-- The second result of the whole computation: the node stage over the first result. -/
def nodeArr (uset : TG.Idx → EReal) (node : TN.Idx → EReal) (seg : TSeg.Idx → BitVec 32)
    (Ws1 : TW1.Idx → EReal) (bs1 : TB.Idx → EReal) (Ws2 : TW2.Idx → EReal) (bs2 : TB.Idx → EReal)
    (Wn1 : TW1.Idx → EReal) (bn1 : TB.Idx → EReal) (Wn2 : TW2.Idx → EReal) (bn2 : TB.Idx → EReal) : TN.Idx → EReal :=
  nodeArrOf (setArr uset node seg Ws1 bs1 Ws2 bs2) node seg Wn1 bn1 Wn2 bn2

/-- Every segment id, read as a signed integer, lies in [0, 4096): the domain on which the reference's scatter and
    gather index inside the set table. -/
def SegInRange (seg : TSeg.Idx → BitVec 32) : Prop :=
  ∀ n : Fin 524288, 0 ≤ (seg (ix1 n)).toInt ∧ (seg (ix1 n)).toInt < 4096

end Cert.Spec

end
-- ==== Proof.SetValue.lean ====
/- The set stage's final array, index by index: the accumulator after the last point is the segment sums — the
   one-hot products of the 512 row blocks add up, in any grouping, to the sum over all nodes —, and the last point's
   store is the set MLP of those sums beside the set features; whatever contents V the stage is entered from.
   At the ideal instance. -/
import proofs.«417193_j3779571220745_1_alg».proof.Proof.SetStage
import proofs.«417193_j3779571220745_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.SetValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open Cert.KernelIdeal.SetStage

theorem zero_offsets : (![0, 0] : Fin 2 → Nat) = fun _ => 0 := funext fun a => by fin_cases a <;> rfl

theorem lhs_hot_0 (i : S4096x128.Idx) (q : dot_S4096x1024_S1024x128_S4096x128_1_0_0_1_n_n.contr.Idx) :
    (dot_S4096x1024_S1024x128_S4096x128_1_0_0_1_n_n.lhsIdx i q 0).val = (i 0).val := by
  unfold DotDims.lhsIdx
  rw [dif_neg (show ¬(0 : Fin S4096x1024.rank) ∈ dot_S4096x1024_S1024x128_S4096x128_1_0_0_1_n_n.lhsBatch by decide), dif_pos (show (0 : Fin S4096x1024.rank) ∈ dot_S4096x1024_S1024x128_S4096x128_1_0_0_1_n_n.lhsNonContracting by decide)]
  rfl
theorem lhs_hot_1 (i : S4096x128.Idx) (q : dot_S4096x1024_S1024x128_S4096x128_1_0_0_1_n_n.contr.Idx) :
    (dot_S4096x1024_S1024x128_S4096x128_1_0_0_1_n_n.lhsIdx i q 1).val = (q ⟨0, by decide⟩).val :=
  dot_S4096x1024_S1024x128_S4096x128_1_0_0_1_n_n.lhsIdx_val_of_single rfl i q
theorem rhs_hot_0 (i : S4096x128.Idx) (q : dot_S4096x1024_S1024x128_S4096x128_1_0_0_1_n_n.contr.Idx) :
    (dot_S4096x1024_S1024x128_S4096x128_1_0_0_1_n_n.rhsIdx i q 0).val = (q ⟨0, by decide⟩).val :=
  dot_S4096x1024_S1024x128_S4096x128_1_0_0_1_n_n.rhsIdx_val_of_single rfl i q
theorem rhs_hot_1 (i : S4096x128.Idx) (q : dot_S4096x1024_S1024x128_S4096x128_1_0_0_1_n_n.contr.Idx) :
    (dot_S4096x1024_S1024x128_S4096x128_1_0_0_1_n_n.rhsIdx i q 1).val = (i 1).val := by
  unfold DotDims.rhsIdx
  rw [dif_neg (show ¬(1 : Fin S1024x128.rank) ∈ dot_S4096x1024_S1024x128_S4096x128_1_0_0_1_n_n.rhsBatch by decide), dif_pos (show (1 : Fin S1024x128.rank) ∈ dot_S4096x1024_S1024x128_S4096x128_1_0_0_1_n_n.rhsNonContracting by decide)]
  rfl

/-- This product at an index: the sum over the 1024 contracted positions. -/
theorem matmul_hot_apply (l : FVec Ideal S4096x1024 .bf16) (r : FVec Ideal S1024x128 .bf16) (g : Fin 4096) (j : Fin 128) :
    FloatOps.matmul dot_S4096x1024_S1024x128_S4096x128_1_0_0_1_n_n none l r (constant (F := Ideal) S4096x128 .f32 0x00000000#32) (ix2 g j)
      = ∑ k : Fin 1024, l (ix2 g k) * r (ix2 k j) := by
  rw [Ideal.matmul_constant_zero_apply, ← Equiv.sum_comp (ValueIdx.contrEquiv1 dot_S4096x1024_S1024x128_S4096x128_1_0_0_1_n_n 1024 rfl rfl).symm]
  refine Finset.sum_congr rfl fun k _ => ?_
  have hk := ValueIdx.contrEquiv1_symm_val dot_S4096x1024_S1024x128_S4096x128_1_0_0_1_n_n 1024 rfl rfl k
  have el : dot_S4096x1024_S1024x128_S4096x128_1_0_0_1_n_n.lhsIdx (ix2 g j) ((ValueIdx.contrEquiv1 dot_S4096x1024_S1024x128_S4096x128_1_0_0_1_n_n 1024 rfl rfl).symm k) = ix2 g k := funext fun a => Fin.ext (by
    match a with
    | ⟨0, _⟩ => exact lhs_hot_0 _ _
    | ⟨1, _⟩ => exact (lhs_hot_1 _ _).trans hk)
  have er : dot_S4096x1024_S1024x128_S4096x128_1_0_0_1_n_n.rhsIdx (ix2 g j) ((ValueIdx.contrEquiv1 dot_S4096x1024_S1024x128_S4096x128_1_0_0_1_n_n 1024 rfl rfl).symm k) = ix2 k j := funext fun a => Fin.ext (by
    match a with
    | ⟨0, _⟩ => exact (rhs_hot_0 _ _).trans hk
    | ⟨1, _⟩ => exact rhs_hot_1 _ _)
  rw [el, er]

theorem lhs_hid_0 (i : S4096x128.Idx) (q : dot_S4096x256_S256x128_S4096x128_1_0_0_1_n_n.contr.Idx) :
    (dot_S4096x256_S256x128_S4096x128_1_0_0_1_n_n.lhsIdx i q 0).val = (i 0).val := by
  unfold DotDims.lhsIdx
  rw [dif_neg (show ¬(0 : Fin S4096x256.rank) ∈ dot_S4096x256_S256x128_S4096x128_1_0_0_1_n_n.lhsBatch by decide), dif_pos (show (0 : Fin S4096x256.rank) ∈ dot_S4096x256_S256x128_S4096x128_1_0_0_1_n_n.lhsNonContracting by decide)]
  rfl
theorem lhs_hid_1 (i : S4096x128.Idx) (q : dot_S4096x256_S256x128_S4096x128_1_0_0_1_n_n.contr.Idx) :
    (dot_S4096x256_S256x128_S4096x128_1_0_0_1_n_n.lhsIdx i q 1).val = (q ⟨0, by decide⟩).val :=
  dot_S4096x256_S256x128_S4096x128_1_0_0_1_n_n.lhsIdx_val_of_single rfl i q
theorem rhs_hid_0 (i : S4096x128.Idx) (q : dot_S4096x256_S256x128_S4096x128_1_0_0_1_n_n.contr.Idx) :
    (dot_S4096x256_S256x128_S4096x128_1_0_0_1_n_n.rhsIdx i q 0).val = (q ⟨0, by decide⟩).val :=
  dot_S4096x256_S256x128_S4096x128_1_0_0_1_n_n.rhsIdx_val_of_single rfl i q
theorem rhs_hid_1 (i : S4096x128.Idx) (q : dot_S4096x256_S256x128_S4096x128_1_0_0_1_n_n.contr.Idx) :
    (dot_S4096x256_S256x128_S4096x128_1_0_0_1_n_n.rhsIdx i q 1).val = (i 1).val := by
  unfold DotDims.rhsIdx
  rw [dif_neg (show ¬(1 : Fin S256x128.rank) ∈ dot_S4096x256_S256x128_S4096x128_1_0_0_1_n_n.rhsBatch by decide), dif_pos (show (1 : Fin S256x128.rank) ∈ dot_S4096x256_S256x128_S4096x128_1_0_0_1_n_n.rhsNonContracting by decide)]
  rfl

/-- This product at an index: the sum over the 256 contracted positions. -/
theorem matmul_hid_apply (l : FVec Ideal S4096x256 .bf16) (r : FVec Ideal S256x128 .bf16) (g : Fin 4096) (j : Fin 128) :
    FloatOps.matmul dot_S4096x256_S256x128_S4096x128_1_0_0_1_n_n none l r (constant (F := Ideal) S4096x128 .f32 0x00000000#32) (ix2 g j)
      = ∑ k : Fin 256, l (ix2 g k) * r (ix2 k j) := by
  rw [Ideal.matmul_constant_zero_apply, ← Equiv.sum_comp (ValueIdx.contrEquiv1 dot_S4096x256_S256x128_S4096x128_1_0_0_1_n_n 256 rfl rfl).symm]
  refine Finset.sum_congr rfl fun k _ => ?_
  have hk := ValueIdx.contrEquiv1_symm_val dot_S4096x256_S256x128_S4096x128_1_0_0_1_n_n 256 rfl rfl k
  have el : dot_S4096x256_S256x128_S4096x128_1_0_0_1_n_n.lhsIdx (ix2 g j) ((ValueIdx.contrEquiv1 dot_S4096x256_S256x128_S4096x128_1_0_0_1_n_n 256 rfl rfl).symm k) = ix2 g k := funext fun a => Fin.ext (by
    match a with
    | ⟨0, _⟩ => exact lhs_hid_0 _ _
    | ⟨1, _⟩ => exact (lhs_hid_1 _ _).trans hk)
  have er : dot_S4096x256_S256x128_S4096x128_1_0_0_1_n_n.rhsIdx (ix2 g j) ((ValueIdx.contrEquiv1 dot_S4096x256_S256x128_S4096x128_1_0_0_1_n_n 256 rfl rfl).symm k) = ix2 k j := funext fun a => Fin.ext (by
    match a with
    | ⟨0, _⟩ => exact (rhs_hid_0 _ _).trans hk
    | ⟨1, _⟩ => exact rhs_hid_1 _ _)
  rw [el, er]

theorem lhs_out_0 (i : S4096x128.Idx) (q : dot_S4096x128_S128x128_S4096x128_1_0_0_1_n_n.contr.Idx) :
    (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl
theorem lhs_out_1 (i : S4096x128.Idx) (q : dot_S4096x128_S128x128_S4096x128_1_0_0_1_n_n.contr.Idx) :
    (dot_S4096x128_S128x128_S4096x128_1_0_0_1_n_n.lhsIdx i q 1).val = (q ⟨0, by decide⟩).val :=
  dot_S4096x128_S128x128_S4096x128_1_0_0_1_n_n.lhsIdx_val_of_single rfl i q
theorem rhs_out_0 (i : S4096x128.Idx) (q : dot_S4096x128_S128x128_S4096x128_1_0_0_1_n_n.contr.Idx) :
    (dot_S4096x128_S128x128_S4096x128_1_0_0_1_n_n.rhsIdx i q 0).val = (q ⟨0, by decide⟩).val :=
  dot_S4096x128_S128x128_S4096x128_1_0_0_1_n_n.rhsIdx_val_of_single rfl i q
theorem rhs_out_1 (i : S4096x128.Idx) (q : dot_S4096x128_S128x128_S4096x128_1_0_0_1_n_n.contr.Idx) :
    (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl

/-- This product at an index: the sum over the 128 contracted positions. -/
theorem matmul_out_apply (l : FVec Ideal S4096x128 .bf16) (r : FVec Ideal S128x128 .bf16) (g : Fin 4096) (j : Fin 128) :
    FloatOps.matmul dot_S4096x128_S128x128_S4096x128_1_0_0_1_n_n none l r (constant (F := Ideal) S4096x128 .f32 0x00000000#32) (ix2 g j)
      = ∑ k : Fin 128, l (ix2 g k) * r (ix2 k j) := by
  rw [Ideal.matmul_constant_zero_apply, ← Equiv.sum_comp (ValueIdx.contrEquiv1 dot_S4096x128_S128x128_S4096x128_1_0_0_1_n_n 128 rfl rfl).symm]
  refine Finset.sum_congr rfl fun k _ => ?_
  have hk := ValueIdx.contrEquiv1_symm_val dot_S4096x128_S128x128_S4096x128_1_0_0_1_n_n 128 rfl rfl k
  have el : dot_S4096x128_S128x128_S4096x128_1_0_0_1_n_n.lhsIdx (ix2 g j) ((ValueIdx.contrEquiv1 dot_S4096x128_S128x128_S4096x128_1_0_0_1_n_n 128 rfl rfl).symm k) = ix2 g k := funext fun a => Fin.ext (by
    match a with
    | ⟨0, _⟩ => exact lhs_out_0 _ _
    | ⟨1, _⟩ => exact (lhs_out_1 _ _).trans hk)
  have er : dot_S4096x128_S128x128_S4096x128_1_0_0_1_n_n.rhsIdx (ix2 g j) ((ValueIdx.contrEquiv1 dot_S4096x128_S128x128_S4096x128_1_0_0_1_n_n 128 rfl rfl).symm k) = ix2 k j := funext fun a => Fin.ext (by
    match a with
    | ⟨0, _⟩ => exact (rhs_out_0 _ _).trans hk
    | ⟨1, _⟩ => exact rhs_out_1 _ _)
  rw [el, er]

/-- A one-bit equality test, widened to a word and converted signed, is 1 where the words agree and 0 elsewhere. -/
theorem sitofp_eq_word (a b : BitVec 32) :
    (FloatOps.sitofp .f32 ((IntOp.cmpi .eq a b).setWidth 32) : Ideal .f32) = if a = b then (1 : EReal) else 0 := by
  by_cases h : a = b
  · have e : IntOp.cmpi .eq a b = 1#1 := IntOp.cmpi_eq.mpr h
    rw [e, if_pos h]
    show ((((1#1 : BitVec 1).setWidth 32).toInt : ℝ) : EReal) = 1
    have : ((1#1 : BitVec 1).setWidth 32).toInt = 1 := by decide
    rw [this]; norm_num
  · have e : IntOp.cmpi .eq a b = 0#1 := eq_zero_of_ne_one (fun h1 => h (IntOp.cmpi_eq.mp h1))
    rw [e, if_neg h]
    show ((((0#1 : BitVec 1).setWidth 32).toInt : ℝ) : EReal) = 0
    have : ((0#1 : BitVec 1).setWidth 32).toInt = 0 := by decide
    rw [this]; norm_num

/-- The segment-id column of a block, laid along the lanes and repeated over the 4096 rows, reads the id of row k. -/
theorem ids_along_lanes (x1 : Vec Ideal S1024x1 .i32) (g : Fin 4096) (k : Fin 1024) :
    broadcastTo S4096x1024 (shapeCast S1x1024 (shapeCast S1024 (shapeCast S1024x1 x1 shapeCasts_S1024x1_S1024x1) shapeCasts_S1024x1_S1024) shapeCasts_S1024_S1x1024) broadcasts_S1x1024_S4096x1024 (ix2 g k)
      = x1 (ix2 k (0 : Fin 1)) := by
  rw [shapeCast_self]
  rw [broadcastTo_apply _ _ (ix2 g k) (ix2 (0 : Fin 1) k) (by
    intro a
    match a with
    | ⟨0, _⟩ => rfl
    | ⟨1, _⟩ => rfl)]
  rw [shapeCast_apply _ _ (ix2 (0 : Fin 1) k) (ix1 k) (by
    rw [Shape.rowMajor_val_one, Shape.rowMajor_val_two]; simp)]
  rw [shapeCast_apply _ _ (ix1 k) (ix2 k (0 : Fin 1)) (by
    rw [Shape.rowMajor_val_one, Shape.rowMajor_val_two]; simp)]

/-- One point's update at an index: the accumulator plus, over the block's 1024 rows, the rows whose segment id is g. -/
theorem accStep_apply (x0 : Vec Ideal S1024x128 .f32) (x1 : Vec Ideal S1024x1 .i32) (a : Vec Ideal S4096x128 .f32)
    (g : Fin 4096) (j : Fin 128) :
    accStep (F := Ideal) x0 x1 a (ix2 g j)
      = a (ix2 g j) + ∑ k : Fin 1024, (if BitVec.ofNat 32 g.val = x1 (ix2 k (0 : Fin 1)) then (1 : EReal) else 0) * x0 (ix2 k j) := by
  unfold accStep
  rw [View.canon_unit_zero zero_offsets]
  simp only [View.ld_unit_zero (S := S1024x1) zero_offsets, View.ld_unit_zero (S := S1024x128) zero_offsets, View.ld_unit_zero (S := S4096x128) zero_offsets]
  unfold k0_pay2
  rw [shapeCast_self, addf_apply]
  refine congrArg (a (ix2 g j) + ·) ?_
  refine (matmul_hot_apply _ _ g j).trans ?_
  refine Finset.sum_congr rfl fun k _ => ?_
  rw [truncf_apply, truncf_apply, sitofp_apply, extui_apply]
  show (FloatOps.sitofp .f32 ((IntOp.cmpi .eq (iota .tc S4096x1024 32 [0] iota_S4096x1024_d0_w32 (ix2 g k)) _).setWidth 32) : Ideal .f32) * _ = _
  rw [iota_single_apply, ids_along_lanes, sitofp_eq_word]

/-- The reset accumulator is zero at every index. -/
theorem accReset_apply (i : S4096x128.Idx) : accReset (F := Ideal) i = 0 := by
  unfold accReset
  rw [View.canon_unit_zero zero_offsets]
  unfold k0_pay1
  rw [shapeCast_self, broadcast_apply]
  exact Ideal.ofBits_zero_f32

/-- Two 128-wide blocks side by side, read at row g and lane k. -/
theorem beside_apply (a b : FVec Ideal S4096x128 .f32) (g : Fin 4096) (k : Fin 256) :
    concatenate S4096x256 1 [⟨S4096x128, a⟩, ⟨S4096x128, b⟩] concatenates_S4096x128_S4096x128_S4096x256_d1 (ix2 g k)
      = Cert.Spec.side (fun h => a (ix2 g h)) (fun h => b (ix2 g h)) k := by
  unfold Cert.Spec.side
  by_cases hk : k.val < 128
  · rw [dif_pos hk]
    exact concatenate_pair_apply_left (1 : Fin S4096x256.rank) a b _ (ix2 g k) rfl (ix2 g ⟨k.val, hk⟩) (by
      intro b
      match b with
      | ⟨0, _⟩ => rfl
      | ⟨1, _⟩ => rfl)
  · rw [dif_neg hk]
    exact concatenate_pair_apply_right (1 : Fin S4096x256.rank) a b _ (ix2 g k) rfl rfl (ix2 g ⟨k.val - 128, by have := k.isLt; omega⟩) (by
      intro b hb
      match b with
      | ⟨0, _⟩ => rfl
      | ⟨1, _⟩ => exact absurd rfl hb) (by
      show k.val - 128 + 128 = k.val
      omega)

/-- A bias row repeated over the 4096 rows reads its lane. -/
theorem bias_apply (x : Vec Ideal S1x128 .f32) (g : Fin 4096) (j : Fin 128) :
    broadcastTo S4096x128 (shapeCast S1x128 x shapeCasts_S1x128_S1x128) broadcasts_S1x128_S4096x128 (ix2 g j) = x (ix2 (0 : Fin 1) j) := by
  rw [shapeCast_self]
  exact broadcastTo_apply _ _ (ix2 g j) (ix2 (0 : Fin 1) j) (by
    intro a
    match a with
    | ⟨0, _⟩ => rfl
    | ⟨1, _⟩ => rfl)

/-- The last point's store at an index: the two-layer set MLP of the accumulator row beside the set-feature row. -/
theorem out0_7_apply (a x2 : Vec Ideal S4096x128 .f32) (x3 : Vec Ideal S256x128 .f32) (x4 : Vec Ideal S1x128 .f32)
    (x5 : Vec Ideal S128x128 .f32) (x6 : Vec Ideal S1x128 .f32) (g : Fin 4096) (j : Fin 128) :
    out0_7 (F := Ideal) a x2 x3 x4 x5 x6 (ix2 g j)
      = max ((∑ k : Fin 128,
                max ((∑ k' : Fin 256, Cert.Spec.side (fun h => a (ix2 g h)) (fun h => x2 (ix2 g h)) k' * x3 (ix2 k' k)) + x4 (ix2 (0 : Fin 1) k)) 0
                  * x5 (ix2 k j)) + x6 (ix2 (0 : Fin 1) j)) 0 := by
  unfold out0_7
  rw [View.canon_unit_zero zero_offsets]
  simp only [View.ld_unit_zero (S := S4096x128) zero_offsets, View.ld_unit_zero (S := S256x128) zero_offsets,
    View.ld_unit_zero (S := S1x128) zero_offsets, View.ld_unit_zero (S := S128x128) zero_offsets]
  unfold k0_pay3
  rw [maximumf_apply, addf_apply, broadcast_apply, bias_apply]
  have z : (Scalar.ofBits .f32 0x00000000#32 : Ideal .f32) = (0 : EReal) := Ideal.ofBits_zero_f32
  rw [z]
  refine congrArg (fun s => max (s + x6 (ix2 (0 : Fin 1) j)) (0 : EReal)) ?_
  refine (matmul_out_apply _ _ g j).trans ?_
  refine Finset.sum_congr rfl fun k _ => ?_
  rw [truncf_apply, truncf_apply, maximumf_apply, addf_apply, broadcast_apply, bias_apply]
  refine congrArg (fun s => max (s + x4 (ix2 (0 : Fin 1) k)) (0 : EReal) * x5 (ix2 k j)) ?_
  refine (matmul_hid_apply _ _ g k).trans ?_
  refine Finset.sum_congr rfl fun k' _ => ?_
  rw [truncf_apply, truncf_apply, beside_apply]

variable (V : (c : Dev nD) → (b : Ref sig .tc) → Buf (Elt Ideal) ((c : Thread nD τ).loc b))

/-- Where each window's block sits at point t: the node rows and their segment ids move with the point, the rest stay. -/
theorem block_places : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

theorem point_lt (t : Fin cfg0.N) : t.val < 512 := t.isLt

/-- The node block at point t holds rows 1024 t … 1024 t + 1023 of the node features. -/
theorem node_block (c : Dev nD) (t : Fin cfg0.N) (r : Fin 1024) (j : Fin 128) (hlt : t.val * 1024 + r.val < 524288) :
    iblk0 V c 0 t (ix2 r j) = V c main_arg1 (ix2 (⟨t.val * 1024 + r.val, hlt⟩ : Fin 524288) j) := by
  obtain ⟨e0, e1, -⟩ := block_places t
  show V c main_arg1 (((cfg0.win 0).blk t).view.emb (ix2 r j)) = V c main_arg1 _
  refine congrArg (V c main_arg1) (funext fun a => Fin.ext ?_)
  match a with
  | ⟨0, _⟩ => show win0_0.index t (0 : Fin 2) * 1024 + 1 * r.val = t.val * 1024 + r.val; rw [e0]; omega
  | ⟨1, _⟩ => show win0_0.index t (1 : Fin 2) * 128 + 1 * j.val = j.val; rw [e1]; omega

/-- The id block at point t holds the segment ids of the same rows. -/
theorem id_block (c : Dev nD) (t : Fin cfg0.N) (r : Fin 1024) (hlt : t.val * 1024 + r.val < 524288) :
    iblk0 V c 1 t (ix2 r (0 : Fin 1)) = V c main_v0 (ix2 (⟨t.val * 1024 + r.val, hlt⟩ : Fin 524288) (0 : Fin 1)) := by
  obtain ⟨-, -, e0, e1, -⟩ := block_places t
  show V c main_v0 (((cfg0.win 1).blk t).view.emb (ix2 r (0 : Fin 1))) = V c main_v0 _
  refine congrArg (V c main_v0) (funext fun a => Fin.ext ?_)
  match a with
  | ⟨0, _⟩ => show win0_1.index t (0 : Fin 2) * 1024 + 1 * r.val = t.val * 1024 + r.val; rw [e0]; omega
  | ⟨1, _⟩ => show win0_1.index t (1 : Fin 2) * 1 + 1 * 0 = 0; rw [e1]

/-- The set-feature window's block is the whole array at every point. -/
theorem set_block (c : Dev nD) (t : Fin cfg0.N) (g : Fin 4096) (h : Fin 128) :
    iblk0 V c 2 t (ix2 g h) = V c main_arg0 (ix2 g h) := by
  obtain ⟨-, -, -, -, e0, e1, -⟩ := block_places t
  show V c main_arg0 (((cfg0.win 2).blk t).view.emb (ix2 g h)) = V c main_arg0 _
  refine congrArg (V c main_arg0) (funext fun a => Fin.ext ?_)
  match a with
  | ⟨0, _⟩ => show win0_2.index t (0 : Fin 2) * 4096 + 1 * g.val = g.val; rw [e0]; omega
  | ⟨1, _⟩ => show win0_2.index t (1 : Fin 2) * 128 + 1 * h.val = h.val; rw [e1]; omega

/-- So is the first layer's weight window's … -/
theorem w1_block (c : Dev nD) (t : Fin cfg0.N) (k : Fin 256) (h : Fin 128) :
    iblk0 V c 3 t (ix2 k h) = V c main_arg3 (ix2 k h) := by
  obtain ⟨-, -, -, -, -, -, e0, e1, -⟩ := block_places t
  show V c main_arg3 (((cfg0.win 3).blk t).view.emb (ix2 k h)) = V c main_arg3 _
  refine congrArg (V c main_arg3) (funext fun a => Fin.ext ?_)
  match a with
  | ⟨0, _⟩ => show win0_3.index t (0 : Fin 2) * 256 + 1 * k.val = k.val; rw [e0]; omega
  | ⟨1, _⟩ => show win0_3.index t (1 : Fin 2) * 128 + 1 * h.val = h.val; rw [e1]; omega

/-- … its bias row's … -/
theorem b1_block (c : Dev nD) (t : Fin cfg0.N) (h : Fin 128) :
    iblk0 V c 4 t (ix2 (0 : Fin 1) h) = V c main_v1 (ix2 (0 : Fin 1) h) := by
  obtain ⟨-, -, -, -, -, -, -, -, e0, e1, -⟩ := block_places t
  show V c main_v1 (((cfg0.win 4).blk t).view.emb (ix2 (0 : Fin 1) h)) = V c main_v1 _
  refine congrArg (V c main_v1) (funext fun a => Fin.ext ?_)
  match a with
  | ⟨0, _⟩ => show win0_4.index t (0 : Fin 2) * 1 + 1 * 0 = 0; rw [e0]
  | ⟨1, _⟩ => show win0_4.index t (1 : Fin 2) * 128 + 1 * h.val = h.val; rw [e1]; omega

/-- … the second layer's weight window's … -/
theorem w2_block (c : Dev nD) (t : Fin cfg0.N) (k : Fin 128) (h : Fin 128) :
    iblk0 V c 5 t (ix2 k h) = V c main_arg5 (ix2 k h) := by
  obtain ⟨-, -, -, -, -, -, -, -, -, -, e0, e1, -⟩ := block_places t
  show V c main_arg5 (((cfg0.win 5).blk t).view.emb (ix2 k h)) = V c main_arg5 _
  refine congrArg (V c main_arg5) (funext fun a => Fin.ext ?_)
  match a with
  | ⟨0, _⟩ => show win0_5.index t (0 : Fin 2) * 128 + 1 * k.val = k.val; rw [e0]; omega
  | ⟨1, _⟩ => show win0_5.index t (1 : Fin 2) * 128 + 1 * h.val = h.val; rw [e1]; omega

/-- … and its bias row's. -/
theorem b2_block (c : Dev nD) (t : Fin cfg0.N) (h : Fin 128) :
    iblk0 V c 6 t (ix2 (0 : Fin 1) h) = V c main_v2 (ix2 (0 : Fin 1) h) := by
  obtain ⟨-, -, -, -, -, -, -, -, -, -, -, -, e0, e1, -⟩ := block_places t
  show V c main_v2 (((cfg0.win 6).blk t).view.emb (ix2 (0 : Fin 1) h)) = V c main_v2 _
  refine congrArg (V c main_v2) (funext fun a => Fin.ext ?_)
  match a with
  | ⟨0, _⟩ => show win0_6.index t (0 : Fin 2) * 1 + 1 * 0 = 0; rw [e0]
  | ⟨1, _⟩ => show win0_6.index t (1 : Fin 2) * 128 + 1 * h.val = h.val; rw [e1]; omega

/-- The segment ids as the specification takes them: the id column of the array the stage finds. -/
abbrev segOf (c : Dev nD) : Cert.Spec.TSeg.Idx → BitVec 32 :=
  fun i => V c main_v0 (ix2 (⟨(i 0).val, (i 0).isLt⟩ : Fin 524288) (0 : Fin 1))

/-- Node m's share of segment g at lane j; nothing past the last node. -/
def share (c : Dev nD) (g : Fin 4096) (j : Fin 128) (m : ℕ) : EReal :=
  if h : m < 524288 then Cert.Spec.hot (segOf V c) ⟨m, h⟩ g * V c main_arg1 (ix2 (⟨m, h⟩ : Fin 524288) j) else 0

/-- A word is the word of g < 4096 exactly when it reads g unsigned. -/
theorem word_eq_iff (g : Fin 4096) (s : BitVec 32) : BitVec.ofNat 32 g.val = s ↔ s.toNat = g.val := by
  have hg := g.isLt
  constructor
  · rintro rfl
    rw [BitVec.toNat_ofNat]; omega
  · intro h
    apply BitVec.eq_of_toNat_eq
    rw [BitVec.toNat_ofNat, h]; omega

/-- One block's one-hot product is the shares of its 1024 nodes. -/
theorem block_shares (c : Dev nD) (t : Fin cfg0.N) (g : Fin 4096) (j : Fin 128) :
    ∑ k : Fin 1024, (if BitVec.ofNat 32 g.val = iblk0 V c 1 t (ix2 k (0 : Fin 1)) then (1 : EReal) else 0) * iblk0 V c 0 t (ix2 k j)
      = ∑ x ∈ Finset.range 1024, share V c g j (t.val * 1024 + x) := by
  rw [Finset.sum_range]
  refine Finset.sum_congr rfl fun k _ => ?_
  have hlt : t.val * 1024 + k.val < 524288 := by have := point_lt t; have := k.isLt; omega
  unfold share
  rw [dif_pos hlt, node_block V c t k j hlt, id_block V c t k hlt]
  unfold Cert.Spec.hot
  refine congrArg (· * V c main_arg1 (ix2 (⟨t.val * 1024 + k.val, hlt⟩ : Fin 524288) j)) ?_
  exact if_congr (word_eq_iff g _) rfl rfl

/-- The accumulator after point n: the shares of the first (n + 1) · 1024 nodes. -/
theorem accAt_apply (c : Dev nD) (g : Fin 4096) (j : Fin 128) :
    ∀ (n : ℕ) (h : n < cfg0.N), accAt V c n h (ix2 g j) = ∑ m ∈ Finset.range ((n + 1) * 1024), share V c g j m
  | 0, h => by
    rw [accAt_zero]
    refine (accStep_apply _ _ _ g j).trans ?_
    rw [accReset_apply, zero_add]
    refine (block_shares V c ⟨0, h⟩ g j).trans ?_
    refine Finset.sum_congr rfl fun x _ => ?_
    show share V c g j (0 * 1024 + x) = _
    rw [Nat.zero_mul, Nat.zero_add]
  | n + 1, h => by
    rw [accAt_succ]
    refine (accStep_apply _ _ _ g j).trans ?_
    rw [accAt_apply c g j n (Nat.lt_of_succ_lt h), show (n + 1 + 1) * 1024 = (n + 1) * 1024 + 1024 by omega, Finset.sum_range_add]
    exact congrArg (_ + ·) (block_shares V c ⟨n + 1, h⟩ g j)

/-- After the last point the accumulator holds the segment sums. -/
theorem acc_last (c : Dev nD) (t : Fin cfg0.N) (ht : t.val = 511) (g : Fin 4096) (j : Fin 128) :
    accAt V c t.val t.isLt (ix2 g j) = Cert.Spec.agg (V c main_arg1) (segOf V c) g j := by
  rw [accAt_apply V c g j t.val t.isLt, ht]
  unfold Cert.Spec.agg
  rw [show (511 + 1) * 1024 = 524288 by norm_num, Finset.sum_range]
  refine Finset.sum_congr rfl fun m _ => ?_
  unfold share
  rw [dif_pos m.isLt]

/-- What the stage's output array ends holding: the set MLP of the segment sums, over the arrays the stage finds. -/
abbrev setOf (c : Dev nD) : S4096x128.Idx → EReal :=
  Cert.Spec.setArr (V c main_arg0) (V c main_arg1) (segOf V c) (V c main_arg3) (fun i => V c main_v1 (ix2 (0 : Fin 1) (⟨(i 0).val, (i 0).isLt⟩ : Fin 128)))
    (V c main_arg5) (fun i => V c main_v2 (ix2 (0 : Fin 1) (⟨(i 0).val, (i 0).isLt⟩ : Fin 128)))

/-- What the last point writes back is the set MLP of the segment sums, read through its block (the whole array). -/
theorem flushed_last (c : Dev nD) (t : Fin cfg0.N) (ht : (cfg0.win 7).flush t = true) :
    (dat0 (F := Ideal) V c).flushed 7 t = ((cfg0.win 7).blk t).view.read (Elt Ideal) (setOf V c) := by
  have h511 : t.val = 511 := by have := (flush0_7 t).mp ht; have := point_lt t; omega
  obtain ⟨-, -, -, -, -, -, -, -, -, -, -, -, -, -, e0, e1⟩ := block_places t
  show (cfg0.win 7).cut (grid0.coords t) ((dat0 (F := Ideal) V c).after 7 t) = _
  rw [after0_7]
  funext y
  obtain ⟨g, j, rfl⟩ : ∃ (g : Fin 4096) (j : Fin 128), y = ix2 g j := ⟨y 0, y 1, eq_ix2 y⟩
  show out0_7 (F := Ideal) (accAt V c t.val t.isLt) (iblk0 V c 2 t) (iblk0 V c 3 t) (iblk0 V c 4 t) (iblk0 V c 5 t) (iblk0 V c 6 t) (ix2 g j)
    = setOf V c (((cfg0.win 7).blk t).view.emb (ix2 g j))
  have hemb : ((cfg0.win 7).blk t).view.emb (ix2 g j) = ix2 g j := funext fun a => Fin.ext (by
    match a with
    | ⟨0, _⟩ => show win0_7.index t (0 : Fin 2) * 4096 + 1 * g.val = g.val; rw [e0]; omega
    | ⟨1, _⟩ => show win0_7.index t (1 : Fin 2) * 128 + 1 * j.val = j.val; rw [e1]; omega)
  rw [hemb]
  refine (out0_7_apply _ _ _ _ _ _ g j).trans ?_
  show _ = Cert.Spec.setOut (V c main_arg0) (V c main_arg1) (segOf V c) (V c main_arg3) _ (V c main_arg5) _ g j
  unfold Cert.Spec.setOut Cert.Spec.setHid
  have hacc : (fun h => accAt V c t.val t.isLt (ix2 g h)) = Cert.Spec.agg (V c main_arg1) (segOf V c) g :=
    funext fun h => acc_last V c t h511 g h
  have hset : (fun h => iblk0 V c 2 t (ix2 g h)) = fun h => V c main_arg0 (ix2 g h) := funext fun h => set_block V c t g h
  rw [hacc, hset, b2_block V c t j]
  refine congrArg (fun s => max (s + V c main_v2 (ix2 (0 : Fin 1) j)) (0 : EReal)) (Finset.sum_congr rfl fun k _ => ?_)
  rw [b1_block V c t k, w2_block V c t k j]
  refine congrArg (fun s => max (s + V c main_v1 (ix2 (0 : Fin 1) k)) (0 : EReal) * V c main_arg5 (ix2 k j)) (Finset.sum_congr rfl fun k' _ => ?_)
  rw [w1_block V c t k' k]

/-- An index of the output array is in a point's block when each coordinate is in the block's range on its axis. -/
theorem mem_out_block (t : Fin cfg0.N) (i : S4096x128.Idx) :
    i ∈ ((cfg0.win 7).blk t).view.set ↔ ∀ a : Fin 2, win0_7.index t a * S4096x128.size a ≤ (i a).val ∧ (i a).val < win0_7.index t a * S4096x128.size a + S4096x128.size a := by
  show i ∈ ((View.whole main_v5).slice (win0_7.rect t)).set ↔ _
  rw [View.set_slice_whole, Rect.mem_set_unit]
  exact Iff.rfl

/-- Every index of the output array is in the last point's block. -/
theorem last_covers (i : S4096x128.Idx) :
    ∃ t : Fin cfg0.N, (cfg0.win 7).flush t = true ∧ i ∈ ((cfg0.win 7).blk t).view.set := by
  have hN : 511 < cfg0.N := by decide
  refine ⟨⟨511, hN⟩, (flush0_7 ⟨511, hN⟩).mpr rfl, ?_⟩
  obtain ⟨-, -, -, -, -, -, -, -, -, -, -, -, -, -, e0, e1⟩ := block_places ⟨511, hN⟩
  rw [mem_out_block]
  intro a
  match a with
  | ⟨0, _⟩ =>
    show win0_7.index ⟨511, hN⟩ (0 : Fin 2) * 4096 ≤ (i 0).val ∧ (i 0).val < win0_7.index ⟨511, hN⟩ (0 : Fin 2) * 4096 + 4096
    rw [e0]; have := idx2_lt0 i; omega
  | ⟨1, _⟩ =>
    show win0_7.index ⟨511, hN⟩ (1 : Fin 2) * 128 ≤ (i 1).val ∧ (i 1).val < win0_7.index ⟨511, hN⟩ (1 : Fin 2) * 128 + 128
    rw [e1]; have := idx2_lt1 i; omega

/-- After the set stage its output array holds the set MLP of the segment sums. -/
theorem set_value (c : Dev nD) :
    (dat0 (F := Ideal) V c).arrAt 7 cfg0.N
      = (Cert.Spec.setArr (V c main_arg0) (V c main_arg1) (fun i => V c main_v0 (ix2 (⟨(i 0).val, (i 0).isLt⟩ : Fin 524288) (0 : Fin 1))) (V c main_arg3) (fun i => V c main_v1 (ix2 (0 : Fin 1) (⟨(i 0).val, (i 0).isLt⟩ : Fin 128)))
          (V c main_arg5) (fun i => V c main_v2 (ix2 (0 : Fin 1) (⟨(i 0).val, (i 0).isLt⟩ : Fin 128))) : S4096x128.Idx → EReal) :=
  (dat0 (F := Ideal) V c).arrAt_eq_of_cover 7 (setOf V c) (fun t ht => flushed_last V c t ht) last_covers

end Cert.KernelIdeal.SetValue

end
-- ==== Proof.NodeValue.lean ====
/- The node stage's final array, index by index: row n of the result is the node MLP of row n of the node features
   beside row seg n of the set table — the one-hot product with the table picks that row —, whatever contents V the stage
   is entered from. At the ideal instance. -/
import proofs.«417193_j3779571220745_1_alg».proof.Proof.NodeStage
import proofs.«417193_j3779571220745_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.NodeValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open Cert.KernelIdeal.NodeStage

variable (V : (c : Dev nD) → (b : Ref sig .tc) → Buf (Elt Ideal) ((c : Thread nD τ).loc b))

/-! The operand indices of the one-hot product with the set table, coordinate by coordinate. -/
theorem lhs_gath_0 (i : S1024x128.Idx) (q : dot_S1024x4096_S4096x128_S1024x128_1_0_0_1_n_n.contr.Idx) :
    (dot_S1024x4096_S4096x128_S1024x128_1_0_0_1_n_n.lhsIdx i q 0).val = (i 0).val := by
  unfold DotDims.lhsIdx
  rw [dif_neg (show ¬(0 : Fin S1024x4096.rank) ∈ dot_S1024x4096_S4096x128_S1024x128_1_0_0_1_n_n.lhsBatch by decide), dif_pos (show (0 : Fin S1024x4096.rank) ∈ dot_S1024x4096_S4096x128_S1024x128_1_0_0_1_n_n.lhsNonContracting by decide)]
  rfl
theorem lhs_gath_1 (i : S1024x128.Idx) (q : dot_S1024x4096_S4096x128_S1024x128_1_0_0_1_n_n.contr.Idx) :
    (dot_S1024x4096_S4096x128_S1024x128_1_0_0_1_n_n.lhsIdx i q 1).val = (q ⟨0, by decide⟩).val :=
  dot_S1024x4096_S4096x128_S1024x128_1_0_0_1_n_n.lhsIdx_val_of_single rfl i q
theorem rhs_gath_0 (i : S1024x128.Idx) (q : dot_S1024x4096_S4096x128_S1024x128_1_0_0_1_n_n.contr.Idx) :
    (dot_S1024x4096_S4096x128_S1024x128_1_0_0_1_n_n.rhsIdx i q 0).val = (q ⟨0, by decide⟩).val :=
  dot_S1024x4096_S4096x128_S1024x128_1_0_0_1_n_n.rhsIdx_val_of_single rfl i q
theorem rhs_gath_1 (i : S1024x128.Idx) (q : dot_S1024x4096_S4096x128_S1024x128_1_0_0_1_n_n.contr.Idx) :
    (dot_S1024x4096_S4096x128_S1024x128_1_0_0_1_n_n.rhsIdx i q 1).val = (i 1).val := by
  unfold DotDims.rhsIdx
  rw [dif_neg (show ¬(1 : Fin S4096x128.rank) ∈ dot_S1024x4096_S4096x128_S1024x128_1_0_0_1_n_n.rhsBatch by decide), dif_pos (show (1 : Fin S4096x128.rank) ∈ dot_S1024x4096_S4096x128_S1024x128_1_0_0_1_n_n.rhsNonContracting by decide)]
  rfl

/-- The one-hot product with the set table into the zero splat, at row p and column q: the sum over the contracted coordinate. -/
theorem matmul_gath_apply (l : FVec Ideal S1024x4096 .bf16) (r : FVec Ideal S4096x128 .bf16) (p : Fin 1024) (q : Fin 128) :
    matmul dot_S1024x4096_S4096x128_S1024x128_1_0_0_1_n_n none l r (constant (F := Ideal) S1024x128 .f32 0x00000000#32) (ix2 p q)
      = ∑ k : Fin 4096, l (ix2 p k) * r (ix2 k q) := by
  show FloatOps.matmul dot_S1024x4096_S4096x128_S1024x128_1_0_0_1_n_n none l r (constant S1024x128 .f32 0x00000000#32) (ix2 p q) = _
  rw [Ideal.matmul_constant_zero_apply, ← Equiv.sum_comp (contrEquiv1 dot_S1024x4096_S4096x128_S1024x128_1_0_0_1_n_n 4096 rfl rfl).symm]
  refine Finset.sum_congr rfl fun k _ => ?_
  have hk := contrEquiv1_symm_val dot_S1024x4096_S4096x128_S1024x128_1_0_0_1_n_n 4096 rfl rfl k
  have el : dot_S1024x4096_S4096x128_S1024x128_1_0_0_1_n_n.lhsIdx (ix2 p q) ((contrEquiv1 dot_S1024x4096_S4096x128_S1024x128_1_0_0_1_n_n 4096 rfl rfl).symm k) = ix2 p k := funext fun a => Fin.ext (by
    match a with
    | ⟨0, _⟩ => exact lhs_gath_0 _ _
    | ⟨1, _⟩ => exact (lhs_gath_1 _ _).trans hk)
  have er : dot_S1024x4096_S4096x128_S1024x128_1_0_0_1_n_n.rhsIdx (ix2 p q) ((contrEquiv1 dot_S1024x4096_S4096x128_S1024x128_1_0_0_1_n_n 4096 rfl rfl).symm k) = ix2 k q := funext fun a => Fin.ext (by
    match a with
    | ⟨0, _⟩ => exact (rhs_gath_0 _ _).trans hk
    | ⟨1, _⟩ => exact rhs_gath_1 _ _)
  rw [el, er]

/-! The operand indices of the first layer's product, coordinate by coordinate. -/
theorem lhs_hid_0 (i : S1024x128.Idx) (q : dot_S1024x256_S256x128_S1024x128_1_0_0_1_n_n.contr.Idx) :
    (dot_S1024x256_S256x128_S1024x128_1_0_0_1_n_n.lhsIdx i q 0).val = (i 0).val := by
  unfold DotDims.lhsIdx
  rw [dif_neg (show ¬(0 : Fin S1024x256.rank) ∈ dot_S1024x256_S256x128_S1024x128_1_0_0_1_n_n.lhsBatch by decide), dif_pos (show (0 : Fin S1024x256.rank) ∈ dot_S1024x256_S256x128_S1024x128_1_0_0_1_n_n.lhsNonContracting by decide)]
  rfl
theorem lhs_hid_1 (i : S1024x128.Idx) (q : dot_S1024x256_S256x128_S1024x128_1_0_0_1_n_n.contr.Idx) :
    (dot_S1024x256_S256x128_S1024x128_1_0_0_1_n_n.lhsIdx i q 1).val = (q ⟨0, by decide⟩).val :=
  dot_S1024x256_S256x128_S1024x128_1_0_0_1_n_n.lhsIdx_val_of_single rfl i q
theorem rhs_hid_0 (i : S1024x128.Idx) (q : dot_S1024x256_S256x128_S1024x128_1_0_0_1_n_n.contr.Idx) :
    (dot_S1024x256_S256x128_S1024x128_1_0_0_1_n_n.rhsIdx i q 0).val = (q ⟨0, by decide⟩).val :=
  dot_S1024x256_S256x128_S1024x128_1_0_0_1_n_n.rhsIdx_val_of_single rfl i q
theorem rhs_hid_1 (i : S1024x128.Idx) (q : dot_S1024x256_S256x128_S1024x128_1_0_0_1_n_n.contr.Idx) :
    (dot_S1024x256_S256x128_S1024x128_1_0_0_1_n_n.rhsIdx i q 1).val = (i 1).val := by
  unfold DotDims.rhsIdx
  rw [dif_neg (show ¬(1 : Fin S256x128.rank) ∈ dot_S1024x256_S256x128_S1024x128_1_0_0_1_n_n.rhsBatch by decide), dif_pos (show (1 : Fin S256x128.rank) ∈ dot_S1024x256_S256x128_S1024x128_1_0_0_1_n_n.rhsNonContracting by decide)]
  rfl

/-- The first layer's product into the zero splat, at row p and column q: the sum over the contracted coordinate. -/
theorem matmul_hid_apply (l : FVec Ideal S1024x256 .bf16) (r : FVec Ideal S256x128 .bf16) (p : Fin 1024) (q : Fin 128) :
    matmul dot_S1024x256_S256x128_S1024x128_1_0_0_1_n_n none l r (constant (F := Ideal) S1024x128 .f32 0x00000000#32) (ix2 p q)
      = ∑ k : Fin 256, l (ix2 p k) * r (ix2 k q) := by
  show FloatOps.matmul dot_S1024x256_S256x128_S1024x128_1_0_0_1_n_n none l r (constant S1024x128 .f32 0x00000000#32) (ix2 p q) = _
  rw [Ideal.matmul_constant_zero_apply, ← Equiv.sum_comp (contrEquiv1 dot_S1024x256_S256x128_S1024x128_1_0_0_1_n_n 256 rfl rfl).symm]
  refine Finset.sum_congr rfl fun k _ => ?_
  have hk := contrEquiv1_symm_val dot_S1024x256_S256x128_S1024x128_1_0_0_1_n_n 256 rfl rfl k
  have el : dot_S1024x256_S256x128_S1024x128_1_0_0_1_n_n.lhsIdx (ix2 p q) ((contrEquiv1 dot_S1024x256_S256x128_S1024x128_1_0_0_1_n_n 256 rfl rfl).symm k) = ix2 p k := funext fun a => Fin.ext (by
    match a with
    | ⟨0, _⟩ => exact lhs_hid_0 _ _
    | ⟨1, _⟩ => exact (lhs_hid_1 _ _).trans hk)
  have er : dot_S1024x256_S256x128_S1024x128_1_0_0_1_n_n.rhsIdx (ix2 p q) ((contrEquiv1 dot_S1024x256_S256x128_S1024x128_1_0_0_1_n_n 256 rfl rfl).symm k) = ix2 k q := funext fun a => Fin.ext (by
    match a with
    | ⟨0, _⟩ => exact (rhs_hid_0 _ _).trans hk
    | ⟨1, _⟩ => exact rhs_hid_1 _ _)
  rw [el, er]

/-! The operand indices of the second layer's product, coordinate by coordinate. -/
theorem lhs_out_0 (i : S1024x128.Idx) (q : dot_S1024x128_S128x128_S1024x128_1_0_0_1_n_n.contr.Idx) :
    (dot_S1024x128_S128x128_S1024x128_1_0_0_1_n_n.lhsIdx i q 0).val = (i 0).val := by
  unfold DotDims.lhsIdx
  rw [dif_neg (show ¬(0 : Fin S1024x128.rank) ∈ dot_S1024x128_S128x128_S1024x128_1_0_0_1_n_n.lhsBatch by decide), dif_pos (show (0 : Fin S1024x128.rank) ∈ dot_S1024x128_S128x128_S1024x128_1_0_0_1_n_n.lhsNonContracting by decide)]
  rfl
theorem lhs_out_1 (i : S1024x128.Idx) (q : dot_S1024x128_S128x128_S1024x128_1_0_0_1_n_n.contr.Idx) :
    (dot_S1024x128_S128x128_S1024x128_1_0_0_1_n_n.lhsIdx i q 1).val = (q ⟨0, by decide⟩).val :=
  dot_S1024x128_S128x128_S1024x128_1_0_0_1_n_n.lhsIdx_val_of_single rfl i q
theorem rhs_out_0 (i : S1024x128.Idx) (q : dot_S1024x128_S128x128_S1024x128_1_0_0_1_n_n.contr.Idx) :
    (dot_S1024x128_S128x128_S1024x128_1_0_0_1_n_n.rhsIdx i q 0).val = (q ⟨0, by decide⟩).val :=
  dot_S1024x128_S128x128_S1024x128_1_0_0_1_n_n.rhsIdx_val_of_single rfl i q
theorem rhs_out_1 (i : S1024x128.Idx) (q : dot_S1024x128_S128x128_S1024x128_1_0_0_1_n_n.contr.Idx) :
    (dot_S1024x128_S128x128_S1024x128_1_0_0_1_n_n.rhsIdx i q 1).val = (i 1).val := by
  unfold DotDims.rhsIdx
  rw [dif_neg (show ¬(1 : Fin S128x128.rank) ∈ dot_S1024x128_S128x128_S1024x128_1_0_0_1_n_n.rhsBatch by decide), dif_pos (show (1 : Fin S128x128.rank) ∈ dot_S1024x128_S128x128_S1024x128_1_0_0_1_n_n.rhsNonContracting by decide)]
  rfl

/-- The second layer's product into the zero splat, at row p and column q: the sum over the contracted coordinate. -/
theorem matmul_out_apply (l : FVec Ideal S1024x128 .bf16) (r : FVec Ideal S128x128 .bf16) (p : Fin 1024) (q : Fin 128) :
    matmul dot_S1024x128_S128x128_S1024x128_1_0_0_1_n_n none l r (constant (F := Ideal) S1024x128 .f32 0x00000000#32) (ix2 p q)
      = ∑ k : Fin 128, l (ix2 p k) * r (ix2 k q) := by
  show FloatOps.matmul dot_S1024x128_S128x128_S1024x128_1_0_0_1_n_n none l r (constant S1024x128 .f32 0x00000000#32) (ix2 p q) = _
  rw [Ideal.matmul_constant_zero_apply, ← Equiv.sum_comp (contrEquiv1 dot_S1024x128_S128x128_S1024x128_1_0_0_1_n_n 128 rfl rfl).symm]
  refine Finset.sum_congr rfl fun k _ => ?_
  have hk := contrEquiv1_symm_val dot_S1024x128_S128x128_S1024x128_1_0_0_1_n_n 128 rfl rfl k
  have el : dot_S1024x128_S128x128_S1024x128_1_0_0_1_n_n.lhsIdx (ix2 p q) ((contrEquiv1 dot_S1024x128_S128x128_S1024x128_1_0_0_1_n_n 128 rfl rfl).symm k) = ix2 p k := funext fun a => Fin.ext (by
    match a with
    | ⟨0, _⟩ => exact lhs_out_0 _ _
    | ⟨1, _⟩ => exact (lhs_out_1 _ _).trans hk)
  have er : dot_S1024x128_S128x128_S1024x128_1_0_0_1_n_n.rhsIdx (ix2 p q) ((contrEquiv1 dot_S1024x128_S128x128_S1024x128_1_0_0_1_n_n 128 rfl rfl).symm k) = ix2 k q := funext fun a => Fin.ext (by
    match a with
    | ⟨0, _⟩ => exact (rhs_out_0 _ _).trans hk
    | ⟨1, _⟩ => exact rhs_out_1 _ _)
  rw [el, er]

/-- One entry of the one-hot matrix: the comparison of column number g with a segment word x, widened and converted,
    is 1 where x is g and 0 elsewhere. -/
theorem hot_word (x : BitVec 32) (g : Fin 4096) :
    (FloatOps.sitofp (F := Ideal) .f32 ((IntOp.cmpi .eq (BitVec.ofNat 32 g.val) x).setWidth 32) : EReal)
      = if x.toNat = g.val then 1 else 0 := by
  show ((((IntOp.cmpi .eq (BitVec.ofNat 32 g.val) x).setWidth 32).toInt : ℝ) : EReal) = _
  have hg : g.val < 2 ^ 32 := by have := g.isLt; omega
  by_cases h : x.toNat = g.val
  · have e : BitVec.ofNat 32 g.val = x := BitVec.eq_of_toNat_eq (by rw [BitVec.toNat_ofNat, Nat.mod_eq_of_lt hg, h])
    rw [if_pos h, e]
    have : IntOp.cmpi .eq x x = 1#1 := by simp [IntOp.cmpi]
    rw [this]
    norm_num
  · have e : BitVec.ofNat 32 g.val ≠ x := fun e => h (by rw [← e, BitVec.toNat_ofNat, Nat.mod_eq_of_lt hg])
    rw [if_neg h]
    have hb : (BitVec.ofNat 32 g.val == x) = false := beq_eq_false_iff_ne.mpr e
    have : IntOp.cmpi .eq (BitVec.ofNat 32 g.val) x = 0#1 := by show BitVec.ofBool (BitVec.ofNat 32 g.val == x) = 0#1; rw [hb]; rfl
    rw [this]
    norm_num

/-- The f32 zero word is the extended real 0. -/
theorem zero_word : (FloatOps.ofBits (F := Ideal) .f32 0x00000000#32 : EReal) = 0 := Ideal.ofBits_zero_f32

/-- A bias row broadcast down the rows reads the row's entry of the column. -/
theorem bias_apply (b : Vec Ideal S1x128 .f32) (p : Fin 1024) (q : Fin 128) :
    broadcastTo S1024x128 (shapeCast S1x128 b shapeCasts_S1x128_S1x128) broadcasts_S1x128_S1024x128 (ix2 p q)
      = b (ix2 (0 : Fin 1) q) := by
  rw [shapeCast_self]
  exact broadcastTo_apply b _ (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])

/-- The segment column broadcast along the set axis reads row p's segment word in every column. -/
theorem seg_bcast_apply (v0 : Vec Ideal S1024x1 .i32) (p : Fin 1024) (g : Fin 4096) :
    broadcastTo S1024x4096 (shapeCast S1024x1 (shapeCast S1024 (shapeCast S1024x1 v0 shapeCasts_S1024x1_S1024x1)
        shapeCasts_S1024x1_S1024) shapeCasts_S1024_S1024x1) broadcasts_S1024x1_S1024x4096 (ix2 p g)
      = v0 (ix2 p (0 : Fin 1)) := by
  rw [shapeCast_self, shapeCast_shapeCast]
  exact broadcastTo_apply v0 _ (ix2 p g) (ix2 p (0 : Fin 1)) (fun a => match a with
    | ⟨0, _⟩ => by show p.val = if (1024 : Nat) = 1 then 0 else p.val; rw [if_neg (by decide)]
    | ⟨1, _⟩ => by show 0 = if (1 : Nat) = 1 then 0 else g.val; rw [if_pos rfl])

/-- The one-hot matrix at row p and column g: 1 where row p's segment word is g, 0 elsewhere. -/
theorem onehot_apply (v0 : Vec Ideal S1024x1 .i32) (p : Fin 1024) (g : Fin 4096) :
    (truncf .bf16 (sitofp (F := Ideal) .f32 (extui 32 (cmpi .eq (iota .tc S1024x4096 32 [1] iota_S1024x4096_d1_w32)
        (broadcastTo S1024x4096 (shapeCast S1024x1 (shapeCast S1024 (shapeCast S1024x1 v0 shapeCasts_S1024x1_S1024x1)
          shapeCasts_S1024x1_S1024) shapeCasts_S1024_S1024x1) broadcasts_S1024x1_S1024x4096)) natLt_1_32)) bitsLt_bf16_f32
        : FVec Ideal S1024x4096 .bf16) (ix2 p g)
      = if (v0 (ix2 p (0 : Fin 1))).toNat = g.val then 1 else 0 := by
  rw [truncf_apply, sitofp_apply, extui_apply]
  show FloatOps.sitofp .f32 ((IntOp.cmpi .eq (iota .tc S1024x4096 32 [1] iota_S1024x4096_d1_w32 (ix2 p g))
      (broadcastTo S1024x4096 (shapeCast S1024x1 (shapeCast S1024 (shapeCast S1024x1 v0 shapeCasts_S1024x1_S1024x1)
        shapeCasts_S1024x1_S1024) shapeCasts_S1024_S1024x1) broadcasts_S1024x1_S1024x4096 (ix2 p g))).setWidth 32) = _
  rw [iota_single_apply, seg_bcast_apply]
  exact hot_word _ g

/-- Two 128-wide blocks side by side, at row p and column k: the first below 128, the second from 128 on. -/
theorem beside_apply (a b : FVec Ideal S1024x128 .f32) (p : Fin 1024) (k : Fin 256) :
    concatenate S1024x256 1 [⟨S1024x128, a⟩, ⟨S1024x128, b⟩] concatenates_S1024x128_S1024x128_S1024x256_d1 (ix2 p k)
      = Cert.Spec.side (fun h => a (ix2 p h)) (fun h => b (ix2 p h)) k := by
  unfold Cert.Spec.side
  by_cases hk : k.val < 128
  · rw [dif_pos hk]
    exact concatenate_pair_apply_left 1 a b _ (ix2 p k) rfl (ix2 p (⟨k.val, hk⟩ : Fin 128)) (fun c => match c with
      | ⟨0, _⟩ => rfl
      | ⟨1, _⟩ => rfl)
  · rw [dif_neg hk]
    exact concatenate_pair_apply_right 1 a b _ (ix2 p k) rfl rfl
      (ix2 p (⟨k.val - 128, by have := k.isLt; omega⟩ : Fin 128)) (fun c hc => match c, hc with
      | ⟨0, _⟩, _ => rfl
      | ⟨1, _⟩, hc => absurd rfl hc)
      (by show k.val - 128 + 128 = k.val; omega)

/-- Row p of a block's result, from the blocks' rows: the node MLP of row p of the node block beside the one-hot
    sum over the set table at the segment word of row p. -/
theorem pay_apply (v0 : Vec Ideal S1024x1 .i32) (v10 : Vec Ideal S4096x128 .f32) (v14 : Vec Ideal S1024x128 .f32)
    (v17 : Vec Ideal S256x128 .f32) (v20 : Vec Ideal S1x128 .f32) (v27 : Vec Ideal S128x128 .f32) (v30 : Vec Ideal S1x128 .f32)
    (p : Fin 1024) (q : Fin 128) :
    k1_pay1 (F := Ideal) v0 v10 v14 v17 v20 v27 v30 (ix2 p q)
      = max ((∑ k : Fin 128,
              max ((∑ k' : Fin 256, Cert.Spec.side (fun h => v14 (ix2 p h))
                      (fun j => ∑ g : Fin 4096, (if (v0 (ix2 p (0 : Fin 1))).toNat = g.val then (1 : EReal) else 0) * v10 (ix2 g j)) k'
                    * v17 (ix2 k' k)) + v20 (ix2 (0 : Fin 1) k)) 0
              * v27 (ix2 k q)) + v30 (ix2 (0 : Fin 1) q)) 0 := by
  unfold k1_pay1
  rw [maximumf_apply, addf_apply, broadcast_apply, zero_word, bias_apply, matmul_out_apply]
  refine congrArg (fun s => max (s + v30 (ix2 (0 : Fin 1) q)) 0) (Finset.sum_congr rfl fun k _ => ?_)
  rw [truncf_apply, truncf_apply, maximumf_apply, addf_apply, broadcast_apply, bias_apply, matmul_hid_apply]
  refine congrArg (fun s => max (s + v20 (ix2 (0 : Fin 1) k)) 0 * v27 (ix2 k q)) (Finset.sum_congr rfl fun k' _ => ?_)
  rw [truncf_apply, truncf_apply, beside_apply]
  refine congrArg (fun f => Cert.Spec.side (fun h => v14 (ix2 p h)) f k' * v17 (ix2 k' k)) (funext fun j => ?_)
  rw [matmul_gath_apply]
  refine Finset.sum_congr rfl fun g _ => ?_
  rw [onehot_apply, truncf_apply, shapeCast_self]

/-- One row of the specification from one row of a block: when the blocks' rows are rows of the arrays — row p of
    the node and segment blocks being row n of theirs — the block's result at (p, q) is the node MLP at (n, q). -/
theorem pay_eq_nodeOut (s : Cert.Spec.TG.Idx → EReal) (node : Cert.Spec.TN.Idx → EReal) (seg : Cert.Spec.TSeg.Idx → BitVec 32)
    (Wn1 : Cert.Spec.TW1.Idx → EReal) (bn1 : Cert.Spec.TB.Idx → EReal) (Wn2 : Cert.Spec.TW2.Idx → EReal) (bn2 : Cert.Spec.TB.Idx → EReal)
    (x0 : Vec Ideal S1024x128 .f32) (x1 : Vec Ideal S1024x1 .i32) (x2 : Vec Ideal S4096x128 .f32) (x3 : Vec Ideal S256x128 .f32)
    (x4 : Vec Ideal S1x128 .f32) (x5 : Vec Ideal S128x128 .f32) (x6 : Vec Ideal S1x128 .f32)
    (p : Fin 1024) (q : Fin 128) (n : Fin 524288)
    (h0 : ∀ h : Fin 128, x0 (ix2 p h) = node (ix2 n h))
    (h1 : x1 (ix2 p (0 : Fin 1)) = seg (ix1 n))
    (h2 : ∀ (g : Fin 4096) (j : Fin 128), x2 (ix2 g j) = s (ix2 g j))
    (h3 : ∀ (k' : Fin 256) (k : Fin 128), x3 (ix2 k' k) = Wn1 (ix2 k' k))
    (h4 : ∀ k : Fin 128, x4 (ix2 (0 : Fin 1) k) = bn1 (ix1 k))
    (h5 : ∀ (k : Fin 128) (j : Fin 128), x5 (ix2 k j) = Wn2 (ix2 k j))
    (h6 : ∀ k : Fin 128, x6 (ix2 (0 : Fin 1) k) = bn2 (ix1 k)) :
    k1_pay1 (F := Ideal) x1 x2 x0 x3 x4 x5 x6 (ix2 p q) = Cert.Spec.nodeOutOf s node seg Wn1 bn1 Wn2 bn2 n q := by
  rw [pay_apply]
  unfold Cert.Spec.nodeOutOf Cert.Spec.nodeHidOf Cert.Spec.gathOf Cert.Spec.hot
  simp only [h0, h1, h2, h3, h4, h5, h6]

theorem hz : (![0, 0] : Fin 2 → Nat) = fun _ => 0 := funext fun a => by fin_cases a <;> rfl

/-- The stage has 512 points. -/
theorem val_lt (t : Fin cfg1.N) : t.val < 512 := lt_of_lt_of_eq t.isLt N_1

/-- The windows' block indices at point t: the node, segment and result windows are on block t of their rows, every
    other window on its one block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- The specification over the arrays the stage is entered with. -/
abbrev nodeG (c : Dev nD) : S524288x128.Idx → EReal :=
  Cert.Spec.nodeArrOf (V c main_v5) (V c main_arg1) (fun i => V c main_v0 (ix2 (⟨(i 0).val, (i 0).isLt⟩ : Fin 524288) (0 : Fin 1))) (V c main_arg7) (fun i => V c main_v3 (ix2 (0 : Fin 1) (⟨(i 0).val, (i 0).isLt⟩ : Fin 128)))
    (V c main_arg9) (fun i => V c main_v4 (ix2 (0 : Fin 1) (⟨(i 0).val, (i 0).isLt⟩ : Fin 128)))

/-- Row n = 1024 t + p of the arrays, as a row number. -/
abbrev rowOf (t : Fin cfg1.N) (p : Fin 1024) : Fin 524288 := ⟨t.val * 1024 + p.val, by have := val_lt t; have := p.isLt; omega⟩

/-- What point t writes back is block t of the specification. -/
theorem flushed_eq (c : Dev nD) (t : Fin cfg1.N) :
    (dat1 (F := Ideal) V c).flushed 7 t = ((cfg1.win 7).blk t).view.read (Elt Ideal) (nodeG V c) := by
  show (cfg1.win 7).cut (grid1.coords t) ((dat1 (F := Ideal) V c).after 7 t) = _
  rw [after1_7]
  unfold out1_7
  rw [View.canon_unit_zero hz]
  simp only [View.ld_unit_zero (S := S1024x128) hz, View.ld_unit_zero (S := S1024x1) hz, View.ld_unit_zero (S := S4096x128) hz,
    View.ld_unit_zero (S := S256x128) hz, View.ld_unit_zero (S := S1x128) hz, View.ld_unit_zero (S := S128x128) hz]
  obtain ⟨e00, e01, e10, e11, e20, e21, e30, e31, e40, e41, e50, e51, e60, e61, e70, e71⟩ := idx_facts t
  funext j
  obtain ⟨p, q, rfl⟩ : ∃ (p : Fin 1024) (q : Fin 128), j = ix2 p q := ⟨j 0, j 1, eq_ix2 j⟩
  have he : ((cfg1.win 7).blk t).view.emb (ix2 p q) = ix2 (rowOf t p) q := by
    funext a; apply Fin.ext
    match a with
    | ⟨0, _⟩ => show win1_7.index t (0 : Fin 2) * 1024 + 1 * p.val = t.val * 1024 + p.val; omega
    | ⟨1, _⟩ => show win1_7.index t (1 : Fin 2) * 128 + 1 * q.val = q.val; omega
  show k1_pay1 (F := Ideal) (iblk1 V c 1 t) (iblk1 V c 2 t) (iblk1 V c 0 t) (iblk1 V c 3 t) (iblk1 V c 4 t) (iblk1 V c 5 t) (iblk1 V c 6 t) (ix2 p q)
    = nodeG V c (((cfg1.win 7).blk t).view.emb (ix2 p q))
  rw [he]
  refine pay_eq_nodeOut _ _ _ _ _ _ _ (iblk1 V c 0 t) (iblk1 V c 1 t) (iblk1 V c 2 t) (iblk1 V c 3 t) (iblk1 V c 4 t) (iblk1 V c 5 t) (iblk1 V c 6 t)
    p q (rowOf t p) ?_ ?_ ?_ ?_ ?_ ?_ ?_
  · intro h
    show V c main_arg1 (((cfg1.win 0).blk t).view.emb (ix2 p h)) = V c main_arg1 (ix2 (rowOf t p) h)
    refine congrArg _ (funext fun a => Fin.ext ?_)
    match a with
    | ⟨0, _⟩ => show win1_0.index t (0 : Fin 2) * 1024 + 1 * p.val = t.val * 1024 + p.val; omega
    | ⟨1, _⟩ => show win1_0.index t (1 : Fin 2) * 128 + 1 * h.val = h.val; omega
  · show V c main_v0 (((cfg1.win 1).blk t).view.emb (ix2 p (0 : Fin 1))) = V c main_v0 (ix2 (rowOf t p) (0 : Fin 1))
    refine congrArg _ (funext fun a => Fin.ext ?_)
    match a with
    | ⟨0, _⟩ => show win1_1.index t (0 : Fin 2) * 1024 + 1 * p.val = t.val * 1024 + p.val; omega
    | ⟨1, _⟩ => show win1_1.index t (1 : Fin 2) * 1 + 1 * 0 = 0; omega
  · intro g j
    show V c main_v5 (((cfg1.win 2).blk t).view.emb (ix2 g j)) = V c main_v5 (ix2 g j)
    refine congrArg _ (funext fun a => Fin.ext ?_)
    match a with
    | ⟨0, _⟩ => show win1_2.index t (0 : Fin 2) * 4096 + 1 * g.val = g.val; omega
    | ⟨1, _⟩ => show win1_2.index t (1 : Fin 2) * 128 + 1 * j.val = j.val; omega
  · intro k' k
    show V c main_arg7 (((cfg1.win 3).blk t).view.emb (ix2 k' k)) = V c main_arg7 (ix2 k' k)
    refine congrArg _ (funext fun a => Fin.ext ?_)
    match a with
    | ⟨0, _⟩ => show win1_3.index t (0 : Fin 2) * 256 + 1 * k'.val = k'.val; omega
    | ⟨1, _⟩ => show win1_3.index t (1 : Fin 2) * 128 + 1 * k.val = k.val; omega
  · intro k
    show V c main_v3 (((cfg1.win 4).blk t).view.emb (ix2 (0 : Fin 1) k)) = V c main_v3 (ix2 (0 : Fin 1) k)
    refine congrArg _ (funext fun a => Fin.ext ?_)
    match a with
    | ⟨0, _⟩ => show win1_4.index t (0 : Fin 2) * 1 + 1 * 0 = 0; omega
    | ⟨1, _⟩ => show win1_4.index t (1 : Fin 2) * 128 + 1 * k.val = k.val; omega
  · intro k j
    show V c main_arg9 (((cfg1.win 5).blk t).view.emb (ix2 k j)) = V c main_arg9 (ix2 k j)
    refine congrArg _ (funext fun a => Fin.ext ?_)
    match a with
    | ⟨0, _⟩ => show win1_5.index t (0 : Fin 2) * 128 + 1 * k.val = k.val; omega
    | ⟨1, _⟩ => show win1_5.index t (1 : Fin 2) * 128 + 1 * j.val = j.val; omega
  · intro k
    show V c main_v4 (((cfg1.win 6).blk t).view.emb (ix2 (0 : Fin 1) k)) = V c main_v4 (ix2 (0 : Fin 1) k)
    refine congrArg _ (funext fun a => Fin.ext ?_)
    match a with
    | ⟨0, _⟩ => show win1_6.index t (0 : Fin 2) * 1 + 1 * 0 = 0; omega
    | ⟨1, _⟩ => show win1_6.index t (1 : Fin 2) * 128 + 1 * k.val = k.val; omega

/-- An index of the result array is in point t's block iff each coordinate is in the block's range on its axis. -/
theorem mem_blk (t : Fin cfg1.N) (i : S524288x128.Idx) :
    i ∈ ((cfg1.win 7).blk t).view.set ↔ ∀ a : Fin 2, win1_7.index t a * S1024x128.size a ≤ (i a).val ∧ (i a).val < win1_7.index t a * S1024x128.size a + S1024x128.size a := by
  show i ∈ ((View.whole main_v6).slice (win1_7.rect t)).set ↔ _
  rw [View.set_slice_whole, Rect.mem_set_unit]
  exact Iff.rfl

/-- Every row of the result array is in some point's block: row r in that of point r / 1024. -/
theorem covered (i : S524288x128.Idx) :
    ∃ t : Fin cfg1.N, (cfg1.win 7).flush t = true ∧ i ∈ ((cfg1.win 7).blk t).view.set := by
  have hi0 : (i 0).val < 524288 := (i 0).isLt
  have hi1 : (i 1).val < 128 := (i 1).isLt
  have hN : cfg1.N = 512 := N_1
  let t : Fin cfg1.N := ⟨(i 0).val / 1024, by rw [hN]; omega⟩
  have htv : t.val = (i 0).val / 1024 := rfl
  obtain ⟨e00, e01, e10, e11, e20, e21, e30, e31, e40, e41, e50, e51, e60, e61, e70, e71⟩ := idx_facts t
  refine ⟨t, flush1_7 t, ?_⟩
  rw [mem_blk]
  intro a
  match a with
  | ⟨0, _⟩ => show win1_7.index t (0 : Fin 2) * 1024 ≤ (i 0).val ∧ (i 0).val < win1_7.index t (0 : Fin 2) * 1024 + 1024; omega
  | ⟨1, _⟩ => show win1_7.index t (1 : Fin 2) * 128 ≤ (i 1).val ∧ (i 1).val < win1_7.index t (1 : Fin 2) * 128 + 128; omega
/-- After the node stage its output array holds the node MLP over the set table the stage found in main_v5. -/
theorem node_value (c : Dev nD) :
    (dat1 (F := Ideal) V c).arrAt 7 cfg1.N
      = (Cert.Spec.nodeArrOf (V c main_v5) (V c main_arg1) (fun i => V c main_v0 (ix2 (⟨(i 0).val, (i 0).isLt⟩ : Fin 524288) (0 : Fin 1))) (V c main_arg7) (fun i => V c main_v3 (ix2 (0 : Fin 1) (⟨(i 0).val, (i 0).isLt⟩ : Fin 128)))
          (V c main_arg9) (fun i => V c main_v4 (ix2 (0 : Fin 1) (⟨(i 0).val, (i 0).isLt⟩ : Fin 128))) : S524288x128.Idx → EReal) :=
  (dat1 (F := Ideal) V c).arrAt_eq_of_cover 7 (nodeG V c) (fun t _ => flushed_eq V c t) (covered)

end Cert.KernelIdeal.NodeValue

end
-- ==== Proof.KernelResults.lean ====
/- The idealized kernel's two results as functions of its arguments. The host reshapes only re-lay the segment ids and
   the four bias vectors (a column, four rows); the set stage, entered from those contents, leaves the set MLP of the
   segment sums in the set table; the node stage, entered from what the set stage left, leaves the node MLP over that
   table. Read against the launch memory these are the specification's two arrays. At the ideal instance. -/
import proofs.«417193_j3779571220745_1_alg».proof.Proof.TwoStageRun
import proofs.«417193_j3779571220745_1_alg».proof.Proof.SetValue
import proofs.«417193_j3779571220745_1_alg».proof.Proof.NodeValue
import proofs.«417193_j3779571220745_1_alg».proof.Proof.Spec
import Idealize.ShloMosaic.Lib.Pipeline.Value
import Idealize.ShloMosaic.Lib.StableHlo.Run
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Results

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open Cert.KernelIdeal.SetStage (dat0 A_eq0)
open Cert.KernelIdeal.NodeStage (dat1 A_eq1)
open Cert.KernelIdeal.TwoStageRun

variable (m : (ℓ : Loc nD τ sig) → Buf (Elt Ideal) ℓ) (ρ : Dev nD → PrngReg)

/-! The host reshapes, read at an index -/

/-- After the reshapes the column main_v0 is the segment ids re-laid. -/
theorem after_v0 (W : Valuation τ sig (Elt Ideal)) :
    StableHlo.after (hostOps0 (F := Ideal)) W (Proc.devRef .tc main_v0)
      = (shapeCast S524288x1 (W (Proc.devRef .tc main_arg2)) shapeCasts_S524288_S524288x1 : S524288x1.Idx → BitVec 32) := by
  after_results; rfl
theorem after_v1 (W : Valuation τ sig (Elt Ideal)) :
    StableHlo.after (hostOps0 (F := Ideal)) W (Proc.devRef .tc main_v1)
      = (shapeCast S1x128 (W (Proc.devRef .tc main_arg4)) shapeCasts_S128_S1x128 : S1x128.Idx → EReal) := by
  after_results; rfl
theorem after_v2 (W : Valuation τ sig (Elt Ideal)) :
    StableHlo.after (hostOps0 (F := Ideal)) W (Proc.devRef .tc main_v2)
      = (shapeCast S1x128 (W (Proc.devRef .tc main_arg6)) shapeCasts_S128_S1x128 : S1x128.Idx → EReal) := by
  after_results; rfl
theorem after_v3 (W : Valuation τ sig (Elt Ideal)) :
    StableHlo.after (hostOps0 (F := Ideal)) W (Proc.devRef .tc main_v3)
      = (shapeCast S1x128 (W (Proc.devRef .tc main_arg8)) shapeCasts_S128_S1x128 : S1x128.Idx → EReal) := by
  after_results; rfl
theorem after_v4 (W : Valuation τ sig (Elt Ideal)) :
    StableHlo.after (hostOps0 (F := Ideal)) W (Proc.devRef .tc main_v4)
      = (shapeCast S1x128 (W (Proc.devRef .tc main_arg10)) shapeCasts_S128_S1x128 : S1x128.Idx → EReal) := by
  after_results; rfl

/-- A vector re-laid as a column, read at row n, is the vector at n. -/
theorem col_read {α : Type} (x : S524288.Idx → α) (i : S524288.Idx) :
    shapeCast S524288x1 x shapeCasts_S524288_S524288x1 (ix2 (⟨(i 0).val, (i 0).isLt⟩ : Fin 524288) (0 : Fin 1)) = x i := by
  refine shapeCast_apply x _ _ i ?_
  rw [Shape.rowMajor_val_one, Shape.rowMajor_val_two]
  show (i 0).val = (i 0).val * 1 + 0
  omega
/-- A vector re-laid as a row, read at column j, is the vector at j. -/
theorem row_read {α : Type} (x : S128.Idx → α) (i : S128.Idx) :
    shapeCast S1x128 x shapeCasts_S128_S1x128 (ix2 (0 : Fin 1) (⟨(i 0).val, (i 0).isLt⟩ : Fin 128)) = x i := by
  refine shapeCast_apply x _ _ i ?_
  rw [Shape.rowMajor_val_one, Shape.rowMajor_val_two]
  show (i 0).val = 0 * 128 + (i 0).val
  omega

/-! What the set stage is entered from, read against the launch memory -/

/-- A buffer no reshape writes enters the set stage as launched. -/
theorem V1_arg (c : Dev nD) (r : Ref sig .tc) (h : r ∉ reshaped) :
    V1 (F := Ideal) m ρ c r = m ((c : Thread nD τ).loc r) :=
  (W1_of m ρ c r h).trans rfl

/-- The column of segment ids, read by rows, is the segment-id argument. -/
theorem V1_seg (c : Dev nD) :
    (fun i : S524288.Idx => V1 (F := Ideal) m ρ c main_v0 (ix2 (⟨(i 0).val, (i 0).isLt⟩ : Fin 524288) (0 : Fin 1)))
      = m ((c : Thread nD τ).loc main_arg2) := by
  funext i
  exact (congrFun (after_v0 (W0 m ρ c)) _).trans (col_read _ i)
/-- Each bias row, read by columns, is its bias argument. -/
theorem V1_b1 (c : Dev nD) :
    (fun i : S128.Idx => V1 (F := Ideal) m ρ c main_v1 (ix2 (0 : Fin 1) (⟨(i 0).val, (i 0).isLt⟩ : Fin 128)))
      = m ((c : Thread nD τ).loc main_arg4) := by
  funext i
  exact (congrFun (after_v1 (W0 m ρ c)) _).trans (row_read _ i)
theorem V1_b2 (c : Dev nD) :
    (fun i : S128.Idx => V1 (F := Ideal) m ρ c main_v2 (ix2 (0 : Fin 1) (⟨(i 0).val, (i 0).isLt⟩ : Fin 128)))
      = m ((c : Thread nD τ).loc main_arg6) := by
  funext i
  exact (congrFun (after_v2 (W0 m ρ c)) _).trans (row_read _ i)
theorem V1_b3 (c : Dev nD) :
    (fun i : S128.Idx => V1 (F := Ideal) m ρ c main_v3 (ix2 (0 : Fin 1) (⟨(i 0).val, (i 0).isLt⟩ : Fin 128)))
      = m ((c : Thread nD τ).loc main_arg8) := by
  funext i
  exact (congrFun (after_v3 (W0 m ρ c)) _).trans (row_read _ i)
theorem V1_b4 (c : Dev nD) :
    (fun i : S128.Idx => V1 (F := Ideal) m ρ c main_v4 (ix2 (0 : Fin 1) (⟨(i 0).val, (i 0).isLt⟩ : Fin 128)))
      = m ((c : Thread nD τ).loc main_arg10) := by
  funext i
  exact (congrFun (after_v4 (W0 m ρ c)) _).trans (row_read _ i)

/-- The set stage's final array is the set MLP of the segment sums of the arguments. -/
theorem set_table (c : Dev nD) :
    (dat0 (F := Ideal) (V1 m ρ) c).arrAt 7 cfg0.N
      = (Cert.Spec.setArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) : S4096x128.Idx → EReal) := by
  rw [Cert.KernelIdeal.SetValue.set_value (V1 m ρ) c, V1_seg m ρ c, V1_b1 m ρ c, V1_b2 m ρ c,
    V1_arg m ρ c main_arg0 (by decide), V1_arg m ρ c main_arg1 (by decide), V1_arg m ρ c main_arg3 (by decide),
    V1_arg m ρ c main_arg5 (by decide)]

/-- The set table at the end is the set MLP of the segment sums of the arguments. -/
theorem set_result (c : Dev nD) :
    W3 (F := Ideal) m ρ c (Proc.devRef .tc main_v5)
      = (Cert.Spec.setArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) : S4096x128.Idx → EReal) := by
  rw [W3_main_v5]; exact set_table m ρ c

/-- The node result at the end is the node MLP over that set table. -/
theorem node_result (c : Dev nD) :
    W3 (F := Ideal) m ρ c (Proc.devRef .tc main_v6)
      = (Cert.Spec.nodeArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) : S524288x128.Idx → EReal) := by
  rw [W3_main_v6, Cert.KernelIdeal.NodeValue.node_value (V2 m ρ) c]
  unfold Cert.Spec.nodeArr
  -- the set table the node stage finds is what the set stage left
  have t : V2 (F := Ideal) m ρ c main_v5 = (Cert.Spec.setArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) : S4096x128.Idx → EReal) :=
    (W2_arr m ρ c 7).trans (set_table m ρ c)
  -- the set stage only reads the node features and the segment-id column
  have a1 : V2 (F := Ideal) m ρ c main_arg1 = m ((c : Thread nD τ).loc main_arg1) :=
    (W2_in m ρ c 0 rfl).trans (V1_arg m ρ c main_arg1 (by decide))
  have s0 : V2 (F := Ideal) m ρ c main_v0 = V1 m ρ c main_v0 := W2_in m ρ c 1 rfl
  -- the node stage's weights and bias rows are no array of the set stage
  have a7 : V2 (F := Ideal) m ρ c main_arg7 = m ((c : Thread nD τ).loc main_arg7) :=
    (W2_of_ne m ρ c main_arg7 (by decide)).trans (V1_arg m ρ c main_arg7 (by decide))
  have a9 : V2 (F := Ideal) m ρ c main_arg9 = m ((c : Thread nD τ).loc main_arg9) :=
    (W2_of_ne m ρ c main_arg9 (by decide)).trans (V1_arg m ρ c main_arg9 (by decide))
  have s3 : V2 (F := Ideal) m ρ c main_v3 = V1 m ρ c main_v3 := W2_of_ne m ρ c main_v3 (by decide)
  have s4 : V2 (F := Ideal) m ρ c main_v4 = V1 m ρ c main_v4 := W2_of_ne m ρ c main_v4 (by decide)
  rw [t, a1, s0, a7, a9, s3, s4, V1_seg m ρ c, V1_b3 m ρ c, V1_b4 m ρ c]

end Cert.KernelIdeal.Results

end
-- ==== Proof.RefIsSpec.lean ====
/- The reference's two results are the specification's, index by index, where every segment id lies in [0, 4096):
   its scatter-add of the node rows into a zero table is the segment sums (an id in range lands on its row, and the
   sum over the landing rows is the one-hot sum); its gather of the set table at the ids (wrapped if negative, clamped)
   is row seg n; its dot products, bias adds and maxima with zero are the MLPs'. At the ideal instance. -/
import proofs.«417193_j3779571220745_1_alg».proof.Proof.Gen.ReferenceIdeal.Read
import proofs.«417193_j3779571220745_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.ReferenceIdeal.RefValue

open Idealize.ShloMosaic Idealize.ShloMosaic.TcCoe Idealize.ShloMosaic.ValueIdx
open Cert.ReferenceIdeal Cert.ReferenceIdeal.Gen Cert.ReferenceIdeal.Read

variable (x0 : (⟨S4096x128, .f32⟩ : BufTy).Contents (Elt Ideal)) (x1 : (⟨S524288x128, .f32⟩ : BufTy).Contents (Elt Ideal))
  (x2 : (⟨S524288, .i32⟩ : BufTy).Contents (Elt Ideal)) (x3 : (⟨S256x128, .f32⟩ : BufTy).Contents (Elt Ideal))
  (x4 : (⟨S128, .f32⟩ : BufTy).Contents (Elt Ideal)) (x5 : (⟨S128x128, .f32⟩ : BufTy).Contents (Elt Ideal))
  (x6 : (⟨S128, .f32⟩ : BufTy).Contents (Elt Ideal)) (x7 : (⟨S256x128, .f32⟩ : BufTy).Contents (Elt Ideal))
  (x8 : (⟨S128, .f32⟩ : BufTy).Contents (Elt Ideal)) (x9 : (⟨S128x128, .f32⟩ : BufTy).Contents (Elt Ideal))
  (x10 : (⟨S128, .f32⟩ : BufTy).Contents (Elt Ideal))

/-! ## The scatter-add: where an update row lands -/

/-- Update index (n, h') lands on table index i exactly when the id of node n, read signed, is i's row and h' is
    i's column: the start is the id on the row axis and 0 on the column axis, the window coordinate 0 and h'. -/
theorem scatter_lands (idx : IVec S524288x1 32) (j : S524288x128.Idx) (i : S4096x128.Idx) :
    scatter_S4096x128_S524288x1_S524288x128_1_0_0_1.resultIdx? j idx = some i
      ↔ (idx (ix2 (j 0) (0 : Fin 1))).toInt = ((i 0).val : Int) ∧ j 1 = i 1 := by
  have hs0 : scatter_S4096x128_S524288x1_S524288x128_1_0_0_1.start j idx 0 = (idx (ix2 (j 0) (0 : Fin 1))).toInt := by
    unfold ScatterDims.start
    rw [dif_pos (show (0 : Fin S4096x128.rank) ∈ scatter_S4096x128_S524288x1_S524288x128_1_0_0_1.scatterDimsToOperandDims by decide)]
    congr 2
    funext b
    refine Fin.ext ?_
    match b with
    | ⟨0, _⟩ => rfl
    | ⟨1, _⟩ => rfl
  have hs1 : scatter_S4096x128_S524288x1_S524288x128_1_0_0_1.start j idx 1 = 0 := by
    unfold ScatterDims.start
    rw [dif_neg (show ¬(1 : Fin S4096x128.rank) ∈ scatter_S4096x128_S524288x1_S524288x128_1_0_0_1.scatterDimsToOperandDims by decide)]
  have hw0 : scatter_S4096x128_S524288x1_S524288x128_1_0_0_1.window j 0 = 0 := by
    unfold ScatterDims.window
    rw [dif_neg (show ¬(0 : Fin S4096x128.rank) ∈ scatter_S4096x128_S524288x1_S524288x128_1_0_0_1.sKept by decide)]
  have hw1 : scatter_S4096x128_S524288x1_S524288x128_1_0_0_1.window j 1 = (j 1).val := by
    unfold ScatterDims.window
    rw [dif_pos (show (1 : Fin S4096x128.rank) ∈ scatter_S4096x128_S524288x1_S524288x128_1_0_0_1.sKept by decide)]
    rfl
  have hi0 : (i 0).val < 4096 := (i 0).isLt
  have hj1 : (j 1).val < 128 := (j 1).isLt
  unfold ScatterDims.resultIdx?
  split
  · next hin =>
    rw [Option.some.injEq]
    constructor
    · intro e
      have e0 := congrArg (fun f => (f 0).val) e
      have e1 := congrArg (fun f => (f 1).val) e
      simp only [hs0, hw0, hs1, hw1] at e0 e1
      have h0 := hin 0
      rw [hs0, hw0] at h0
      refine ⟨by omega, Fin.ext (by omega)⟩
    · rintro ⟨e0, e1⟩
      funext a
      refine Fin.ext ?_
      match a with
      | ⟨0, _⟩ =>
        show (scatter_S4096x128_S524288x1_S524288x128_1_0_0_1.start j idx 0 + (scatter_S4096x128_S524288x1_S524288x128_1_0_0_1.window j 0 : Nat)).toNat = (i 0).val
        rw [hs0, hw0, e0]; simp
      | ⟨1, _⟩ =>
        show (scatter_S4096x128_S524288x1_S524288x128_1_0_0_1.start j idx 1 + (scatter_S4096x128_S524288x1_S524288x128_1_0_0_1.window j 1 : Nat)).toNat = (i 1).val
        rw [hs1, hw1, e1]; simp
  · next hout =>
    constructor
    · intro e; exact absurd e (by simp)
    · rintro ⟨e0, e1⟩
      refine absurd (fun a => ?_) hout
      match a with
      | ⟨0, _⟩ =>
        show 0 ≤ scatter_S4096x128_S524288x1_S524288x128_1_0_0_1.start j idx 0 + (scatter_S4096x128_S524288x1_S524288x128_1_0_0_1.window j 0 : Nat) ∧ scatter_S4096x128_S524288x1_S524288x128_1_0_0_1.start j idx 0 + (scatter_S4096x128_S524288x1_S524288x128_1_0_0_1.window j 0 : Nat) < (4096 : Nat)
        rw [hs0, hw0, e0]; omega
      | ⟨1, _⟩ =>
        show 0 ≤ scatter_S4096x128_S524288x1_S524288x128_1_0_0_1.start j idx 1 + (scatter_S4096x128_S524288x1_S524288x128_1_0_0_1.window j 1 : Nat) ∧ scatter_S4096x128_S524288x1_S524288x128_1_0_0_1.start j idx 1 + (scatter_S4096x128_S524288x1_S524288x128_1_0_0_1.window j 1 : Nat) < (128 : Nat)
        rw [hs1, hw1]; omega

/-- A signed id equal to a row below 4096 is the unsigned id equal to it. -/
theorem toInt_eq_iff_toNat (w : BitVec 32) (g : Nat) (hg : g < 4096) : w.toInt = (g : Int) ↔ w.toNat = g := by
  rw [BitVec.toInt_eq_toNat_cond]
  have := w.isLt
  split <;> omega

/-- The scatter-add of the node rows into the zero table is the segment sums. -/
theorem scatter_read (g : Fin 4096) (h : Fin 128) :
    val_main_v2 (F := Ideal) x1 x2 (ix2 g h) = Cert.Spec.agg x1 x2 g h := by
  unfold val_main_v2 Host.scatterAdd
  rw [Ideal.hostScatterAdd_def]
  unfold Ideal.hostScatterAdd
  rw [val_main_v0_apply, val_main_cst_apply, Ideal.ofBits_def, Ideal.ofBits_zero_f32, zero_add, Finset.sum_filter,
    sum_idx2]
  unfold Cert.Spec.agg
  refine Finset.sum_congr rfl fun n _ => ?_
  have hidx : val_main_v1 (F := Ideal) x2 (ix2 n (0 : Fin 1)) = x2 (ix1 n) := by
    rw [val_main_v1_apply]
    congr 1
    funext a
    match a with
    | ⟨0, _⟩ => rfl
  have hc : ∀ h' : Fin 128,
      (scatter_S4096x128_S524288x1_S524288x128_1_0_0_1.resultIdx? (ix2 n h') (val_main_v1 (F := Ideal) x2) = some (ix2 g h))
        ↔ ((x2 (ix1 n)).toNat = g.val ∧ h' = h) := by
    intro h'
    rw [scatter_lands]
    show (val_main_v1 (F := Ideal) x2 (ix2 n (0 : Fin 1))).toInt = (g.val : Int) ∧ h' = h ↔ _
    rw [hidx, toInt_eq_iff_toNat _ _ g.isLt]
  simp only [hc]
  unfold Cert.Spec.hot
  by_cases hn : (x2 (ix1 n)).toNat = g.val
  · simp only [hn, true_and, if_true, one_mul]
    rw [Finset.sum_ite_eq' Finset.univ h (fun h' => x1 (ix2 n h'))]
    simp
  · simp only [hn, false_and, if_false, zero_mul, Finset.sum_const_zero]

/-! ## Two blocks of 128 columns side by side -/

/-- Joining two [N, 128] arrays along the columns reads, at row p and column k, the first at k below 128 and the
    second at k − 128 from there on. -/
theorem concat_apply {N : Nat} (A B : (⟨2, ![N, 128]⟩ : Shape).Idx → EReal)
    (hc : Shape.Concatenates [(⟨2, ![N, 128]⟩ : Shape), (⟨2, ![N, 128]⟩ : Shape)] (⟨2, ![N, 256]⟩ : Shape) 1)
    (p : Fin N) (k : Fin 256) :
    concatenate (⟨2, ![N, 256]⟩ : Shape) 1 [⟨(⟨2, ![N, 128]⟩ : Shape), A⟩, ⟨(⟨2, ![N, 128]⟩ : Shape), B⟩] hc (ix2 p k)
      = Cert.Spec.side (fun h => A (ix2 p h)) (fun h => B (ix2 p h)) k := by
  unfold Cert.Spec.side
  split
  · next hk =>
    exact concatenate_pair_apply_left 1 A B hc (ix2 p k) rfl (ix2 p ⟨k.val, hk⟩) (fun b => by
      match b with
      | ⟨0, _⟩ => rfl
      | ⟨1, _⟩ => rfl)
  · next hk =>
    exact concatenate_pair_apply_right 1 A B hc (ix2 p k) rfl rfl (ix2 p ⟨k.val - 128, by have := k.isLt; omega⟩)
      (fun b hb => by
        match b with
        | ⟨0, _⟩ => rfl
        | ⟨1, _⟩ => exact absurd rfl hb)
      (by show k.val - 128 + 128 = k.val; omega)

/-! ## The gather: one row of the table, chosen by the id -/

/-- The gather reads, at (n, j), the table at column j of the row the start index of n names, read signed and
    clamped into [0, 4095]: the row axis is collapsed and carries the start, the column axis is the offset's. -/
theorem gather_apply {α : Type} (s : S4096x128.Idx → α) (idx : IVec S524288x1 32) (n : Fin 524288) (j : Fin 128) :
    Host.gather gather_S4096x128_S524288x1_S524288x128_1_0_n_n_0_1_1128 s idx (ix2 n j)
      = s (ix2 ⟨min (idx (ix2 n (0 : Fin 1))).toInt.toNat 4095, by omega⟩ j) := by
  unfold Host.gather
  congr 1
  funext a
  refine Fin.ext ?_
  match a with
  | ⟨0, _⟩ =>
    show gather_S4096x128_S524288x1_S524288x128_1_0_n_n_0_1_1128.start (ix2 n j) idx 0
        + gather_S4096x128_S524288x1_S524288x128_1_0_n_n_0_1_1128.batchCoord (ix2 n j) 0
        + gather_S4096x128_S524288x1_S524288x128_1_0_n_n_0_1_1128.offCoord (ix2 n j) 0 = _
    rw [GatherDims.batchCoord_eq_zero _ _ _ (by decide), GatherDims.offCoord_eq_zero _ _ _ (by decide)]
    simp only [Nat.add_zero]
    unfold GatherDims.start
    rw [dif_pos (show (0 : Fin S4096x128.rank) ∈ gather_S4096x128_S524288x1_S524288x128_1_0_n_n_0_1_1128.startIndexMap by decide)]
    have hsi : gather_S4096x128_S524288x1_S524288x128_1_0_n_n_0_1_1128.siIdx (ix2 n j)
        ⟨List.idxOf (0 : Fin S4096x128.rank) gather_S4096x128_S524288x1_S524288x128_1_0_n_n_0_1_1128.startIndexMap,
          List.idxOf_lt_length_iff.2 (show (0 : Fin S4096x128.rank) ∈ gather_S4096x128_S524288x1_S524288x128_1_0_n_n_0_1_1128.startIndexMap by decide)⟩
        = ix2 n (0 : Fin 1) := by
      funext b
      refine Fin.ext ?_
      match b with
      | ⟨0, _⟩ => rfl
      | ⟨1, _⟩ => rfl
    rw [hsi]
    rfl
  | ⟨1, _⟩ =>
    show gather_S4096x128_S524288x1_S524288x128_1_0_n_n_0_1_1128.start (ix2 n j) idx 1
        + gather_S4096x128_S524288x1_S524288x128_1_0_n_n_0_1_1128.batchCoord (ix2 n j) 1
        + gather_S4096x128_S524288x1_S524288x128_1_0_n_n_0_1_1128.offCoord (ix2 n j) 1 = j.val
    rw [GatherDims.batchCoord_eq_zero _ _ _ (by decide)]
    unfold GatherDims.start GatherDims.offCoord
    rw [dif_neg (show ¬(1 : Fin S4096x128.rank) ∈ gather_S4096x128_S524288x1_S524288x128_1_0_n_n_0_1_1128.startIndexMap by decide),
      dif_pos (show (1 : Fin S4096x128.rank) ∈ gather_S4096x128_S524288x1_S524288x128_1_0_n_n_0_1_1128.sKept by decide)]
    simp only [Nat.add_zero, Nat.zero_add]
    rfl

/-- Where the id is not negative the wrapped start index is the id itself. -/
theorem wrap_apply (hseg : Cert.Spec.SegInRange x2) (n : Fin 524288) :
    val_main_v19 (F := Ideal) x2 (ix2 n (0 : Fin 1)) = x2 (ix1 n) := by
  have hn := (hseg n).1
  have e : idx_main_v19 (ix2 n (0 : Fin 1)) = ix1 n := funext fun a => by
    match a with
    | ⟨0, _⟩ => rfl
  rw [val_main_v19_apply, e, val_main_v18_apply, val_main_v15_apply, val_main_v14_apply, val_main_c_apply]
  have hlt : (x2 (ix1 n)).slt 0#32 = false := by
    simp only [BitVec.slt, BitVec.toInt_zero, decide_eq_false_iff_not, not_lt]
    exact hn
  show Scalar.select (BitVec.ofBool ((x2 (ix1 n)).slt 0#32)) _ _ = _
  rw [hlt]
  exact select_zero _ _

/-- One row of a table is the one-hot sum over the rows. -/
theorem row_eq_gathOf (s : Cert.Spec.TG.Idx → EReal) (n : Fin 524288) (j : Fin 128) (hlt : (x2 (ix1 n)).toNat < 4096) :
    s (ix2 ⟨(x2 (ix1 n)).toNat, hlt⟩ j) = Cert.Spec.gathOf s x2 n j := by
  unfold Cert.Spec.gathOf Cert.Spec.hot
  rw [Finset.sum_eq_single (⟨(x2 (ix1 n)).toNat, hlt⟩ : Fin 4096)]
  · rw [if_pos rfl, one_mul]
  · intro g _ hg
    rw [if_neg (fun e => hg (Fin.ext e.symm)), zero_mul]
  · intro h
    exact absurd (Finset.mem_univ _) h

/-- The gather of the first result at the wrapped ids is row seg n of it. -/
theorem gather_read (hseg : Cert.Spec.SegInRange x2) (n : Fin 524288) (j : Fin 128) :
    val_main_v20 (F := Ideal) x0 x1 x2 x3 x4 x5 x6 (ix2 n j)
      = Cert.Spec.gathOf (val_main_v13 (F := Ideal) x0 x1 x2 x3 x4 x5 x6) x2 n j := by
  have hn := hseg n
  have hc := BitVec.toInt_eq_toNat_cond (x2 (ix1 n))
  have hw := (x2 (ix1 n)).isLt
  have hlt : (x2 (ix1 n)).toNat < 4096 := by
    split at hc <;> omega
  rw [← row_eq_gathOf x2 _ n j hlt]
  unfold val_main_v20
  rw [gather_apply]
  congr 2
  refine Fin.ext ?_
  show min (val_main_v19 (F := Ideal) x2 (ix2 n (0 : Fin 1))).toInt.toNat 4095 = (x2 (ix1 n)).toNat
  rw [wrap_apply x2 hseg]
  split at hc <;> omega

/-! ## The set MLP -/

/-- The set MLP's input row: the segment sums beside the set row. -/
theorem v3_apply (p : Fin 4096) (k : Fin 256) :
    val_main_v3 (F := Ideal) x0 x1 x2 (ix2 p k)
      = Cert.Spec.side (Cert.Spec.agg x1 x2 p) (fun h => x0 (ix2 p h)) k := by
  unfold val_main_v3
  refine (concat_apply (N := 4096) _ _ _ p k).trans ?_
  exact congrArg (fun a => Cert.Spec.side a (fun h => x0 (ix2 p h)) k) (funext fun h => scatter_read x1 x2 p h)

/-- The set MLP's hidden layer. -/
theorem setHid_apply (p : Fin 4096) (j : Fin 128) :
    val_main_v8 (F := Ideal) x0 x1 x2 x3 x4 (ix2 p j) = Cert.Spec.setHid x0 x1 x2 x3 x4 p j := by
  have el : ∀ k : Fin 256, lidx_main_v4 (ix2 p j) k = ix2 p k := fun k => funext fun a => Fin.ext (by
    match a with
    | ⟨0, _⟩ => rfl
    | ⟨1, _⟩ => rfl)
  have er : ∀ k : Fin 256, ridx_main_v4 (ix2 p j) k = ix2 k j := fun k => funext fun a => Fin.ext (by
    match a with
    | ⟨0, _⟩ => rfl
    | ⟨1, _⟩ => rfl)
  have eb : idx_main_v5 (idx_main_v6 (ix2 p j)) = ix1 j := funext fun a => Fin.ext (by
    match a with
    | ⟨0, _⟩ => rfl)
  rw [val_main_v8_apply, val_main_v7_apply, val_main_v4_apply, val_main_v6_apply, val_main_v5_apply,
    val_main_call0_v0_apply, val_main_call0_cst_apply]
  simp only [el, er, eb, v3_apply, Ideal.maximumf_def, Ideal.addf_def, Ideal.ofBits_def, Ideal.ofBits_zero_f32]
  rfl

/-- The first result, index by index. -/
theorem set_apply (p : Fin 4096) (q : Fin 128) :
    val_main_v13 (F := Ideal) x0 x1 x2 x3 x4 x5 x6 (ix2 p q) = Cert.Spec.setOut x0 x1 x2 x3 x4 x5 x6 p q := by
  have el : ∀ k : Fin 128, lidx_main_v9 (ix2 p q) k = ix2 p k := fun k => funext fun a => Fin.ext (by
    match a with
    | ⟨0, _⟩ => rfl
    | ⟨1, _⟩ => rfl)
  have er : ∀ k : Fin 128, ridx_main_v9 (ix2 p q) k = ix2 k q := fun k => funext fun a => Fin.ext (by
    match a with
    | ⟨0, _⟩ => rfl
    | ⟨1, _⟩ => rfl)
  have eb : idx_main_v10 (idx_main_v11 (ix2 p q)) = ix1 q := funext fun a => Fin.ext (by
    match a with
    | ⟨0, _⟩ => rfl)
  rw [val_main_v13_apply, val_main_v12_apply, val_main_v9_apply, val_main_v11_apply, val_main_v10_apply,
    val_main_call1_v0_apply, val_main_call1_cst_apply]
  simp only [el, er, eb, setHid_apply, Ideal.maximumf_def, Ideal.addf_def, Ideal.ofBits_def, Ideal.ofBits_zero_f32]
  rfl

/-- The reference's first result is the set MLP of the segment sums. -/
theorem set_eq (hseg : Cert.Spec.SegInRange x2) :
    val_main_v13 (F := Ideal) x0 x1 x2 x3 x4 x5 x6 = Cert.Spec.setArr x0 x1 x2 x3 x4 x5 x6 := by
  funext i
  obtain ⟨p, q, rfl⟩ : ∃ (p : Fin 4096) (q : Fin 128), i = ix2 p q := ⟨i 0, i 1, eq_ix2 i⟩
  exact set_apply x0 x1 x2 x3 x4 x5 x6 p q

/-! ## The node MLP -/

/-- The node MLP's input row: the node row beside the gathered set row. -/
theorem v21_apply (hseg : Cert.Spec.SegInRange x2) (n : Fin 524288) (k : Fin 256) :
    val_main_v21 (F := Ideal) x0 x1 x2 x3 x4 x5 x6 (ix2 n k)
      = Cert.Spec.side (fun h => x1 (ix2 n h))
          (Cert.Spec.gathOf (val_main_v13 (F := Ideal) x0 x1 x2 x3 x4 x5 x6) x2 n) k := by
  unfold val_main_v21
  refine (concat_apply (N := 524288) _ _ _ n k).trans ?_
  exact congrArg (fun b => Cert.Spec.side (fun h => x1 (ix2 n h)) b k)
    (funext fun h => gather_read x0 x1 x2 x3 x4 x5 x6 hseg n h)

/-- The node MLP's hidden layer, over the reference's first result. -/
theorem nodeHid_apply (hseg : Cert.Spec.SegInRange x2) (n : Fin 524288) (j : Fin 128) :
    val_main_v26 (F := Ideal) x0 x1 x2 x3 x4 x5 x6 x7 x8 (ix2 n j)
      = Cert.Spec.nodeHidOf (val_main_v13 (F := Ideal) x0 x1 x2 x3 x4 x5 x6) x1 x2 x7 x8 n j := by
  have el : ∀ k : Fin 256, lidx_main_v22 (ix2 n j) k = ix2 n k := fun k => funext fun a => Fin.ext (by
    match a with
    | ⟨0, _⟩ => rfl
    | ⟨1, _⟩ => rfl)
  have er : ∀ k : Fin 256, ridx_main_v22 (ix2 n j) k = ix2 k j := fun k => funext fun a => Fin.ext (by
    match a with
    | ⟨0, _⟩ => rfl
    | ⟨1, _⟩ => rfl)
  have eb : idx_main_v23 (idx_main_v24 (ix2 n j)) = ix1 j := funext fun a => Fin.ext (by
    match a with
    | ⟨0, _⟩ => rfl)
  rw [val_main_v26_apply, val_main_v25_apply, val_main_v22_apply, val_main_v24_apply, val_main_v23_apply,
    val_main_call2_v0_apply, val_main_call2_cst_apply]
  simp only [el, er, eb, v21_apply x0 x1 x2 x3 x4 x5 x6 hseg, Ideal.maximumf_def, Ideal.addf_def, Ideal.ofBits_def,
    Ideal.ofBits_zero_f32]
  rfl

/-- The second result, index by index, over the reference's first result. -/
theorem node_apply (hseg : Cert.Spec.SegInRange x2) (n : Fin 524288) (q : Fin 128) :
    val_main_v31 (F := Ideal) x0 x1 x2 x3 x4 x5 x6 x7 x8 x9 x10 (ix2 n q)
      = Cert.Spec.nodeOutOf (val_main_v13 (F := Ideal) x0 x1 x2 x3 x4 x5 x6) x1 x2 x7 x8 x9 x10 n q := by
  have el : ∀ k : Fin 128, lidx_main_v27 (ix2 n q) k = ix2 n k := fun k => funext fun a => Fin.ext (by
    match a with
    | ⟨0, _⟩ => rfl
    | ⟨1, _⟩ => rfl)
  have er : ∀ k : Fin 128, ridx_main_v27 (ix2 n q) k = ix2 k q := fun k => funext fun a => Fin.ext (by
    match a with
    | ⟨0, _⟩ => rfl
    | ⟨1, _⟩ => rfl)
  have eb : idx_main_v28 (idx_main_v29 (ix2 n q)) = ix1 q := funext fun a => Fin.ext (by
    match a with
    | ⟨0, _⟩ => rfl)
  rw [val_main_v31_apply, val_main_v30_apply, val_main_v27_apply, val_main_v29_apply, val_main_v28_apply,
    val_main_call3_v0_apply, val_main_call3_cst_apply]
  simp only [el, er, eb, nodeHid_apply x0 x1 x2 x3 x4 x5 x6 x7 x8 hseg, Ideal.maximumf_def, Ideal.addf_def,
    Ideal.ofBits_def, Ideal.ofBits_zero_f32]
  rfl

/-- The reference's second result is the node MLP over its first. -/
theorem node_eq (hseg : Cert.Spec.SegInRange x2) :
    val_main_v31 (F := Ideal) x0 x1 x2 x3 x4 x5 x6 x7 x8 x9 x10
      = Cert.Spec.nodeArr x0 x1 x2 x3 x4 x5 x6 x7 x8 x9 x10 := by
  funext i
  obtain ⟨n, q, rfl⟩ : ∃ (n : Fin 524288) (q : Fin 128), i = ix2 n q := ⟨i 0, i 1, eq_ix2 i⟩
  rw [node_apply x0 x1 x2 x3 x4 x5 x6 x7 x8 x9 x10 hseg n q, set_eq x0 x1 x2 x3 x4 x5 x6 hseg]
  rfl

end Cert.ReferenceIdeal.RefValue

end
-- ==== Proof.PreRange.lean ====
/- The precondition gives the domain: its last conjunct says every segment id, read signed, is at least 0 and below
   4096. -/
import proofs.«417193_j3779571220745_1_alg».proof.Pre_finite_inputs
import proofs.«417193_j3779571220745_1_alg».proof.Proof.Spec
import Idealize.ShloMosaic.PureOps.Ideal
import Idealize.ShloMosaic.Lib.ValueIdx
import Idealize.ShloMosaic.Lib.ReduceAll
import Idealize.ShloMosaic.Lib.StableHlo.Predicate

noncomputable section

namespace Cert.PreRange

open Idealize.ShloMosaic Idealize.ShloMosaic.ValueIdx
open Cert.Pre_finite_inputs

variable {F : FTy → Type} [FloatOps F] [Cert.Pre_finite_inputs.Facts]

/-- A rank-0 array has one index. -/
instance : Subsingleton S_.Idx := ⟨fun a b => funext fun d => d.elim0⟩

/-- Where the printed precondition is all ones, every segment id lies in [0, 4096). -/
theorem seg_in_range (x0 : FVec F S4096x128 .f32) (x1 : FVec F S524288x128 .f32) (x2 : IVec S524288 32) (x3 : FVec F S256x128 .f32)
    (x4 : FVec F S128 .f32) (x5 : FVec F S128x128 .f32) (x6 : FVec F S128 .f32) (x7 : FVec F S256x128 .f32) (x8 : FVec F S128 .f32)
    (x9 : FVec F S128x128 .f32) (x10 : FVec F S128 .f32)
    (h : Cert.Pre_finite_inputs.fn (F := F) x0 x1 x2 x3 x4 x5 x6 x7 x8 x9 x10 = (fun _ => 1#1)) :
    Cert.Spec.SegInRange x2 := by
  intro n
  -- the one bit of the result, unfolded to the chain of conjunctions
  have h0 := congrFun h ix0
  dsimp only [Cert.Pre_finite_inputs.fn, Cert.Pre_finite_inputs.fn_part1, Cert.Pre_finite_inputs.fn_part2,
    Cert.Pre_finite_inputs.fn_part3] at h0
  -- the last conjunct: the reduction of (seg ≥ 0) ∧ (seg < 4096) over all positions is 1
  have h1 := (IntOp.andi_eq_one.1 h0).2
  -- so the conjunction holds at position n
  have h2 := Host.reduce_andi_all _ _ _ _ _ h1 (ix1 n)
  obtain ⟨hge, hlt⟩ := IntOp.andi_eq_one.1 h2
  -- each comparison word read back signed; the broadcast scalars are the literals 0 and 4096
  have hge' : (0#32 : BitVec 32).toInt ≤ (x2 (ix1 n)).toInt := IntOp.cmpi_sge.1 hge
  have hlt' : (x2 (ix1 n)).toInt < (4096#32 : BitVec 32).toInt := IntOp.cmpi_slt.1 hlt
  have e0 : (0#32 : BitVec 32).toInt = 0 := by decide
  have e1 : (4096#32 : BitVec 32).toInt = 4096 := by decide
  rw [e0] at hge'
  rw [e1] at hlt'
  exact ⟨hge', hlt'⟩

end Cert.PreRange

end
-- ==== Proof.lean ====
/- The proof of `Cert.Claim`. The kernel computes, in two stages, s = the set MLP of the segment sums of the node
   features beside the set features, and n = the node MLP of the node features beside row seg n of s; the segment sum and
   the row lookup are both one-hot products (a 0/1 indicator of "node n carries segment id g" times the rows), the first
   accumulated over 512 blocks of 1024 nodes. The reference scatters-and-adds the rows into a zero table and gathers rows
   of s at the ids. Where every id lies in [0, 4096) — the stated domain — the scatter's landing sum is the indicator sum
   and the gathered row is the indicator sum over the table's rows, so both programs compute the specification
   (Proof/Spec.lean) index by index on the extended reals; the only laws used are 0·x = 0, 1·x = x, x + 0 = x and that
   finite sums may be regrouped.
   Frames: each program's run (Proof/TwoStageRun.lean and its word-level counterpart) ends with every unscoped buffer at
   the last boundary's contents, where the arguments are as launched; the reference's frame is its run with the results
   dropped. No rewrite was applied by the idealization, so the third conjunct is trivial. -/
import proofs.«417193_j3779571220745_1_alg».proof.Defs
import proofs.«417193_j3779571220745_1_alg».proof.Proof.Gen.Kernel
import proofs.«417193_j3779571220745_1_alg».proof.Proof.Gen.KernelIdeal
import proofs.«417193_j3779571220745_1_alg».proof.Proof.Gen.ReferenceIdeal
import proofs.«417193_j3779571220745_1_alg».proof.Proof.Gen.ReferenceIdeal.Run
import proofs.«417193_j3779571220745_1_alg».proof.Proof.Gen.ReferenceIdeal.Read
import proofs.«417193_j3779571220745_1_alg».proof.Proof.Gen.Pre_finite_inputs
import proofs.«417193_j3779571220745_1_alg».proof.Proof.WordTwoStageRun
import proofs.«417193_j3779571220745_1_alg».proof.Proof.TwoStageRun
import proofs.«417193_j3779571220745_1_alg».proof.Proof.KernelResults
import proofs.«417193_j3779571220745_1_alg».proof.Proof.RefIsSpec
import proofs.«417193_j3779571220745_1_alg».proof.Proof.PreRange
import Idealize.ShloMosaic.Adequacy
import Idealize.ShloMosaic.Init

noncomputable section

namespace Cert.Proof

open Idealize.ShloMosaic Idealize.SL.Sem

theorem frame_kernel : Cert.frame_Kernel := fun m ρ _ => Cert.Kernel.TwoStageRun.frame (F := Bits) m ρ

theorem frame_kernelIdeal : Cert.frame_KernelIdeal := fun m ρ _ => Cert.KernelIdeal.TwoStageRun.frame (F := Ideal) m ρ

theorem frame_reference : Cert.frame_ReferenceIdeal := fun m ρ _ =>
  (θ_run Cert.ReferenceIdeal.defs _ _).mono (fun _ h c => (h c).2.2) (Cert.ReferenceIdeal.Value.run (F := Ideal) m ρ)

/-- Both idealized programs end with the specification's two arrays of the (agreeing) arguments. -/
theorem algebraic : Cert.algebraic_KernelIdeal_ReferenceIdeal := by
  intro m ρ m' ρ' hpre hagree
  have hseg : ∀ c : Dev Cert.KernelIdeal.nD, Cert.Spec.SegInRange (m ((c.tc : Thread Cert.KernelIdeal.nD Cert.KernelIdeal.τ).loc Cert.KernelIdeal.main_arg2)) := fun c =>
    Cert.PreRange.seg_in_range (F := Ideal) _ _ _ _ _ _ _ _ _ _ _ (hpre c)
  refine ⟨fun c => Cert.Spec.setArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.Spec.nodeArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · refine (θ_run Cert.KernelIdeal.defs _ _).mono (fun r h c => ?_) (Cert.KernelIdeal.TwoStageRun.run_all (F := Ideal) m ρ)
    exact ⟨(h c _ (Cert.KernelIdeal.TwoStageRun.mem_uc Cert.KernelIdeal.main_v5 (by decide))).trans (Cert.KernelIdeal.Results.set_result m ρ c),
      (h c _ (Cert.KernelIdeal.TwoStageRun.mem_uc Cert.KernelIdeal.main_v6 (by decide))).trans (Cert.KernelIdeal.Results.node_result m ρ c),
      (h c _ (Cert.KernelIdeal.TwoStageRun.mem_uc Cert.KernelIdeal.main_arg0 (by decide))).trans (Cert.KernelIdeal.TwoStageRun.W3_main_arg0 m ρ c),
      (h c _ (Cert.KernelIdeal.TwoStageRun.mem_uc Cert.KernelIdeal.main_arg1 (by decide))).trans (Cert.KernelIdeal.TwoStageRun.W3_main_arg1 m ρ c),
      (h c _ (Cert.KernelIdeal.TwoStageRun.mem_uc Cert.KernelIdeal.main_arg2 (by decide))).trans (Cert.KernelIdeal.TwoStageRun.W3_main_arg2 m ρ c),
      (h c _ (Cert.KernelIdeal.TwoStageRun.mem_uc Cert.KernelIdeal.main_arg3 (by decide))).trans (Cert.KernelIdeal.TwoStageRun.W3_main_arg3 m ρ c),
      (h c _ (Cert.KernelIdeal.TwoStageRun.mem_uc Cert.KernelIdeal.main_arg4 (by decide))).trans (Cert.KernelIdeal.TwoStageRun.W3_main_arg4 m ρ c),
      (h c _ (Cert.KernelIdeal.TwoStageRun.mem_uc Cert.KernelIdeal.main_arg5 (by decide))).trans (Cert.KernelIdeal.TwoStageRun.W3_main_arg5 m ρ c),
      (h c _ (Cert.KernelIdeal.TwoStageRun.mem_uc Cert.KernelIdeal.main_arg6 (by decide))).trans (Cert.KernelIdeal.TwoStageRun.W3_main_arg6 m ρ c),
      (h c _ (Cert.KernelIdeal.TwoStageRun.mem_uc Cert.KernelIdeal.main_arg7 (by decide))).trans (Cert.KernelIdeal.TwoStageRun.W3_main_arg7 m ρ c),
      (h c _ (Cert.KernelIdeal.TwoStageRun.mem_uc Cert.KernelIdeal.main_arg8 (by decide))).trans (Cert.KernelIdeal.TwoStageRun.W3_main_arg8 m ρ c),
      (h c _ (Cert.KernelIdeal.TwoStageRun.mem_uc Cert.KernelIdeal.main_arg9 (by decide))).trans (Cert.KernelIdeal.TwoStageRun.W3_main_arg9 m ρ c),
      (h c _ (Cert.KernelIdeal.TwoStageRun.mem_uc Cert.KernelIdeal.main_arg10 (by decide))).trans (Cert.KernelIdeal.TwoStageRun.W3_main_arg10 m ρ c)⟩
  · refine (θ_run Cert.ReferenceIdeal.defs _ _).mono (fun r h c => ⟨?_, ?_, (h c).2.2⟩)
      (Cert.ReferenceIdeal.Value.run (F := Ideal) m' ρ')
    · rw [(h c).1, Cert.ReferenceIdeal.Read.val_main_v13_eq, (hagree c).1, (hagree c).2.1, (hagree c).2.2.1, (hagree c).2.2.2.1,
        (hagree c).2.2.2.2.1, (hagree c).2.2.2.2.2.1, (hagree c).2.2.2.2.2.2.1]
      exact Cert.ReferenceIdeal.RefValue.set_eq _ _ _ _ _ _ _ (hseg c)
    · rw [(h c).2.1, Cert.ReferenceIdeal.Read.val_main_v31_eq, (hagree c).1, (hagree c).2.1, (hagree c).2.2.1, (hagree c).2.2.2.1,
        (hagree c).2.2.2.2.1, (hagree c).2.2.2.2.2.1, (hagree c).2.2.2.2.2.2.1, (hagree c).2.2.2.2.2.2.2.1,
        (hagree c).2.2.2.2.2.2.2.2.1, (hagree c).2.2.2.2.2.2.2.2.2.1, (hagree c).2.2.2.2.2.2.2.2.2.2]
      exact Cert.ReferenceIdeal.RefValue.node_eq _ _ _ _ _ _ _ _ _ _ _ (hseg c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
